-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x256x256 : Shape := ⟨4, ![8, 96, 256, 256]⟩
abbrev S6x96 : Shape := ⟨2, ![6, 96]⟩
abbrev S96x1x1 : Shape := ⟨3, ![96, 1, 1]⟩
abbrev S96 : Shape := ⟨1, ![96]⟩
abbrev S_ : Shape := ⟨0, ![]⟩

class Facts : Prop where
  bcast_S_S8x96x256x256 : S_.BroadcastsInDim S8x96x256x256 (![] : Fin 0 → Fin S8x96x256x256.rank)
  reducesTo_S8x96x256x256_S_d0_1_2_3 : S8x96x256x256.ReducesTo [0, 1, 2, 3] S_
  h_S_ : 0 < S_.numel
  bcast_S_S6x96 : S_.BroadcastsInDim S6x96 (![] : Fin 0 → Fin S6x96.rank)
  reducesTo_S6x96_S_d0_1 : S6x96.ReducesTo [0, 1] S_
  bcast_S_S96x1x1 : S_.BroadcastsInDim S96x1x1 (![] : Fin 0 → Fin S96x1x1.rank)
  reducesTo_S96x1x1_S_d0_1_2 : S96x1x1.ReducesTo [0, 1, 2] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S8x96x256x256 .f32) (main_arg1 : FVec F S6x96 .f32) (main_arg2 : FVec F S96x1x1 .f32) (main_arg3 : FVec F S96 .f32) (main_arg4 : FVec F S96 .f32) : IVec S_ 1 :=
  let main_v0 : FVec F S8x96x256x256 .f32 := Host.absf main_arg0
  let main_cst : FVec F S_ .f32 := constant S_ .f32 0x7F800000#32
  let main_v1 : FVec F S8x96x256x256 .f32 := broadcastInDim S8x96x256x256 ![] bcast_S_S8x96x256x256 main_cst
  let main_v2 : IVec S8x96x256x256 1 := cmpf .olt main_v0 main_v1
  let main_c : IVec S_ 1 := constantI S_ 1 1#1
  let main_v3 : IVec S_ 1 := (fun x v => Host.reduce IntOp.andi x v reducesTo_S8x96x256x256_S_d0_1_2_3 h_S_) main_v2 main_c
  let main_v4 : FVec F S6x96 .f32 := Host.absf main_arg1
  let main_cst_0 : FVec F S_ .f32 := constant S_ .f32 0x7F800000#32
  let main_v5 : FVec F S6x96 .f32 := broadcastInDim S6x96 ![] bcast_S_S6x96 main_cst_0
  let main_v6 : IVec S6x96 1 := cmpf .olt main_v4 main_v5
  let main_c_1 : IVec S_ 1 := constantI S_ 1 1#1
  let main_v7 : IVec S_ 1 := (fun x v => Host.reduce IntOp.andi x v reducesTo_S6x96_S_d0_1 h_S_) main_v6 main_c_1
  let main_v8 : IVec S_ 1 := andi main_v3 main_v7
  let main_v9 : FVec F S96x1x1 .f32 := Host.absf main_arg2
  let main_cst_2 : FVec F S_ .f32 := constant S_ .f32 0x7F800000#32
  let main_v10 : FVec F S96x1x1 .f32 := broadcastInDim S96x1x1 ![] bcast_S_S96x1x1 main_cst_2
  let main_v11 : IVec S96x1x1 1 := cmpf .olt main_v9 main_v10
  let main_c_3 : IVec S_ 1 := constantI S_ 1 1#1
  let main_v12 : IVec S_ 1 := (fun x v => Host.reduce IntOp.andi x v reducesTo_S96x1x1_S_d0_1_2 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_v13 main_v16
-- ==== Kernel.lean ====
abbrev S8x96x256x256 : Shape := ⟨4, ![8, 96, 256, 256]⟩
abbrev S6x96 : Shape := ⟨2, ![6, 96]⟩
abbrev S96x1x1 : Shape := ⟨3, ![96, 1, 1]⟩
abbrev S96 : Shape := ⟨1, ![96]⟩
abbrev S8x96x256x1 : Shape := ⟨4, ![8, 96, 256, 1]⟩
abbrev S1x96x64x256 : Shape := ⟨4, ![1, 96, 64, 256]⟩
abbrev S1x96x64x1 : Shape := ⟨4, ![1, 96, 64, 1]⟩
abbrev S96x64x256 : Shape := ⟨3, ![96, 64, 256]⟩
abbrev S96x64 : Shape := ⟨2, ![96, 64]⟩
abbrev S96x64x1 : Shape := ⟨3, ![96, 64, 1]⟩
abbrev S8x96x256 : Shape := ⟨3, ![8, 96, 256]⟩
abbrev S_ : Shape := ⟨0, ![]⟩
abbrev S8x96 : Shape := ⟨2, ![8, 96]⟩
abbrev S96x6 : Shape := ⟨2, ![96, 6]⟩
abbrev S8x6 : Shape := ⟨2, ![8, 6]⟩
abbrev S8x2x3 : Shape := ⟨3, ![8, 2, 3]⟩
abbrev S8x2x48x3 : Shape := ⟨4, ![8, 2, 48, 3]⟩
abbrev S8x96x3 : Shape := ⟨3, ![8, 96, 3]⟩
abbrev S8x96x1 : Shape := ⟨3, ![8, 96, 1]⟩
abbrev S8x96x1x1 : Shape := ⟨4, ![8, 96, 1, 1]⟩
abbrev S8x96x256x257 : Shape := ⟨4, ![8, 96, 256, 257]⟩
abbrev S8x96x256x258 : Shape := ⟨4, ![8, 96, 256, 258]⟩
abbrev S1x96x64x258 : Shape := ⟨4, ![1, 96, 64, 258]⟩
abbrev S1x96x1x1 : Shape := ⟨4, ![1, 96, 1, 1]⟩
abbrev S96x64x258 : Shape := ⟨3, ![96, 64, 258]⟩

abbrev nBuf : Space → Nat
  | .hbm => 39
  | .vmem => 19
  | .smem => 0
  | _ => 0

abbrev bufTy : (tb : Table) → Fin (tcTables nBuf tb) → BufTy
  | .hbm, ⟨0, _⟩ => ⟨S8x96x256x256, .f32⟩
  | .hbm, ⟨1, _⟩ => ⟨S6x96, .f32⟩
  | .hbm, ⟨2, _⟩ => ⟨S96x1x1, .f32⟩
  | .hbm, ⟨3, _⟩ => ⟨S96, .f32⟩
  | .hbm, ⟨4, _⟩ => ⟨S96, .f32⟩
  | .hbm, ⟨5, _⟩ => ⟨S8x96x256x1, .f32⟩
  | .hbm, ⟨6, _⟩ => ⟨S8x96x256, .f32⟩
  | .hbm, ⟨7, _⟩ => ⟨S_, .f32⟩
  | .hbm, ⟨8, _⟩ => ⟨S8x96, .f32⟩
  | .hbm, ⟨9, _⟩ => ⟨S_, .f32⟩
  | .hbm, ⟨10, _⟩ => ⟨S8x96, .f32⟩
  | .hbm, ⟨11, _⟩ => ⟨S8x96, .f32⟩
  | .hbm, ⟨12, _⟩ => ⟨S96x6, .f32⟩
  | .hbm, ⟨13, _⟩ => ⟨S8x6, .f32⟩
  | .hbm, ⟨14, _⟩ => ⟨S8x6, .f32⟩
  | .hbm, ⟨15, _⟩ => ⟨S8x2x3, .f32⟩
  | .hbm, ⟨16, _⟩ => ⟨S8x2x48x3, .f32⟩
  | .hbm, ⟨17, _⟩ => ⟨S8x96x3, .f32⟩
  | .hbm, ⟨18, _⟩ => ⟨S8x96x1, .f32⟩
  | .hbm, ⟨19, _⟩ => ⟨S8x96, .f32⟩
  | .hbm, ⟨20, _⟩ => ⟨S8x96x1x1, .f32⟩
  | .hbm, ⟨21, _⟩ => ⟨S8x96x1, .f32⟩
  | .hbm, ⟨22, _⟩ => ⟨S8x96, .f32⟩
  | .hbm, ⟨23, _⟩ => ⟨S8x96x1x1, .f32⟩
  | .hbm, ⟨24, _⟩ => ⟨S8x96x1, .f32⟩
  | .hbm, ⟨25, _⟩ => ⟨S8x96, .f32⟩
  | .hbm, ⟨26, _⟩ => ⟨S8x96x1x1, .f32⟩
  | .hbm, ⟨27, _⟩ => ⟨S_, .i32⟩
  | .hbm, ⟨28, _⟩ => ⟨S8x96x256x1, .f32⟩
  | .hbm, ⟨29, _⟩ => ⟨S8x96x256x1, .f32⟩
  | .hbm, ⟨30, _⟩ => ⟨S8x96x256x1, .f32⟩
  | .hbm, ⟨31, _⟩ => ⟨S8x96x256x257, .f32⟩
  | .hbm, ⟨32, _⟩ => ⟨S8x96x256x1, .f32⟩
  | .hbm, ⟨33, _⟩ => ⟨S8x96x256x1, .f32⟩
  | .hbm, ⟨34, _⟩ => ⟨S8x96x256x1, .f32⟩
  | .hbm, ⟨35, _⟩ => ⟨S8x96x256x258, .f32⟩
  | .hbm, ⟨36, _⟩ => ⟨S96x1x1, .f32⟩
  | .hbm, ⟨37, _⟩ => ⟨S96x1x1, .f32⟩
  | .hbm, ⟨38, _⟩ => ⟨S8x96x256x256, .f32⟩
  | .local _ .vmem, ⟨0, _⟩ => ⟨S1x96x64x256, .f32⟩
  | .local _ .vmem, ⟨1, _⟩ => ⟨S1x96x64x256, .f32⟩
  | .local _ .vmem, ⟨2, _⟩ => ⟨S1x96x64x1, .f32⟩
  | .local _ .vmem, ⟨3, _⟩ => ⟨S1x96x64x1, .f32⟩
  | .local _ .vmem, ⟨4, _⟩ => ⟨S1x96x64x258, .f32⟩
  | .local _ .vmem, ⟨5, _⟩ => ⟨S1x96x64x258, .f32⟩
  | .local _ .vmem, ⟨6, _⟩ => ⟨S1x96x64x1, .f32⟩
  | .local _ .vmem, ⟨7, _⟩ => ⟨S1x96x64x1, .f32⟩
  | .local _ .vmem, ⟨8, _⟩ => ⟨S1x96x1x1, .f32⟩
  | .local _ .vmem, ⟨9, _⟩ => ⟨S1x96x1x1, .f32⟩
  | .local _ .vmem, ⟨10, _⟩ => ⟨S1x96x1x1, .f32⟩
  | .local _ .vmem, ⟨11, _⟩ => ⟨S1x96x1x1, .f32⟩
  | .local _ .vmem, ⟨12, _⟩ => ⟨S1x96x1x1, .f32⟩
  | .local _ .vmem, ⟨13, _⟩ => ⟨S1x96x1x1, .f32⟩
  | .local _ .vmem, ⟨14, _⟩ => ⟨S96x1x1, .f32⟩
  | .local _ .vmem, ⟨15, _⟩ => ⟨S96x1x1, .f32⟩
  | .local _ .vmem, ⟨16, _⟩ => ⟨S96x1x1, .f32⟩
  | .local _ .vmem, ⟨17, _⟩ => ⟨S1x96x64x256, .f32⟩
  | .local _ .vmem, ⟨18, _⟩ => ⟨S1x96x64x256, .f32⟩
  | _, _ => ⟨S8x96x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x96x64x258 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x96x64x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x96x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x96x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x96x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S96x1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S96x1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S96x1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x96x64x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  inb_S1x96x64x256_S1x96x64x256_0_0_0_0 : ∀ a, (![0, 0, 0, 0] : Fin 4 → Nat) a + S1x96x64x256.size a ≤ S1x96x64x256.size a
  h_S1x96x64x256 : 0 < S1x96x64x256.numel
  shapeCasts_S1x96x64x256_S96x64x256 : S1x96x64x256.ShapeCasts S96x64x256
  reduces_S96x64x256_S96x64 : S96x64x256.Reduces [2] S96x64
  shapeCasts_S96x64_S96x64x1 : S96x64.ShapeCasts S96x64x1
  inb_S1x96x64x1_S1x96x64x1_0_0_0_0 : ∀ a, (![0, 0, 0, 0] : Fin 4 → Nat) a + S1x96x64x1.size a ≤ S1x96x64x1.size a
  h_S1x96x64x1 : 0 < S1x96x64x1.numel
  shapeCasts_S1x96x64x1_S96x64x1 : S1x96x64x1.ShapeCasts S96x64x1
  shapeCasts_S96x64x1_S1x96x64x1 : S96x64x1.ShapeCasts S1x96x64x1
  shapeCasts_S8x96x256x1_S8x96x256 : S8x96x256x1.ShapeCasts S8x96x256
  reducesTo_S8x96x256_S8x96_d2 : S8x96x256.ReducesTo [2] S8x96
  h_S_ : 0 < S_.numel
  bcast_S_S8x96 : S_.BroadcastsInDim S8x96 (![] : Fin 0 → Fin S8x96.rank)
  transposes_S6x96_S96x6_1_0 : S6x96.Transposes [1, 0] S96x6
  shapeCasts_S8x6_S8x2x3 : S8x6.ShapeCasts S8x2x3
  bcast_S8x2x3_S8x2x48x3_0_1_3 : S8x2x3.BroadcastsInDim S8x2x48x3 (![0, 1, 3] : Fin 3 → Fin S8x2x48x3.rank)
  shapeCasts_S8x2x48x3_S8x96x3 : S8x2x48x3.ShapeCasts S8x96x3
  slices_S8x96x3_S8x96x1_0_0_0 : S8x96x3.Slices ![0, 0, 0] S8x96x1
  shapeCasts_S8x96x1_S8x96 : S8x96x1.ShapeCasts S8x96
  shapeCasts_S8x96_S8x96x1x1 : S8x96.ShapeCasts S8x96x1x1
  slices_S8x96x3_S8x96x1_0_0_1 : S8x96x3.Slices ![0, 0, 1] S8x96x1
  slices_S8x96x3_S8x96x1_0_0_2 : S8x96x3.Slices ![0, 0, 2] S8x96x1
  slices_S8x96x256x256_S8x96x256x1_0_0_0_0 : S8x96x256x256.Slices ![0, 0, 0, 0] S8x96x256x1
  slices_S8x96x256x256_S8x96x256x1_0_0_0_1 : S8x96x256x256.Slices ![0, 0, 0, 1] S8x96x256x1
  concatenates_S8x96x256x1_S8x96x256x256_S8x96x256x257_d3 : Shape.Concatenates [S8x96x256x1, S8x96x256x256] S8x96x256x257 3
  slices_S8x96x256x257_S8x96x256x1_0_0_0_256 : S8x96x256x257.Slices ![0, 0, 0, 256] S8x96x256x1
  slices_S8x96x256x257_S8x96x256x1_0_0_0_255 : S8x96x256x257.Slices ![0, 0, 0, 255] S8x96x256x1
  concatenates_S8x96x256x257_S8x96x256x1_S8x96x256x258_d3 : Shape.Concatenates [S8x96x256x257, S8x96x256x1] S8x96x256x258 3
  shapeCasts_S96_S96x1x1 : S96.ShapeCasts S96x1x1
  inb_S1x96x64x258_S1x96x64x258_0_0_0_0 : ∀ a, (![0, 0, 0, 0] : Fin 4 → Nat) a + S1x96x64x258.size a ≤ S1x96x64x258.size a
  h_S1x96x64x258 : 0 < S1x96x64x258.numel
  shapeCasts_S1x96x64x258_S96x64x258 : S1x96x64x258.ShapeCasts S96x64x258
  slices_S96x64x258_o0_0_0_S96x64x256 : S96x64x258.Slices ![0, 0, 0] S96x64x256
  slices_S96x64x258_o0_0_1_S96x64x256 : S96x64x258.Slices ![0, 0, 1] S96x64x256
  slices_S96x64x258_o0_0_2_S96x64x256 : S96x64x258.Slices ![0, 0, 2] S96x64x256
  inb_S1x96x1x1_S1x96x1x1_0_0_0_0 : ∀ a, (![0, 0, 0, 0] : Fin 4 → Nat) a + S1x96x1x1.size a ≤ S1x96x1x1.size a
  h_S1x96x1x1 : 0 < S1x96x1x1.numel
  shapeCasts_S1x96x1x1_S96x1x1 : S1x96x1x1.ShapeCasts S96x1x1
  broadcasts_S96x1x1_S96x64x256 : S96x1x1.Broadcasts S96x64x256
  inb_S96x1x1_S96x1x1_0_0_0 : ∀ a, (![0, 0, 0] : Fin 3 → Nat) a + S96x1x1.size a ≤ S96x1x1.size a
  h_S96x1x1 : 0 < S96x1x1.numel
  shapeCasts_S96x1x1_S96x1x1 : S96x1x1.ShapeCasts S96x1x1
  broadcasts_S96x1x1_S96x64x1 : S96x1x1.Broadcasts S96x64x1
  broadcasts_S96x64x1_S96x64x256 : S96x64x1.Broadcasts S96x64x256
  shapeCasts_S96x64x256_S1x96x64x256 : S96x64x256.ShapeCasts S1x96x64x256
  dot_S8x96_S96x6_S8x6_1_0_0_1_n_n_wf : DotDims.WF S8x96 S96x6 S8x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x64x256.size a ≤ S8x96x256x256.size a
  hwx0_0 : ∀ i : grid0.Coords, EltTy.bits .f32 = 32 ∨ (Rect.block (s := S8x96x256x256) S1x96x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x64x1.size a ≤ S8x96x256x1.size a
  hwx0_1 : ∀ i : grid0.Coords, EltTy.bits .f32 = 32 ∨ (Rect.block (s := S8x96x256x1) S1x96x64x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x96x64x258.size a ≤ S8x96x256x258.size a
  hwx1_0 : ∀ i : grid1.Coords, EltTy.bits .f32 = 32 ∨ (Rect.block (s := S8x96x256x258) S1x96x64x258.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x96x64x1.size a ≤ S8x96x256x1.size a
  hwx1_1 : ∀ i : grid1.Coords, EltTy.bits .f32 = 32 ∨ (Rect.block (s := S8x96x256x1) S1x96x64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x96x1x1.size a ≤ S8x96x1x1.size a
  hwx1_2 : ∀ i : grid1.Coords, EltTy.bits .f32 = 32 ∨ (Rect.block (s := S8x96x1x1) S1x96x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x96x1x1.size a ≤ S8x96x1x1.size a
  hwx1_3 : ∀ i : grid1.Coords, EltTy.bits .f32 = 32 ∨ (Rect.block (s := S8x96x1x1) S1x96x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x96x1x1.size a ≤ S8x96x1x1.size a
  hwx1_4 : ∀ i : grid1.Coords, EltTy.bits .f32 = 32 ∨ (Rect.block (s := S8x96x1x1) S1x96x1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x1x1.size a ≤ S96x1x1.size a
  hwx1_5 : ∀ i : grid1.Coords, EltTy.bits .f32 = 32 ∨ (Rect.block (s := S96x1x1) S96x1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96x1x1.size a ≤ S96x1x1.size a
  hwx1_6 : ∀ i : grid1.Coords, EltTy.bits .f32 = 32 ∨ (Rect.block (s := S96x1x1) S96x1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S96x1x1.size a ≤ S96x1x1.size a
  hwx1_7 : ∀ i : grid1.Coords, EltTy.bits .f32 = 32 ∨ (Rect.block (s := S96x1x1) S96x1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x96x64x256.size a ≤ S8x96x256x256.size a
  hwx1_8 : ∀ i : grid1.Coords, EltTy.bits .f32 = 32 ∨ (Rect.block (s := S8x96x256x256) S1x96x64x256.size (cc1_transform_8 i) (hinb1_8 i)).WholeWords (EltTy.packing .f32)

variable [Facts₀]

def dot_S8x96_S96x6_S8x6_1_0_0_1_n_n : DotDims S8x96 S96x6 S8x6 where
  lhsContracting := [1]
  rhsContracting := [0]
  lhsNonContracting := [0]
  rhsNonContracting := [1]
  lhsBatch := []
  rhsBatch := []
  wf := dot_S8x96_S96x6_S8x6_1_0_0_1_n_n_wf

abbrev win0_0 : Pipeline.Window sig grid0 :=
  Pipeline.Window.ofSpec (Memref.whole main_arg0) S1x96x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x96x64x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v20) S1x96x64x258.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x96x64x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x96x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x96x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x96x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S96x1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S96x1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S96x1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x96x64x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x96x256x256 : Shape := ⟨4, ![8, 96, 256, 256]⟩
abbrev S6x96 : Shape := ⟨2, ![6, 96]⟩
abbrev S96x1x1 : Shape := ⟨3, ![96, 1, 1]⟩
abbrev S96 : Shape := ⟨1, ![96]⟩
abbrev S_ : Shape := ⟨0, ![]⟩
abbrev S8x96 : Shape := ⟨2, ![8, 96]⟩
abbrev S96x6 : Shape := ⟨2, ![96, 6]⟩
abbrev S8x6 : Shape := ⟨2, ![8, 6]⟩
abbrev S8x2x3 : Shape := ⟨3, ![8, 2, 3]⟩
abbrev S8x96x256x1 : Shape := ⟨4, ![8, 96, 256, 1]⟩
abbrev S8x96x256x257 : Shape := ⟨4, ![8, 96, 256, 257]⟩
abbrev S8x96x256x258 : Shape := ⟨4, ![8, 96, 256, 258]⟩
abbrev S8x2x48x256x258 : Shape := ⟨5, ![8, 2, 48, 256, 258]⟩
abbrev S8x2x48x256x256 : Shape := ⟨5, ![8, 2, 48, 256, 256]⟩
abbrev S8x2x1 : Shape := ⟨3, ![8, 2, 1]⟩
abbrev S8x2 : Shape := ⟨2, ![8, 2]⟩
abbrev S8x2x1x1x1 : Shape := ⟨5, ![8, 2, 1, 1, 1]⟩
abbrev S8x96x256 : Shape := ⟨3, ![8, 96, 256]⟩
abbrev S1x96x1x1 : Shape := ⟨4, ![1, 96, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S8x96x256x256, .f32⟩
  | .hbm, ⟨1, _⟩ => ⟨S6x96, .f32⟩
  | .hbm, ⟨2, _⟩ => ⟨S96x1x1, .f32⟩
  | .hbm, ⟨3, _⟩ => ⟨S96, .f32⟩
  | .hbm, ⟨4, _⟩ => ⟨S96, .f32⟩
  | .hbm, ⟨5, _⟩ => ⟨S_, .f32⟩
  | .hbm, ⟨6, _⟩ => ⟨S8x96, .f32⟩
  | .hbm, ⟨7, _⟩ => ⟨S_, .f32⟩
  | .hbm, ⟨8, _⟩ => ⟨S8x96, .f32⟩
  | .hbm, ⟨9, _⟩ => ⟨S8x96, .f32⟩
  | .hbm, ⟨10, _⟩ => ⟨S96x6, .f32⟩
  | .hbm, ⟨11, _⟩ => ⟨S8x6, .f32⟩
  | .hbm, ⟨12, _⟩ => ⟨S8x6, .f32⟩
  | .hbm, ⟨13, _⟩ => ⟨S8x2x3, .f32⟩
  | .hbm, ⟨14, _⟩ => ⟨S_, .i32⟩
  | .hbm, ⟨15, _⟩ => ⟨S8x96x256x1, .f32⟩
  | .hbm, ⟨16, _⟩ => ⟨S8x96x256x1, .f32⟩
  | .hbm, ⟨17, _⟩ => ⟨S8x96x256x1, .f32⟩
  | .hbm, ⟨18, _⟩ => ⟨S8x96x256x257, .f32⟩
  | .hbm, ⟨19, _⟩ => ⟨S8x96x256x1, .f32⟩
  | .hbm, ⟨20, _⟩ => ⟨S8x96x256x1, .f32⟩
  | .hbm, ⟨21, _⟩ => ⟨S8x96x256x1, .f32⟩
  | .hbm, ⟨22, _⟩ => ⟨S8x96x256x258, .f32⟩
  | .hbm, ⟨23, _⟩ => ⟨S8x2x48x256x258, .f32⟩
  | .hbm, ⟨24, _⟩ => ⟨S8x2x48x256x256, .f32⟩
  | .hbm, ⟨25, _⟩ => ⟨S8x2x1, .f32⟩
  | .hbm, ⟨26, _⟩ => ⟨S8x2, .f32⟩
  | .hbm, ⟨27, _⟩ => ⟨S8x2x1x1x1, .f32⟩
  | .hbm, ⟨28, _⟩ => ⟨S8x2x48x256x256, .f32⟩
  | .hbm, ⟨29, _⟩ => ⟨S8x2x48x256x256, .f32⟩
  | .hbm, ⟨30, _⟩ => ⟨S8x2x48x256x256, .f32⟩
  | .hbm, ⟨31, _⟩ => ⟨S8x2x1, .f32⟩
  | .hbm, ⟨32, _⟩ => ⟨S8x2, .f32⟩
  | .hbm, ⟨33, _⟩ => ⟨S8x2x1x1x1, .f32⟩
  | .hbm, ⟨34, _⟩ => ⟨S8x2x48x256x256, .f32⟩
  | .hbm, ⟨35, _⟩ => ⟨S8x2x48x256x256, .f32⟩
  | .hbm, ⟨36, _⟩ => ⟨S8x2x48x256x256, .f32⟩
  | .hbm, ⟨37, _⟩ => ⟨S8x2x48x256x256, .f32⟩
  | .hbm, ⟨38, _⟩ => ⟨S8x2x1, .f32⟩
  | .hbm, ⟨39, _⟩ => ⟨S8x2, .f32⟩
  | .hbm, ⟨40, _⟩ => ⟨S8x2x1x1x1, .f32⟩
  | .hbm, ⟨41, _⟩ => ⟨S8x2x48x256x256, .f32⟩
  | .hbm, ⟨42, _⟩ => ⟨S8x2x48x256x256, .f32⟩
  | .hbm, ⟨43, _⟩ => ⟨S8x2x48x256x256, .f32⟩
  | .hbm, ⟨44, _⟩ => ⟨S8x96x256x256, .f32⟩
  | .hbm, ⟨45, _⟩ => ⟨S_, .f32⟩
  | .hbm, ⟨46, _⟩ => ⟨S8x96x256, .f32⟩
  | .hbm, ⟨47, _⟩ => ⟨S8x96x256x1, .f32⟩
  | .hbm, ⟨48, _⟩ => ⟨S_, .f32⟩
  | .hbm, ⟨49, _⟩ => ⟨S8x96x256x1, .f32⟩
  | .hbm, ⟨50, _⟩ => ⟨S8x96x256x1, .f32⟩
  | .hbm, ⟨51, _⟩ => ⟨S_, .f32⟩
  | .hbm, ⟨52, _⟩ => ⟨S96x1x1, .f32⟩
  | .hbm, ⟨53, _⟩ => ⟨S96x1x1, .f32⟩
  | .hbm, ⟨54, _⟩ => ⟨S1x96x1x1, .f32⟩
  | .hbm, ⟨55, _⟩ => ⟨S8x96x256x256, .f32⟩
  | .hbm, ⟨56, _⟩ => ⟨S8x96x256x256, .f32⟩
  | .hbm, ⟨57, _⟩ => ⟨S1x96x1x1, .f32⟩
  | .hbm, ⟨58, _⟩ => ⟨S8x96x256x1, .f32⟩
  | .hbm, ⟨59, _⟩ => ⟨S8x96x256x1, .f32⟩
  | .hbm, ⟨60, _⟩ => ⟨S8x96x256x256, .f32⟩
  | .hbm, ⟨61, _⟩ => ⟨S8x96x256x256, .f32⟩
  | .hbm, ⟨62, _⟩ => ⟨S1x96x1x1, .f32⟩
  | .hbm, ⟨63, _⟩ => ⟨S8x96x256x256, .f32⟩
  | .hbm, ⟨64, _⟩ => ⟨S8x96x256x256, .f32⟩
  | .hbm, ⟨65, _⟩ => ⟨S1x96x1x1, .f32⟩
  | .hbm, ⟨66, _⟩ => ⟨S_, .f32⟩
  | .hbm, ⟨67, _⟩ => ⟨S1x96x1x1, .f32⟩
  | .hbm, ⟨68, _⟩ => ⟨S1x96x1x1, .f32⟩
  | .hbm, ⟨69, _⟩ => ⟨S8x96x256x256, .f32⟩
  | .hbm, ⟨70, _⟩ => ⟨S8x96x256x256, .f32⟩
  | .hbm, ⟨71, _⟩ => ⟨S8x96x256x256, .f32⟩
  | _, _ => ⟨S8x96x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  reducesTo_S8x96x256x256_S8x96_d2_3 : S8x96x256x256.ReducesTo [2, 3] S8x96
  h_S_ : 0 < S_.numel
  bcast_S_S8x96 : S_.BroadcastsInDim S8x96 (![] : Fin 0 → Fin S8x96.rank)
  transposes_S6x96_S96x6_1_0 : S6x96.Transposes [1, 0] S96x6
  shapeCasts_S8x6_S8x2x3 : S8x6.ShapeCasts S8x2x3
  slices_S8x96x256x256_S8x96x256x1_0_0_0_0 : S8x96x256x256.Slices ![0, 0, 0, 0] S8x96x256x1
  slices_S8x96x256x256_S8x96x256x1_0_0_0_1 : S8x96x256x256.Slices ![0, 0, 0, 1] S8x96x256x1
  concatenates_S8x96x256x1_S8x96x256x256_S8x96x256x257_d3 : Shape.Concatenates [S8x96x256x1, S8x96x256x256] S8x96x256x257 3
  slices_S8x96x256x257_S8x96x256x1_0_0_0_256 : S8x96x256x257.Slices ![0, 0, 0, 256] S8x96x256x1
  slices_S8x96x256x257_S8x96x256x1_0_0_0_255 : S8x96x256x257.Slices ![0, 0, 0, 255] S8x96x256x1
  concatenates_S8x96x256x257_S8x96x256x1_S8x96x256x258_d3 : Shape.Concatenates [S8x96x256x257, S8x96x256x1] S8x96x256x258 3
  shapeCasts_S8x96x256x258_S8x2x48x256x258 : S8x96x256x258.ShapeCasts S8x2x48x256x258
  slices_S8x2x48x256x258_S8x2x48x256x256_0_0_0_0_0 : S8x2x48x256x258.Slices ![0, 0, 0, 0, 0] S8x2x48x256x256
  slices_S8x2x3_S8x2x1_0_0_0 : S8x2x3.Slices ![0, 0, 0] S8x2x1
  shapeCasts_S8x2x1_S8x2 : S8x2x1.ShapeCasts S8x2
  bcast_S8x2_S8x2x1x1x1_0_1 : S8x2.BroadcastsInDim S8x2x1x1x1 (![0, 1] : Fin 2 → Fin S8x2x1x1x1.rank)
  bcast_S8x2x1x1x1_S8x2x48x256x256_0_1_2_3_4 : S8x2x1x1x1.BroadcastsInDim S8x2x48x256x256 (![0, 1, 2, 3, 4] : Fin 5 → Fin S8x2x48x256x256.rank)
  slices_S8x2x48x256x258_S8x2x48x256x256_0_0_0_0_1 : S8x2x48x256x258.Slices ![0, 0, 0, 0, 1] S8x2x48x256x256
  slices_S8x2x3_S8x2x1_0_0_1 : S8x2x3.Slices ![0, 0, 1] S8x2x1
  slices_S8x2x48x256x258_S8x2x48x256x256_0_0_0_0_2 : S8x2x48x256x258.Slices ![0, 0, 0, 0, 2] S8x2x48x256x256
  slices_S8x2x3_S8x2x1_0_0_2 : S8x2x3.Slices ![0, 0, 2] S8x2x1
  shapeCasts_S8x2x48x256x256_S8x96x256x256 : S8x2x48x256x256.ShapeCasts S8x96x256x256
  reducesTo_S8x96x256x256_S8x96x256_d3 : S8x96x256x256.ReducesTo [3] S8x96x256
  bcast_S8x96x256_S8x96x256x1_0_1_2 : S8x96x256.BroadcastsInDim S8x96x256x1 (![0, 1, 2] : Fin 3 → Fin S8x96x256x1.rank)
  bcast_S_S8x96x256x1 : S_.BroadcastsInDim S8x96x256x1 (![] : Fin 0 → Fin S8x96x256x1.rank)
  bcast_S_S96x1x1 : S_.BroadcastsInDim S96x1x1 (![] : Fin 0 → Fin S96x1x1.rank)
  bcast_S96x1x1_S1x96x1x1_1_2_3 : S96x1x1.BroadcastsInDim S1x96x1x1 (![1, 2, 3] : Fin 3 → Fin S1x96x1x1.rank)
  bcast_S1x96x1x1_S8x96x256x256_0_1_2_3 : S1x96x1x1.BroadcastsInDim S8x96x256x256 (![0, 1, 2, 3] : Fin 4 → Fin S8x96x256x256.rank)
  bcast_S1x96x1x1_S8x96x256x1_0_1_2_3 : S1x96x1x1.BroadcastsInDim S8x96x256x1 (![0, 1, 2, 3] : Fin 4 → Fin S8x96x256x1.rank)
  bcast_S8x96x256x1_S8x96x256x256_0_1_2_3 : S8x96x256x1.BroadcastsInDim S8x96x256x256 (![0, 1, 2, 3] : Fin 4 → Fin S8x96x256x256.rank)
  bcast_S96_S1x96x1x1_1 : S96.BroadcastsInDim S1x96x1x1 (![1] : Fin 1 → Fin S1x96x1x1.rank)
  bcast_S_S1x96x1x1 : S_.BroadcastsInDim S1x96x1x1 (![] : Fin 0 → Fin S1x96x1x1.rank)
  dot_S8x96_S96x6_S8x6_1_0_0_1_n_n_wf : DotDims.WF S8x96 S96x6 S8x6 [1] [0] [0] [1] [] []

variable [Facts₀]

def dot_S8x96_S96x6_S8x6_1_0_0_1_n_n : DotDims S8x96 S96x6 S8x6 where
  lhsContracting := [1]
  rhsContracting := [0]
  lhsNonContracting := [0]
  rhsNonContracting := [1]
  lhsBatch := []
  rhsBatch := []
  wf := dot_S8x96_S96x6_S8x6_1_0_0_1_n_n_wf

class Facts : Prop extends Facts₀ where

variable [Facts]
-- ==== Proof.Spec.lean ====
/-
  The mathematics of the certificate, free of both programs.

  The operator is a dynamic strip convolution along the width with a gated low/high residual mix.  For an input
  `x` of shape [8, 96, 256, 256] (sample, channel, row, column):
    * the row mean   gap[n,c,h]  = (Σ_w x[n,c,h,w]) / 256;
    * the plane mean m[n,c]      = the mean of x[n,c] over rows and columns;
    * the filter     f[n,j]      = tanh (Σ_c m[n,c] · W[j,c])   for the six rows j of the 1×1 weight W, read as
      two groups of three taps: channel c uses taps j = 3·(c / 48) + k, k = 0, 1, 2;
    * the row is reflect-padded by one column on each side: padded position j reads column `padCol j`
      (1 at j = 0, 254 at j = 257, j − 1 otherwise), and tap k of output column w reads padded position w + k;
    * out = ((tap₀·f₀ + tap₁·f₁) + tap₂·f₂) · (ins + 1) − ins · gap) · λ_l + x · (λ_h + 1).
  The two programs differ only in how the two means are spelled: one multiplies the row sum by the exact binary
  fraction 1/256 and averages those row means over the rows; the other divides the row sum by 256 and the plane
  sum by 65536.  `mix` is the part they share; `outK` and `outR` are the two spellings.
-/
import Idealize.ShloMosaic.PureOps.Ideal
import Idealize.ShloMosaic.Lib.ValueIdx

noncomputable section

namespace Cert.Spec

open Idealize.ShloMosaic Idealize.ShloMosaic.ValueIdx

/-- The input and output shape. -/
abbrev SX : Shape := ⟨4, ![8, 96, 256, 256]⟩
/-- The 1×1 convolution weight: six taps (two groups of three) by 96 channels. -/
abbrev SWc : Shape := ⟨2, ![6, 96]⟩
/-- The per-channel gate. -/
abbrev SIn : Shape := ⟨3, ![96, 1, 1]⟩
/-- The per-channel residual weights. -/
abbrev SLam : Shape := ⟨1, ![96]⟩

/-- The words the programs print: 1, 256, 65536 and the binary fraction 1/256. -/
abbrev one : EReal := Ideal.ofBits .f32 0x3F800000#32
abbrev w256 : EReal := Ideal.ofBits .f32 0x43800000#32
abbrev w65536 : EReal := Ideal.ofBits .f32 0x47800000#32
abbrev inv256 : EReal := Ideal.ofBits .f32 0x3B800000#32

/-- Reflection padding by one column on each side of a row of 256: the column that padded position `j` reads. -/
def padCol (j : Fin 258) : Fin 256 :=
  if h0 : j.val = 0 then ⟨1, by omega⟩ else if h1 : j.val = 257 then ⟨254, by omega⟩ else ⟨j.val - 1, by have h2 := j.isLt; omega⟩

/-- Padded position `w + k` of tap `k` at output column `w`. -/
def tapPos (w : Fin 256) (k : Fin 3) : Fin 258 := ⟨w.val + k.val, by omega⟩

/-- The middle tap reads the column itself. -/
theorem padCol_tapPos_one (w : Fin 256) : padCol (tapPos w 1) = w := by
  have hw := w.isLt
  apply Fin.ext
  unfold padCol tapPos
  simp only [Fin.val_one]
  rw [dif_neg (by omega), dif_neg (by omega)]
  show w.val + 1 - 1 = w.val
  omega

/-- The filter row that channel `c` uses for tap `k`: group `c / 48`, three taps a group. -/
def fcol (c : Fin 96) (k : Fin 3) : Fin 6 := ⟨(c.val / 48) * 3 + k.val, by omega⟩

/-- The sum of a row. -/
def rowSum (x : FVec Ideal SX .f32) (n : Fin 8) (c : Fin 96) (h : Fin 256) : EReal :=
  ∑ w : Fin 256, x (ix4 n c h w)

/-- The row mean as a product with the binary fraction 1/256. -/
def gapK (x : FVec Ideal SX .f32) (n : Fin 8) (c : Fin 96) (h : Fin 256) : EReal := rowSum x n c h * inv256
/-- The row mean as a quotient by 256. -/
def gapR (x : FVec Ideal SX .f32) (n : Fin 8) (c : Fin 96) (h : Fin 256) : EReal := Ideal.div (rowSum x n c h) w256

/-- The plane mean as the mean over the rows of the row means `gapK`. -/
def meanK (x : FVec Ideal SX .f32) (n : Fin 8) (c : Fin 96) : EReal := Ideal.div (∑ h : Fin 256, gapK x n c h) w256
/-- The plane mean as the plane's sum over 65536. -/
def meanR (x : FVec Ideal SX .f32) (n : Fin 8) (c : Fin 96) : EReal := Ideal.div (∑ h : Fin 256, rowSum x n c h) w65536

/-- The dynamic filter from a plane mean: tanh of the 1×1 convolution. -/
def filt (m : Fin 8 → Fin 96 → EReal) (W : FVec Ideal SWc .f32) (n : Fin 8) (j : Fin 6) : EReal :=
  Ideal.tanh (∑ c : Fin 96, m n c * W (ix2 j c))

/-- Tap `k` of the reflect-padded row at output column `w`. -/
def tap (x : FVec Ideal SX .f32) (n : Fin 8) (c : Fin 96) (h : Fin 256) (w : Fin 256) (k : Fin 3) : EReal :=
  x (ix4 n c h (padCol (tapPos w k)))

/-- The strip convolution and the gated residual mix, from a row mean `gap` and a filter `f`. -/
def mix (x : FVec Ideal SX .f32) (gap : Fin 8 → Fin 96 → Fin 256 → EReal) (f : Fin 8 → Fin 6 → EReal)
    (ins : FVec Ideal SIn .f32) (ll lh : FVec Ideal SLam .f32) (n : Fin 8) (c : Fin 96) (h : Fin 256) (w : Fin 256) : EReal :=
  (((tap x n c h w 0 * f n (fcol c 0) + tap x n c h w 1 * f n (fcol c 1)) + tap x n c h w 2 * f n (fcol c 2))
        * (ins (ix3 c 0 0) + one) - ins (ix3 c 0 0) * gap n c h) * ll (ix1 c)
    + x (ix4 n c h w) * (lh (ix1 c) + one)

/-- The result in the first spelling of the means. -/
def outK (x : FVec Ideal SX .f32) (W : FVec Ideal SWc .f32) (ins : FVec Ideal SIn .f32) (ll lh : FVec Ideal SLam .f32) :
    FVec Ideal SX .f32 := fun i => mix x (gapK x) (filt (meanK x) W) ins ll lh (i 0) (i 1) (i 2) (i 3)

/-- The result in the second spelling of the means. -/
def outR (x : FVec Ideal SX .f32) (W : FVec Ideal SWc .f32) (ins : FVec Ideal SIn .f32) (ll lh : FVec Ideal SLam .f32) :
    FVec Ideal SX .f32 := fun i => mix x (gapR x) (filt (meanR x) W) ins ll lh (i 0) (i 1) (i 2) (i 3)

theorem outK_apply (x : FVec Ideal SX .f32) (W : FVec Ideal SWc .f32) (ins : FVec Ideal SIn .f32) (ll lh : FVec Ideal SLam .f32)
    (n : Fin 8) (c : Fin 96) (h : Fin 256) (w : Fin 256) :
    outK x W ins ll lh (ix4 n c h w) = mix x (gapK x) (filt (meanK x) W) ins ll lh n c h w := rfl

theorem outR_apply (x : FVec Ideal SX .f32) (W : FVec Ideal SWc .f32) (ins : FVec Ideal SIn .f32) (ll lh : FVec Ideal SLam .f32)
    (n : Fin 8) (c : Fin 96) (h : Fin 256) (w : Fin 256) :
    outR x W ins ll lh (ix4 n c h w) = mix x (gapR x) (filt (meanR x) W) ins ll lh n c h w := rfl

end Cert.Spec

end
-- ==== Proof.KDefs.lean ====
/- Names, at their literal vector types, for the arrays the two launches and the host operations between them read and write. -/
import proofs.«140862_j75453985457454_1_alg».proof.Proof.Gen.KernelIdeal.Frame
import proofs.«140862_j75453985457454_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.KernelIdeal.KVal

open Idealize.ShloMosaic Idealize.ShloMosaic.TcCoe Idealize.ShloMosaic.ValueIdx Idealize.SL.Sem
open Cert.KernelIdeal Cert.KernelIdeal.Gen

section AtEntry
variable (V : (c : Dev nD) → (b : Ref sig .tc) → Buf (Elt Ideal) ((c : Thread nD τ).loc b)) (c : Dev nD)

/-- The arrays a launch finds, by the buffer that holds them. -/
def vX : FVec Ideal S8x96x256x256 .f32 := V c main_arg0
def vGap : FVec Ideal S8x96x256x1 .f32 := V c main_v0
def vXp : FVec Ideal S8x96x256x258 .f32 := V c main_v20
def vF0 : FVec Ideal S8x96x1x1 .f32 := V c main_v13
def vF1 : FVec Ideal S8x96x1x1 .f32 := V c main_v16
def vF2 : FVec Ideal S8x96x1x1 .f32 := V c main_v19
def vIns : FVec Ideal S96x1x1 .f32 := V c main_arg2
def vL : FVec Ideal S96x1x1 .f32 := V c main_v21
def vH : FVec Ideal S96x1x1 .f32 := V c main_v22

/-- The first launch's result array after the launch (what its write-backs leave). -/
def reg0Out : FVec Ideal S8x96x256x1 .f32 := (dat0 (F := Ideal) V c).arrAt 1 cfg0.N
/-- The second launch's result array after the launch. -/
def reg1Out : FVec Ideal S8x96x256x256 .f32 := (dat1 (F := Ideal) V c).arrAt 8 cfg1.N
end AtEntry

/-- The buffer contents after the three stretches of host operations between the launches (the plane mean and the filter,
    the reflection padding, the two weight reshapes), from the contents `U` the first launch leaves. -/
abbrev H (U : Valuation τ sig (Elt Ideal)) : Valuation τ sig (Elt Ideal) :=
  StableHlo.after hostOps1_2 (StableHlo.after hostOps1_1 (StableHlo.after hostOps1 U))

section AtHost
variable (U : Valuation τ sig (Elt Ideal))
/-- What the host operations read of `U`: the arguments and the first launch's result. -/
def uX : FVec Ideal S8x96x256x256 .f32 := U (Proc.devRef .tc main_arg0)
def uW : FVec Ideal S6x96 .f32 := U (Proc.devRef .tc main_arg1)
def uL : FVec Ideal S96 .f32 := U (Proc.devRef .tc main_arg3)
def uH : FVec Ideal S96 .f32 := U (Proc.devRef .tc main_arg4)
def uGap : FVec Ideal S8x96x256x1 .f32 := U (Proc.devRef .tc main_v0)
/-- What they leave for the second launch. -/
def hXp : FVec Ideal S8x96x256x258 .f32 := H U (Proc.devRef .tc main_v20)
def hF0 : FVec Ideal S8x96x1x1 .f32 := H U (Proc.devRef .tc main_v13)
def hF1 : FVec Ideal S8x96x1x1 .f32 := H U (Proc.devRef .tc main_v16)
def hF2 : FVec Ideal S8x96x1x1 .f32 := H U (Proc.devRef .tc main_v19)
def hL : FVec Ideal S96x1x1 .f32 := H U (Proc.devRef .tc main_v21)
def hH : FVec Ideal S96x1x1 .f32 := H U (Proc.devRef .tc main_v22)
end AtHost

/-- The plane mean the host takes of the first launch's result `g` (the row means): their mean over the rows. -/
def hostMean (g : FVec Ideal S8x96x256x1 .f32) (n : Fin 8) (c : Fin 96) : EReal :=
  Ideal.div (∑ h : Fin 256, g (ix4 n c h (0 : Fin 1))) Spec.w256

end Cert.KernelIdeal.KVal

end
-- ==== Proof.KReg0.lean ====
/- The first launch: each grid point (sample n, row tile) loads a [1, 96, 64, 256] block of the input, sums every row over
   its 256 columns and multiplies by the binary fraction 1/256; the blocks tile the [8, 96, 256, 1] result, so after the
   launch the result holds the row mean of the input, entry by entry. -/
import proofs.«140862_j75453985457454_1_alg».proof.Proof.Gen.KernelIdeal.Frame
import proofs.«140862_j75453985457454_1_alg».proof.Proof.Spec
import proofs.«140862_j75453985457454_1_alg».proof.Proof.KDefs
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.KernelIdeal.KVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## What the body stores, at an index -/

/-- A [96, 64] array cast to [96, 64, 1] reads, at (c, r, z), the operand at (c, r). -/
private theorem reg0_cast_col_apply (x : (⟨2, ![96, 64]⟩ : Shape).Idx → EReal)
    (h : (⟨2, ![96, 64]⟩ : Shape).ShapeCasts ⟨3, ![96, 64, 1]⟩) (c : Fin 96) (r : Fin 64) (z : Fin 1) :
    shapeCast ⟨3, ![96, 64, 1]⟩ x h (ix3 c r z) = x (ix2 c r) :=
  shapeCast_apply x h _ _ (by
    have hz : z.val = 0 := by omega
    rw [Shape.rowMajor_val_three, Shape.rowMajor_val_two]
    show c.val * 64 + r.val = (c.val * 64 + r.val) * 1 + z.val
    rw [hz, Nat.mul_one, Nat.add_zero])

/-- The sum over the columns of a [96, 64, 256] block, at (c, r), is the sum over w of the block at (c, r, w). -/
private theorem reg0_lane_sum_apply (v : FVec Ideal S96x64x256 .f32) (h : S96x64x256.Reduces [2] S96x64)
    (hφ : FKind.Formats .f32) (hacc : (0x00000000#32 : BitVec 32) = 0x00000000#32) (c : Fin 96) (r : Fin 64) :
    multiReduction .add [2] S96x64 v 0x00000000#32 h hφ hacc (ix2 c r) = ∑ w : Fin 256, v (ix3 c r w) := by
  refine (Ideal.multiReduction_add_single v 0x00000000#32 h hφ hacc (ix2 c r)).trans ?_
  refine Finset.sum_congr rfl fun w _ => congrArg v ?_
  funext a
  apply Fin.ext
  match a with
  | ⟨0, _⟩ => rfl
  | ⟨1, _⟩ => rfl
  | ⟨2, _⟩ => rfl

/-- What the body stores, at (u, c, r, z): the sum of row (c, r) of the loaded block over its 256 columns, times 1/256. -/
private theorem reg0_pay_apply (x0 : Vec Ideal S1x96x64x256 .f32) (u : Fin 1) (c : Fin 96) (r : Fin 64) (z : Fin 1) :
    k0_pay1 (F := Ideal) x0 (ix4 u c r z) = (∑ w : Fin 256, x0 (ix4 (0 : Fin 1) c r w)) * Spec.inv256 := by
  unfold k0_pay1
  refine (shapeCast_abc_1abc_apply _ _ u c r z).trans ?_
  rw [mulf_apply, broadcast_apply]
  refine congrArg (· * _) ?_
  refine (reg0_cast_col_apply _ _ c r z).trans ?_
  refine (reg0_lane_sum_apply _ _ _ _ c r).trans ?_
  exact Finset.sum_congr rfl fun w _ => shapeCast_1abc_abc_apply _ _ c r w

/-! ## From the blocks to the result array -/

private theorem reg0_zero_off : (![0, 0, 0, 0] : Fin 4 → Nat) = fun _ => 0 := funext fun a => by fin_cases a <;> rfl

/-- The row mean of an input array as an array of the result's shape. -/
private abbrev reg0GapArr (x : FVec Ideal S8x96x256x256 .f32) : S8x96x256x1.Idx → Elt Ideal .f32 :=
  fun i => Spec.gapK x (i 0) (i 1) (i 2)

/-- The two index maps over the grid: the input block and the result block sit at the same sample and the same row tile,
    at channel block 0 and column block 0; the sample is below 8 and the row tile below 4. -/
private theorem reg0_idx_facts : ∀ t : Fin cfg0.N,
    win0_0.index t (0 : Fin 4) = win0_1.index t (0 : Fin 4)
    ∧ win0_0.index t (1 : Fin 4) = 0 ∧ win0_1.index t (1 : Fin 4) = 0
    ∧ win0_0.index t (2 : Fin 4) = win0_1.index t (2 : Fin 4)
    ∧ win0_0.index t (3 : Fin 4) = 0 ∧ win0_1.index t (3 : Fin 4) = 0
    ∧ win0_1.index t (0 : Fin 4) ≤ 7 ∧ win0_1.index t (2 : Fin 4) ≤ 3 :=
  (by decide +kernel : ∀ t : Fin grid0.N, _)

/-- Every (sample, row tile) is some grid point's. -/
private theorem reg0_idx_onto : ∀ (q0 : Fin 8) (q2 : Fin 4), ∃ t : Fin cfg0.N, win0_1.index t = ![q0.val, 0, q2.val, 0] :=
  (by decide +kernel : ∀ (q0 : Fin 8) (q2 : Fin 4), ∃ t : Fin grid0.N, win0_1.index t = ![q0.val, 0, q2.val, 0])

/-- What grid point t writes back is block t of the row mean of the input array as the launch found it: the result block's
    entry (u, ch, r, z) lies at (sample, ch, 64 · tile + r, 0) of the result, and the input block's row (0, ch, r, ·) is row
    (sample, ch, 64 · tile + r, ·) of the input. -/
private theorem reg0_flushed_eq (c : Dev nD) (t : Fin cfg0.N) :
    (dat0 (F := Ideal) V c).flushed 1 t = ((cfg0.win 1).blk t).view.read (Elt Ideal) (reg0GapArr (vX V c)) := by
  show (cfg0.win 1).cut (grid0.coords t) ((dat0 (F := Ideal) V c).after 1 t) = _
  rw [after0_1]
  unfold out0_1
  rw [View.canon_unit_zero reg0_zero_off]
  simp only [View.ld_unit_zero (S := S1x96x64x256) reg0_zero_off]
  obtain ⟨e0, e1, e2, e3, e4, e5, e6, e7⟩ := reg0_idx_facts t
  refine funext fun (j : S1x96x64x1.Idx) => ?_
  obtain ⟨u, ch, r, z, rfl⟩ : ∃ (u : Fin 1) (ch : Fin 96) (r : Fin 64) (z : Fin 1), j = ix4 u ch r z :=
    ⟨j 0, j 1, j 2, j 3, eq_ix4 j⟩
  show k0_pay1 (F := Ideal) (iblk0 V c 0 t) (ix4 u ch r z)
      = Spec.gapK (vX V c) (((cfg0.win 1).blk t).view.emb (ix4 u ch r z) 0) (((cfg0.win 1).blk t).view.emb (ix4 u ch r z) 1)
          (((cfg0.win 1).blk t).view.emb (ix4 u ch r z) 2)
  refine (reg0_pay_apply _ u ch r z).trans ?_
  unfold Spec.gapK Spec.rowSum
  refine congrArg (· * Spec.inv256) ?_
  refine Finset.sum_congr rfl fun w _ => ?_
  show V c main_arg0 (((cfg0.win 0).blk t).view.emb (ix4 (0 : Fin 1) ch r w)) = V c main_arg0 _
  refine congrArg (V c main_arg0) ?_
  funext a
  apply Fin.ext
  have hu : u.val = 0 := by omega
  match a with
  | ⟨0, _⟩ => show win0_0.index t (0 : Fin 4) * 1 + 1 * (0 : Fin 1).val = win0_1.index t (0 : Fin 4) * 1 + 1 * u.val; rw [hu, e0]; rfl
  | ⟨1, _⟩ => show win0_0.index t (1 : Fin 4) * 96 + 1 * ch.val = win0_1.index t (1 : Fin 4) * 96 + 1 * ch.val; rw [e1, e2]
  | ⟨2, _⟩ => show win0_0.index t (2 : Fin 4) * 64 + 1 * r.val = win0_1.index t (2 : Fin 4) * 64 + 1 * r.val; rw [e3]
  | ⟨3, _⟩ => show win0_0.index t (3 : Fin 4) * 256 + 1 * w.val = w.val; rw [e4]; omega

/-- An index of the result is in grid point t's block iff each coordinate is in the block's range on its axis. -/
private theorem reg0_mem_blk (t : Fin cfg0.N) (i : S8x96x256x1.Idx) :
    i ∈ ((cfg0.win 1).blk t).view.set ↔ ∀ a : Fin 4, win0_1.index t a * S1x96x64x1.size a ≤ (i a).val
      ∧ (i a).val < win0_1.index t a * S1x96x64x1.size a + S1x96x64x1.size a := by
  show i ∈ ((View.whole main_v0).slice (win0_1.rect t)).set ↔ _
  rw [View.set_slice_whole, Rect.mem_set_unit]
  exact Iff.rfl

/-- The blocks fill the result: entry (n, ch, h, 0) lies in the block of sample n and row tile h / 64. -/
private theorem reg0_covered (i : S8x96x256x1.Idx) :
    ∃ t : Fin cfg0.N, (cfg0.win 1).flush t = true ∧ i ∈ ((cfg0.win 1).blk t).view.set := by
  have hi0 : (i 0).val < 8 := (i 0).isLt
  have hi1 : (i 1).val < 96 := (i 1).isLt
  have hi2 : (i 2).val < 256 := (i 2).isLt
  have hi3 : (i 3).val < 1 := (i 3).isLt
  obtain ⟨t, ht⟩ := reg0_idx_onto ⟨(i 0).val, hi0⟩ ⟨(i 2).val / 64, by omega⟩
  have q0 : win0_1.index t (0 : Fin 4) = (i 0).val := congrFun ht 0
  have q1 : win0_1.index t (1 : Fin 4) = 0 := congrFun ht 1
  have q2 : win0_1.index t (2 : Fin 4) = (i 2).val / 64 := congrFun ht 2
  have q3 : win0_1.index t (3 : Fin 4) = 0 := congrFun ht 3
  refine ⟨t, flush0_1 t, ?_⟩
  rw [reg0_mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 96 ≤ (i 1).val ∧ (i 1).val < win0_1.index t (1 : Fin 4) * 96 + 96; omega
  | ⟨2, _⟩ => show win0_1.index t (2 : Fin 4) * 64 ≤ (i 2).val ∧ (i 2).val < win0_1.index t (2 : Fin 4) * 64 + 64; omega
  | ⟨3, _⟩ => show win0_1.index t (3 : Fin 4) * 1 ≤ (i 3).val ∧ (i 3).val < win0_1.index t (3 : Fin 4) * 1 + 1; omega

/-- So after the launch the whole result array is the row mean of the input array as the launch found it. -/
private theorem reg0_arr (c : Dev nD) : reg0Out V c = reg0GapArr (vX V c) :=
  (dat0 (F := Ideal) V c).arrAt_eq_of_cover 1 (reg0GapArr (vX V c)) (fun t _ => reg0_flushed_eq V c t) reg0_covered

/-- After the first launch its result array holds, at (n, c, h), the row mean of the input as the launch found it. -/
theorem reg0_gap (c : Dev nD) (n : Fin 8) (ch : Fin 96) (h : Fin 256) :
    reg0Out V c (ix4 n ch h (0 : Fin 1)) = Spec.gapK (vX V c) n ch h := by
  rw [reg0_arr]

end Cert.KernelIdeal.KVal

end
-- ==== Proof.KReg1.lean ====
/- The second launch: each grid point loads a [1, 96, 64, 258] block of the reflect-padded input, the matching block of row
   means, the three per-(sample, channel) filter taps and the three per-channel weights, and stores the strip convolution with
   the gated residual mix; its blocks tile the [8, 96, 256, 256] result. -/
import proofs.«140862_j75453985457454_1_alg».proof.Proof.Gen.KernelIdeal.Frame
import proofs.«140862_j75453985457454_1_alg».proof.Proof.Spec
import proofs.«140862_j75453985457454_1_alg».proof.Proof.KDefs
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.KernelIdeal.KVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The stored value at an index, from the loaded blocks -/

/-- A per-channel [96,1,1] vector spread over [96,64,256] reads its channel. -/
private theorem spread_chan (v : FVec Ideal S96x1x1 .f32) (h : S96x1x1.Broadcasts S96x64x256) (cc : Fin 96) (r : Fin 64) (w : Fin 256) :
    broadcastTo S96x64x256 v h (ix3 cc r w) = v (ix3 cc (0 : Fin 1) (0 : Fin 1)) :=
  broadcastTo_apply _ _ _ _ (fun a => by
    match a with
    | ⟨0, _⟩ => rfl
    | ⟨1, _⟩ => rfl
    | ⟨2, _⟩ => rfl)

/-- The same vector spread over the rows only, [96,64,1]. -/
private theorem spread_chan_rows (v : FVec Ideal S96x1x1 .f32) (h : S96x1x1.Broadcasts S96x64x1) (cc : Fin 96) (r : Fin 64) (u : Fin 1) :
    broadcastTo S96x64x1 v h (ix3 cc r u) = v (ix3 cc (0 : Fin 1) (0 : Fin 1)) :=
  broadcastTo_apply _ _ _ _ (fun a => by
    match a with
    | ⟨0, _⟩ => rfl
    | ⟨1, _⟩ => rfl
    | ⟨2, _⟩ => rfl)

/-- A per-(channel, row) [96,64,1] vector spread over the 256 columns reads its channel and row. -/
private theorem spread_row (v : FVec Ideal S96x64x1 .f32) (h : S96x64x1.Broadcasts S96x64x256) (cc : Fin 96) (r : Fin 64) (w : Fin 256) :
    broadcastTo S96x64x256 v h (ix3 cc r w) = v (ix3 cc r (0 : Fin 1)) :=
  broadcastTo_apply _ _ _ _ (fun a => by
    match a with
    | ⟨0, _⟩ => rfl
    | ⟨1, _⟩ => rfl
    | ⟨2, _⟩ => rfl)

/-- 256 columns cut out of 258 from column `k`: entry `w` reads column `w + k`. -/
private theorem cut_cols (k : Fin 3) (X : FVec Ideal S96x64x258 .f32) (h : S96x64x258.Slices ![0, 0, k.val] S96x64x256)
    (cc : Fin 96) (r : Fin 64) (w : Fin 256) :
    extractStridedSlice S96x64x256 ![0, 0, k.val] X h (ix3 cc r w) = X (ix3 cc r (Spec.tapPos w k)) :=
  extractStridedSlice_apply _ _ _ _ _ (fun a => by
    match a with
    | ⟨0, _⟩ => exact (Nat.zero_add _).symm
    | ⟨1, _⟩ => exact (Nat.zero_add _).symm
    | ⟨2, _⟩ => exact Nat.add_comm _ _)

/-- The padded block without its leading unit axis. -/
private theorem pay2_at (x0 : Vec Ideal S1x96x64x258 .f32) (cc : Fin 96) (r : Fin 64) (j : Fin 258) :
    k1_pay2 x0 (ix3 cc r j) = x0 (ix4 (0 : Fin 1) cc r j) := by
  unfold k1_pay2
  exact shapeCast_1abc_abc_apply _ _ cc r j

/-- Columns `k` … `k + 255` of the padded block. -/
private theorem cols_at (k : Fin 3) (x0 : Vec Ideal S1x96x64x258 .f32) (h : S96x64x258.Slices ![0, 0, k.val] S96x64x256)
    (cc : Fin 96) (r : Fin 64) (w : Fin 256) :
    extractStridedSlice S96x64x256 ![0, 0, k.val] (k1_pay2 x0) h (ix3 cc r w) = x0 (ix4 (0 : Fin 1) cc r (Spec.tapPos w k)) :=
  (cut_cols k _ _ cc r w).trans (pay2_at x0 cc r _)

/-- The middle tap: columns 1 … 256 of the padded block. -/
private theorem pay3_at (x0 : Vec Ideal S1x96x64x258 .f32) (cc : Fin 96) (r : Fin 64) (w : Fin 256) :
    k1_pay3 x0 (ix3 cc r w) = x0 (ix4 (0 : Fin 1) cc r (Spec.tapPos w 1)) := by
  unfold k1_pay3
  exact cols_at 1 x0 _ cc r w

/-- A tap's block [1,96,1,1] without its unit axis, spread over the block: the tap of the channel. -/
private theorem tap_at (x : Vec Ideal S1x96x1x1 .f32) (h : S1x96x1x1.ShapeCasts S96x1x1) (h' : S96x1x1.Broadcasts S96x64x256)
    (cc : Fin 96) (r : Fin 64) (w : Fin 256) :
    broadcastTo S96x64x256 (shapeCast S96x1x1 x h) h' (ix3 cc r w) = x (ix4 (0 : Fin 1) cc (0 : Fin 1) (0 : Fin 1)) :=
  (spread_chan _ _ cc r w).trans (shapeCast_1abc_abc_apply _ _ cc (0 : Fin 1) (0 : Fin 1))

/-- The strip convolution of the block: the three shifted column windows, each times its tap, summed left to right. -/
private theorem pay4_at (x0 : Vec Ideal S1x96x64x258 .f32) (x2 x3 x4 : Vec Ideal S1x96x1x1 .f32) (cc : Fin 96) (r : Fin 64) (w : Fin 256) :
    k1_pay4 x0 x2 x3 x4 (ix3 cc r w)
      = (x0 (ix4 (0 : Fin 1) cc r (Spec.tapPos w 0)) * x2 (ix4 (0 : Fin 1) cc (0 : Fin 1) (0 : Fin 1))
          + x0 (ix4 (0 : Fin 1) cc r (Spec.tapPos w 1)) * x3 (ix4 (0 : Fin 1) cc (0 : Fin 1) (0 : Fin 1)))
        + x0 (ix4 (0 : Fin 1) cc r (Spec.tapPos w 2)) * x4 (ix4 (0 : Fin 1) cc (0 : Fin 1) (0 : Fin 1)) := by
  unfold k1_pay4
  simp only [addf_apply, mulf_apply]
  refine congrArg₂ (· + ·) (congrArg₂ (· + ·) (congrArg₂ (· * ·) ?_ ?_) (congrArg₂ (· * ·) ?_ ?_)) (congrArg₂ (· * ·) ?_ ?_)
  · exact cols_at 0 x0 _ cc r w
  · exact tap_at x2 _ _ cc r w
  · exact pay3_at x0 cc r w
  · exact tap_at x3 _ _ cc r w
  · exact cols_at 2 x0 _ cc r w
  · exact tap_at x4 _ _ cc r w

/-- The row-mean block without its unit axis. -/
private theorem pay5_at (x1 : Vec Ideal S1x96x64x1 .f32) (cc : Fin 96) (r : Fin 64) (u : Fin 1) :
    k1_pay5 x1 (ix3 cc r u) = x1 (ix4 (0 : Fin 1) cc r u) := by
  unfold k1_pay5
  exact shapeCast_1abc_abc_apply _ _ cc r u

private theorem pay6_eq (x6 : Vec Ideal S96x1x1 .f32) : k1_pay6 x6 = x6 := by
  unfold k1_pay6
  exact shapeCast_self _ _

private theorem pay7_eq (x7 : Vec Ideal S96x1x1 .f32) : k1_pay7 x7 = x7 := by
  unfold k1_pay7
  exact shapeCast_self _ _

/-- The gate plus one. -/
private theorem pay8_at (x5 : Vec Ideal S96x1x1 .f32) (i : S96x1x1.Idx) : k1_pay8 x5 i = x5 i + Spec.one := by
  unfold k1_pay8
  rfl

/-- What the launch stores at entry (0, cc, r, w) of its block, from the blocks it loaded. -/
private theorem pay_at (x0 : Vec Ideal S1x96x64x258 .f32) (x1 : Vec Ideal S1x96x64x1 .f32) (x2 x3 x4 : Vec Ideal S1x96x1x1 .f32)
    (x5 x6 x7 : Vec Ideal S96x1x1 .f32) (cc : Fin 96) (r : Fin 64) (w : Fin 256) :
    k1_pay1 (k1_pay3 x0) (k1_pay4 x0 x2 x3 x4) x5 (k1_pay5 x1) (k1_pay6 x6) (k1_pay7 x7) (k1_pay8 x5) (ix4 (0 : Fin 1) cc r w)
      = ((((x0 (ix4 (0 : Fin 1) cc r (Spec.tapPos w 0)) * x2 (ix4 (0 : Fin 1) cc (0 : Fin 1) (0 : Fin 1))
            + x0 (ix4 (0 : Fin 1) cc r (Spec.tapPos w 1)) * x3 (ix4 (0 : Fin 1) cc (0 : Fin 1) (0 : Fin 1)))
            + x0 (ix4 (0 : Fin 1) cc r (Spec.tapPos w 2)) * x4 (ix4 (0 : Fin 1) cc (0 : Fin 1) (0 : Fin 1)))
          * (x5 (ix3 cc (0 : Fin 1) (0 : Fin 1)) + Spec.one)
          - x5 (ix3 cc (0 : Fin 1) (0 : Fin 1)) * x1 (ix4 (0 : Fin 1) cc r (0 : Fin 1)))
          * x6 (ix3 cc (0 : Fin 1) (0 : Fin 1))
        + x0 (ix4 (0 : Fin 1) cc r (Spec.tapPos w 1)) * (x7 (ix3 cc (0 : Fin 1) (0 : Fin 1)) + Spec.one)) := by
  unfold k1_pay1
  refine (shapeCast_abc_1abc_apply _ _ (0 : Fin 1) cc r w).trans ?_
  simp only [addf_apply, mulf_apply, subf_apply, spread_chan, spread_row, spread_chan_rows, broadcast_apply]
  rw [pay4_at, pay8_at, pay5_at, pay6_eq, pay7_eq, pay3_at]
  rfl

private theorem hz4 : (![0, 0, 0, 0] : Fin 4 → Nat) = fun _ => 0 := funext fun a => by fin_cases a <;> rfl
private theorem hz3 : (![0, 0, 0] : Fin 3 → Nat) = fun _ => 0 := funext fun a => by fin_cases a <;> rfl

/-- What the body leaves in its result block at entry (u, cc, r, w), from the eight blocks it loads whole. -/
private theorem out_at (x0 : Vec Ideal S1x96x64x258 .f32) (x1 : Vec Ideal S1x96x64x1 .f32) (x2 x3 x4 : Vec Ideal S1x96x1x1 .f32)
    (x5 x6 x7 : Vec Ideal S96x1x1 .f32) (u : Fin 1) (cc : Fin 96) (r : Fin 64) (w : Fin 256) :
    out1_8 x0 x1 x2 x3 x4 x5 x6 x7 (ix4 u cc r w)
      = ((((x0 (ix4 (0 : Fin 1) cc r (Spec.tapPos w 0)) * x2 (ix4 (0 : Fin 1) cc (0 : Fin 1) (0 : Fin 1))
            + x0 (ix4 (0 : Fin 1) cc r (Spec.tapPos w 1)) * x3 (ix4 (0 : Fin 1) cc (0 : Fin 1) (0 : Fin 1)))
            + x0 (ix4 (0 : Fin 1) cc r (Spec.tapPos w 2)) * x4 (ix4 (0 : Fin 1) cc (0 : Fin 1) (0 : Fin 1)))
          * (x5 (ix3 cc (0 : Fin 1) (0 : Fin 1)) + Spec.one)
          - x5 (ix3 cc (0 : Fin 1) (0 : Fin 1)) * x1 (ix4 (0 : Fin 1) cc r (0 : Fin 1)))
          * x6 (ix3 cc (0 : Fin 1) (0 : Fin 1))
        + x0 (ix4 (0 : Fin 1) cc r (Spec.tapPos w 1)) * (x7 (ix3 cc (0 : Fin 1) (0 : Fin 1)) + Spec.one)) := by
  obtain rfl : u = 0 := Subsingleton.elim _ _
  unfold out1_8
  rw [View.canon_unit_zero hz4]
  simp only [View.ld_unit_zero (S := S1x96x64x258) hz4, View.ld_unit_zero (S := S1x96x64x1) hz4,
    View.ld_unit_zero (S := S1x96x1x1) hz4, View.ld_unit_zero (S := S96x1x1) hz3]
  exact pay_at x0 x1 x2 x3 x4 x5 x6 x7 cc r w

/-- The printed index maps over the 32 grid points: the padded input and the row means move with the result block (sample, row
    band); the taps with its sample; the three weights stay; the result's block index is (sample, 0, row band, 0). -/
private theorem idx_facts : ∀ t : Fin cfg1.N,
    (win1_0.index t (0 : Fin 4) = win1_8.index t (0 : Fin 4) ∧ win1_0.index t (1 : Fin 4) = 0
      ∧ win1_0.index t (2 : Fin 4) = win1_8.index t (2 : Fin 4) ∧ win1_0.index t (3 : Fin 4) = 0)
    ∧ (win1_1.index t (0 : Fin 4) = win1_8.index t (0 : Fin 4) ∧ win1_1.index t (1 : Fin 4) = 0
      ∧ win1_1.index t (2 : Fin 4) = win1_8.index t (2 : Fin 4) ∧ win1_1.index t (3 : Fin 4) = 0)
    ∧ (win1_2.index t (0 : Fin 4) = win1_8.index t (0 : Fin 4) ∧ win1_2.index t (1 : Fin 4) = 0
      ∧ win1_2.index t (2 : Fin 4) = 0 ∧ win1_2.index t (3 : Fin 4) = 0)
    ∧ (win1_3.index t (0 : Fin 4) = win1_8.index t (0 : Fin 4) ∧ win1_3.index t (1 : Fin 4) = 0
      ∧ win1_3.index t (2 : Fin 4) = 0 ∧ win1_3.index t (3 : Fin 4) = 0)
    ∧ (win1_4.index t (0 : Fin 4) = win1_8.index t (0 : Fin 4) ∧ win1_4.index t (1 : Fin 4) = 0
      ∧ win1_4.index t (2 : Fin 4) = 0 ∧ win1_4.index t (3 : Fin 4) = 0)
    ∧ (win1_5.index t (0 : Fin 3) = 0 ∧ win1_5.index t (1 : Fin 3) = 0 ∧ win1_5.index t (2 : Fin 3) = 0)
    ∧ (win1_6.index t (0 : Fin 3) = 0 ∧ win1_6.index t (1 : Fin 3) = 0 ∧ win1_6.index t (2 : Fin 3) = 0)
    ∧ (win1_7.index t (0 : Fin 3) = 0 ∧ win1_7.index t (1 : Fin 3) = 0 ∧ win1_7.index t (2 : Fin 3) = 0)
    ∧ (win1_8.index t (0 : Fin 4) ≤ 7 ∧ win1_8.index t (1 : Fin 4) = 0
      ∧ win1_8.index t (2 : Fin 4) ≤ 3 ∧ win1_8.index t (3 : Fin 4) = 0) :=
  (by decide +kernel : ∀ t : Fin grid1.N, _)

/-- Every (sample, row band) is some grid point's result block. -/
private theorem idx_onto : ∀ (q0 : Fin 8) (q2 : Fin 4), ∃ t : Fin cfg1.N, win1_8.index t = ![q0.val, 0, q2.val, 0] :=
  (by decide +kernel : ∀ (q0 : Fin 8) (q2 : Fin 4), ∃ t : Fin grid1.N, win1_8.index t = ![q0.val, 0, q2.val, 0])

/-- The padded-input block of grid point `t`: entry (u, cc, r, j) is the array's at (sample, cc, 64·band + r, j). -/
private theorem blk0_at (c : Dev nD) (t : Fin cfg1.N) (u : Fin 1) (cc : Fin 96) (r : Fin 64) (j : Fin 258) (n : Fin 8) (h : Fin 256)
    (hn : n.val = win1_8.index t (0 : Fin 4)) (hh : h.val = win1_8.index t (2 : Fin 4) * 64 + r.val) :
    (iblk1 V c 0 t : Vec Ideal S1x96x64x258 .f32) (ix4 u cc r j) = vXp V c (ix4 n cc h j) := by
  obtain ⟨⟨a0, a1, a2, a3⟩, -⟩ := idx_facts t
  have hu : u.val = 0 := by omega
  unfold iblk1 vXp
  show V c main_v20 (((cfg1.win 0).blk t).view.emb (ix4 u cc r j)) = V c main_v20 (ix4 n cc h j)
  refine congrArg (V c main_v20) ?_
  funext a; apply Fin.ext
  match a with
  | ⟨0, _⟩ => show win1_0.index t (0 : Fin 4) * 1 + 1 * u.val = n.val; omega
  | ⟨1, _⟩ => show win1_0.index t (1 : Fin 4) * 96 + 1 * cc.val = cc.val; omega
  | ⟨2, _⟩ => show win1_0.index t (2 : Fin 4) * 64 + 1 * r.val = h.val; omega
  | ⟨3, _⟩ => show win1_0.index t (3 : Fin 4) * 258 + 1 * j.val = j.val; omega

/-- The row-mean block of grid point `t`. -/
private theorem blk1_at (c : Dev nD) (t : Fin cfg1.N) (u : Fin 1) (cc : Fin 96) (r : Fin 64) (n : Fin 8) (h : Fin 256)
    (hn : n.val = win1_8.index t (0 : Fin 4)) (hh : h.val = win1_8.index t (2 : Fin 4) * 64 + r.val) :
    (iblk1 V c 1 t : Vec Ideal S1x96x64x1 .f32) (ix4 u cc r (0 : Fin 1)) = vGap V c (ix4 n cc h (0 : Fin 1)) := by
  obtain ⟨-, ⟨a0, a1, a2, a3⟩, -⟩ := idx_facts t
  have hu : u.val = 0 := by omega
  unfold iblk1 vGap
  show V c main_v0 (((cfg1.win 1).blk t).view.emb (ix4 u cc r (0 : Fin 1))) = V c main_v0 (ix4 n cc h (0 : Fin 1))
  refine congrArg (V c main_v0) ?_
  funext a; apply Fin.ext
  match a with
  | ⟨0, _⟩ => show win1_1.index t (0 : Fin 4) * 1 + 1 * u.val = n.val; omega
  | ⟨1, _⟩ => show win1_1.index t (1 : Fin 4) * 96 + 1 * cc.val = cc.val; omega
  | ⟨2, _⟩ => show win1_1.index t (2 : Fin 4) * 64 + 1 * r.val = h.val; omega
  | ⟨3, _⟩ => show win1_1.index t (3 : Fin 4) * 1 + 1 * (0 : Fin 1).val = (0 : Fin 1).val; omega

/-- The three tap blocks of grid point `t`: the sample's taps, channel by channel. -/
private theorem blk2_at (c : Dev nD) (t : Fin cfg1.N) (u : Fin 1) (cc : Fin 96) (n : Fin 8)
    (hn : n.val = win1_8.index t (0 : Fin 4)) :
    (iblk1 V c 2 t : Vec Ideal S1x96x1x1 .f32) (ix4 u cc (0 : Fin 1) (0 : Fin 1)) = vF0 V c (ix4 n cc (0 : Fin 1) (0 : Fin 1)) := by
  obtain ⟨-, -, ⟨a0, a1, a2, a3⟩, -⟩ := idx_facts t
  have hu : u.val = 0 := by omega
  unfold iblk1 vF0
  show V c main_v13 (((cfg1.win 2).blk t).view.emb (ix4 u cc (0 : Fin 1) (0 : Fin 1))) = V c main_v13 (ix4 n cc (0 : Fin 1) (0 : Fin 1))
  refine congrArg (V c main_v13) ?_
  funext a; apply Fin.ext
  match a with
  | ⟨0, _⟩ => show win1_2.index t (0 : Fin 4) * 1 + 1 * u.val = n.val; omega
  | ⟨1, _⟩ => show win1_2.index t (1 : Fin 4) * 96 + 1 * cc.val = cc.val; omega
  | ⟨2, _⟩ => show win1_2.index t (2 : Fin 4) * 1 + 1 * (0 : Fin 1).val = (0 : Fin 1).val; omega
  | ⟨3, _⟩ => show win1_2.index t (3 : Fin 4) * 1 + 1 * (0 : Fin 1).val = (0 : Fin 1).val; omega

private theorem blk3_at (c : Dev nD) (t : Fin cfg1.N) (u : Fin 1) (cc : Fin 96) (n : Fin 8)
    (hn : n.val = win1_8.index t (0 : Fin 4)) :
    (iblk1 V c 3 t : Vec Ideal S1x96x1x1 .f32) (ix4 u cc (0 : Fin 1) (0 : Fin 1)) = vF1 V c (ix4 n cc (0 : Fin 1) (0 : Fin 1)) := by
  obtain ⟨-, -, -, ⟨a0, a1, a2, a3⟩, -⟩ := idx_facts t
  have hu : u.val = 0 := by omega
  unfold iblk1 vF1
  show V c main_v16 (((cfg1.win 3).blk t).view.emb (ix4 u cc (0 : Fin 1) (0 : Fin 1))) = V c main_v16 (ix4 n cc (0 : Fin 1) (0 : Fin 1))
  refine congrArg (V c main_v16) ?_
  funext a; apply Fin.ext
  match a with
  | ⟨0, _⟩ => show win1_3.index t (0 : Fin 4) * 1 + 1 * u.val = n.val; omega
  | ⟨1, _⟩ => show win1_3.index t (1 : Fin 4) * 96 + 1 * cc.val = cc.val; omega
  | ⟨2, _⟩ => show win1_3.index t (2 : Fin 4) * 1 + 1 * (0 : Fin 1).val = (0 : Fin 1).val; omega
  | ⟨3, _⟩ => show win1_3.index t (3 : Fin 4) * 1 + 1 * (0 : Fin 1).val = (0 : Fin 1).val; omega

private theorem blk4_at (c : Dev nD) (t : Fin cfg1.N) (u : Fin 1) (cc : Fin 96) (n : Fin 8)
    (hn : n.val = win1_8.index t (0 : Fin 4)) :
    (iblk1 V c 4 t : Vec Ideal S1x96x1x1 .f32) (ix4 u cc (0 : Fin 1) (0 : Fin 1)) = vF2 V c (ix4 n cc (0 : Fin 1) (0 : Fin 1)) := by
  obtain ⟨-, -, -, -, ⟨a0, a1, a2, a3⟩, -⟩ := idx_facts t
  have hu : u.val = 0 := by omega
  unfold iblk1 vF2
  show V c main_v19 (((cfg1.win 4).blk t).view.emb (ix4 u cc (0 : Fin 1) (0 : Fin 1))) = V c main_v19 (ix4 n cc (0 : Fin 1) (0 : Fin 1))
  refine congrArg (V c main_v19) ?_
  funext a; apply Fin.ext
  match a with
  | ⟨0, _⟩ => show win1_4.index t (0 : Fin 4) * 1 + 1 * u.val = n.val; omega
  | ⟨1, _⟩ => show win1_4.index t (1 : Fin 4) * 96 + 1 * cc.val = cc.val; omega
  | ⟨2, _⟩ => show win1_4.index t (2 : Fin 4) * 1 + 1 * (0 : Fin 1).val = (0 : Fin 1).val; omega
  | ⟨3, _⟩ => show win1_4.index t (3 : Fin 4) * 1 + 1 * (0 : Fin 1).val = (0 : Fin 1).val; omega

/-- The gate and the two residual weights are loaded whole at every grid point. -/
private theorem blk5_at (c : Dev nD) (t : Fin cfg1.N) (cc : Fin 96) :
    (iblk1 V c 5 t : Vec Ideal S96x1x1 .f32) (ix3 cc (0 : Fin 1) (0 : Fin 1)) = vIns V c (ix3 cc (0 : Fin 1) (0 : Fin 1)) := by
  obtain ⟨-, -, -, -, -, ⟨a0, a1, a2⟩, -⟩ := idx_facts t
  unfold iblk1 vIns
  show V c main_arg2 (((cfg1.win 5).blk t).view.emb (ix3 cc (0 : Fin 1) (0 : Fin 1))) = V c main_arg2 (ix3 cc (0 : Fin 1) (0 : Fin 1))
  refine congrArg (V c main_arg2) ?_
  funext a; apply Fin.ext
  match a with
  | ⟨0, _⟩ => show win1_5.index t (0 : Fin 3) * 96 + 1 * cc.val = cc.val; omega
  | ⟨1, _⟩ => show win1_5.index t (1 : Fin 3) * 1 + 1 * (0 : Fin 1).val = (0 : Fin 1).val; omega
  | ⟨2, _⟩ => show win1_5.index t (2 : Fin 3) * 1 + 1 * (0 : Fin 1).val = (0 : Fin 1).val; omega

private theorem blk6_at (c : Dev nD) (t : Fin cfg1.N) (cc : Fin 96) :
    (iblk1 V c 6 t : Vec Ideal S96x1x1 .f32) (ix3 cc (0 : Fin 1) (0 : Fin 1)) = vL V c (ix3 cc (0 : Fin 1) (0 : Fin 1)) := by
  obtain ⟨-, -, -, -, -, -, ⟨a0, a1, a2⟩, -⟩ := idx_facts t
  unfold iblk1 vL
  show V c main_v21 (((cfg1.win 6).blk t).view.emb (ix3 cc (0 : Fin 1) (0 : Fin 1))) = V c main_v21 (ix3 cc (0 : Fin 1) (0 : Fin 1))
  refine congrArg (V c main_v21) ?_
  funext a; apply Fin.ext
  match a with
  | ⟨0, _⟩ => show win1_6.index t (0 : Fin 3) * 96 + 1 * cc.val = cc.val; omega
  | ⟨1, _⟩ => show win1_6.index t (1 : Fin 3) * 1 + 1 * (0 : Fin 1).val = (0 : Fin 1).val; omega
  | ⟨2, _⟩ => show win1_6.index t (2 : Fin 3) * 1 + 1 * (0 : Fin 1).val = (0 : Fin 1).val; omega

private theorem blk7_at (c : Dev nD) (t : Fin cfg1.N) (cc : Fin 96) :
    (iblk1 V c 7 t : Vec Ideal S96x1x1 .f32) (ix3 cc (0 : Fin 1) (0 : Fin 1)) = vH V c (ix3 cc (0 : Fin 1) (0 : Fin 1)) := by
  obtain ⟨-, -, -, -, -, -, -, ⟨a0, a1, a2⟩, -⟩ := idx_facts t
  unfold iblk1 vH
  show V c main_v22 (((cfg1.win 7).blk t).view.emb (ix3 cc (0 : Fin 1) (0 : Fin 1))) = V c main_v22 (ix3 cc (0 : Fin 1) (0 : Fin 1))
  refine congrArg (V c main_v22) ?_
  funext a; apply Fin.ext
  match a with
  | ⟨0, _⟩ => show win1_7.index t (0 : Fin 3) * 96 + 1 * cc.val = cc.val; omega
  | ⟨1, _⟩ => show win1_7.index t (1 : Fin 3) * 1 + 1 * (0 : Fin 1).val = (0 : Fin 1).val; omega
  | ⟨2, _⟩ => show win1_7.index t (2 : Fin 3) * 1 + 1 * (0 : Fin 1).val = (0 : Fin 1).val; omega

/-- The mix of the arrays the launch finds, at result entry (n, ch, h, w). -/
private def mixAt (c : Dev nD) (n : Fin 8) (ch : Fin 96) (h : Fin 256) (w : Fin 256) : EReal :=
  (((vXp V c (ix4 n ch h (Spec.tapPos w 0)) * vF0 V c (ix4 n ch (0 : Fin 1) (0 : Fin 1))
        + vXp V c (ix4 n ch h (Spec.tapPos w 1)) * vF1 V c (ix4 n ch (0 : Fin 1) (0 : Fin 1)))
        + vXp V c (ix4 n ch h (Spec.tapPos w 2)) * vF2 V c (ix4 n ch (0 : Fin 1) (0 : Fin 1)))
      * (vIns V c (ix3 ch (0 : Fin 1) (0 : Fin 1)) + Spec.one)
      - vIns V c (ix3 ch (0 : Fin 1) (0 : Fin 1)) * vGap V c (ix4 n ch h (0 : Fin 1)))
      * vL V c (ix3 ch (0 : Fin 1) (0 : Fin 1))
    + vXp V c (ix4 n ch h (Spec.tapPos w 1)) * (vH V c (ix3 ch (0 : Fin 1) (0 : Fin 1)) + Spec.one)

/-- The whole result array as one function of the arrays the launch finds. -/
private def mixArr (c : Dev nD) : FVec Ideal S8x96x256x256 .f32 := fun i => mixAt V c (i 0) (i 1) (i 2) (i 3)

private theorem mixArr_at (c : Dev nD) (i : S8x96x256x256.Idx) (n : Fin 8) (ch : Fin 96) (h : Fin 256) (w : Fin 256)
    (h0 : (i 0).val = n.val) (h1 : (i 1).val = ch.val) (h2 : (i 2).val = h.val) (h3 : (i 3).val = w.val) :
    mixArr V c i = mixAt V c n ch h w := by
  obtain rfl : i = ix4 n ch h w := by
    funext a; apply Fin.ext
    match a with
    | ⟨0, _⟩ => exact h0
    | ⟨1, _⟩ => exact h1
    | ⟨2, _⟩ => exact h2
    | ⟨3, _⟩ => exact h3
  rfl

/-- Entry (u, cc, r, w) of the block grid point `t` leaves is the mix at (sample, cc, 64·band + r, w). -/
private theorem blk_entry (c : Dev nD) (t : Fin cfg1.N) (u : Fin 1) (cc : Fin 96) (r : Fin 64) (w : Fin 256) (n : Fin 8) (h : Fin 256)
    (hn : n.val = win1_8.index t (0 : Fin 4)) (hh : h.val = win1_8.index t (2 : Fin 4) * 64 + r.val) :
    out1_8 (iblk1 V c 0 t) (iblk1 V c 1 t) (iblk1 V c 2 t) (iblk1 V c 3 t) (iblk1 V c 4 t) (iblk1 V c 5 t) (iblk1 V c 6 t) (iblk1 V c 7 t)
        (ix4 u cc r w) = mixAt V c n cc h w := by
  refine (out_at _ _ _ _ _ _ _ _ u cc r w).trans ?_
  unfold mixAt
  rw [blk0_at V c t 0 cc r (Spec.tapPos w 0) n h hn hh, blk0_at V c t 0 cc r (Spec.tapPos w 1) n h hn hh,
    blk0_at V c t 0 cc r (Spec.tapPos w 2) n h hn hh, blk1_at V c t 0 cc r n h hn hh, blk2_at V c t 0 cc n hn,
    blk3_at V c t 0 cc n hn, blk4_at V c t 0 cc n hn, blk5_at V c t cc, blk6_at V c t cc, blk7_at V c t cc]

private theorem flushed_pt (c : Dev nD) (t : Fin cfg1.N) (j : S1x96x64x256.Idx) :
    out1_8 (iblk1 V c 0 t) (iblk1 V c 1 t) (iblk1 V c 2 t) (iblk1 V c 3 t) (iblk1 V c 4 t) (iblk1 V c 5 t) (iblk1 V c 6 t) (iblk1 V c 7 t) j
      = mixArr V c (((cfg1.win 8).blk t).view.emb j) := by
  obtain ⟨u, cc, r, w, rfl⟩ : ∃ (u : Fin 1) (cc : Fin 96) (r : Fin 64) (w : Fin 256), j = ix4 u cc r w :=
    ⟨j 0, j 1, j 2, j 3, eq_ix4 j⟩
  obtain ⟨-, -, -, -, -, -, -, -, b0, b1, b2, b3⟩ := idx_facts t
  have hu : u.val = 0 := by omega
  have hr : r.val < 64 := r.isLt
  refine (blk_entry V c t u cc r w ⟨win1_8.index t (0 : Fin 4), by omega⟩ ⟨win1_8.index t (2 : Fin 4) * 64 + r.val, by omega⟩ rfl rfl).trans
    (mixArr_at V c _ _ _ _ _ ?_ ?_ ?_ ?_).symm
  · show win1_8.index t (0 : Fin 4) * 1 + 1 * u.val = win1_8.index t (0 : Fin 4); omega
  · show win1_8.index t (1 : Fin 4) * 96 + 1 * cc.val = cc.val; omega
  · show win1_8.index t (2 : Fin 4) * 64 + 1 * r.val = win1_8.index t (2 : Fin 4) * 64 + r.val; omega
  · show win1_8.index t (3 : Fin 4) * 256 + 1 * w.val = w.val; omega

/-- What grid point `t` writes back is its block of the mix array. -/
private theorem flushed_eq (c : Dev nD) (t : Fin cfg1.N) :
    (dat1 (F := Ideal) V c).flushed 8 t = ((cfg1.win 8).blk t).view.read (Elt Ideal) (mixArr V c) := by
  show (cfg1.win 8).cut (grid1.coords t) ((dat1 (F := Ideal) V c).after 8 t) = _
  rw [after1_8]
  funext j
  exact flushed_pt V c t j

/-- An index of the result array is in grid point `t`'s block iff each coordinate is in the block's range on its axis. -/
private theorem mem_blk (t : Fin cfg1.N) (i : S8x96x256x256.Idx) :
    i ∈ ((cfg1.win 8).blk t).view.set ↔ ∀ a : Fin 4, win1_8.index t a * S1x96x64x256.size a ≤ (i a).val ∧ (i a).val < win1_8.index t a * S1x96x64x256.size a + S1x96x64x256.size a := by
  show i ∈ ((View.whole main_v23).slice (win1_8.rect t)).set ↔ _
  rw [View.set_slice_whole, Rect.mem_set_unit]
  exact Iff.rfl

/-- Every index of the result array is in some grid point's block: sample `i 0`, row band `i 2 / 64`. -/
private theorem covered (i : S8x96x256x256.Idx) :
    ∃ t : Fin cfg1.N, (cfg1.win 8).flush t = true ∧ i ∈ ((cfg1.win 8).blk t).view.set := by
  have hi0 : (i 0).val < 8 := (i 0).isLt
  have hi1 : (i 1).val < 96 := (i 1).isLt
  have hi2 : (i 2).val < 256 := (i 2).isLt
  have hi3 : (i 3).val < 256 := (i 3).isLt
  obtain ⟨t, ht⟩ := idx_onto ⟨(i 0).val, by omega⟩ ⟨(i 2).val / 64, by omega⟩
  have q0 : win1_8.index t (0 : Fin 4) = (i 0).val := congrFun ht 0
  have q1 : win1_8.index t (1 : Fin 4) = 0 := congrFun ht 1
  have q2 : win1_8.index t (2 : Fin 4) = (i 2).val / 64 := congrFun ht 2
  have q3 : win1_8.index t (3 : Fin 4) = 0 := congrFun ht 3
  refine ⟨t, flush1_8 t, ?_⟩
  rw [mem_blk]
  intro a
  match a with
  | ⟨0, _⟩ => show win1_8.index t (0 : Fin 4) * 1 ≤ (i 0).val ∧ (i 0).val < win1_8.index t (0 : Fin 4) * 1 + 1; omega
  | ⟨1, _⟩ => show win1_8.index t (1 : Fin 4) * 96 ≤ (i 1).val ∧ (i 1).val < win1_8.index t (1 : Fin 4) * 96 + 96; omega
  | ⟨2, _⟩ => show win1_8.index t (2 : Fin 4) * 64 ≤ (i 2).val ∧ (i 2).val < win1_8.index t (2 : Fin 4) * 64 + 64; omega
  | ⟨3, _⟩ => show win1_8.index t (3 : Fin 4) * 256 ≤ (i 3).val ∧ (i 3).val < win1_8.index t (3 : Fin 4) * 256 + 256; omega

/-- The result array after the launch is the mix array. -/
private theorem reg1_arr (c : Dev nD) : reg1Out V c = mixArr V c := by
  unfold reg1Out
  exact (dat1 (F := Ideal) V c).arrAt_eq_of_cover 8 (mixArr V c) (fun t _ => flushed_eq V c t) covered

/-- After the second launch its result array holds, entry by entry, the mix of the arrays the launch found: the padded input, the
    row means, the three taps, the gate and the two residual weights. -/
theorem reg1_out (c : Dev nD) (n : Fin 8) (ch : Fin 96) (h : Fin 256) (w : Fin 256) :
    reg1Out V c (ix4 n ch h w)
      = (((vXp V c (ix4 n ch h (Spec.tapPos w 0)) * vF0 V c (ix4 n ch (0 : Fin 1) (0 : Fin 1))
            + vXp V c (ix4 n ch h (Spec.tapPos w 1)) * vF1 V c (ix4 n ch (0 : Fin 1) (0 : Fin 1)))
            + vXp V c (ix4 n ch h (Spec.tapPos w 2)) * vF2 V c (ix4 n ch (0 : Fin 1) (0 : Fin 1)))
          * (vIns V c (ix3 ch (0 : Fin 1) (0 : Fin 1)) + Spec.one)
          - vIns V c (ix3 ch (0 : Fin 1) (0 : Fin 1)) * vGap V c (ix4 n ch h (0 : Fin 1)))
          * vL V c (ix3 ch (0 : Fin 1) (0 : Fin 1))
        + vXp V c (ix4 n ch h (Spec.tapPos w 1)) * (vH V c (ix3 ch (0 : Fin 1) (0 : Fin 1)) + Spec.one) := by
  rw [reg1_arr]
  rfl

end Cert.KernelIdeal.KVal

end
-- ==== Proof.PadLaw.lean ====
/- Reflection padding by one column on each side of the last axis, as a pure function of an array: column 1 in front,
   the row, column 254 behind.  Padded position j of a row reads column `padCol j`. -/
import proofs.«140862_j75453985457454_1_alg».proof.Proof.Spec
import Idealize.ShloMosaic.Lib.ValueIdx
import Idealize.ShloMosaic.Lib.Pipeline.Value

noncomputable section

namespace Cert.PadLaw

open Idealize.ShloMosaic Idealize.ShloMosaic.ValueIdx

/-- One column of the array, the array, and the array with one and with two columns more. -/
abbrev P1 : Shape := ⟨4, ![8, 96, 256, 1]⟩
abbrev P256 : Shape := ⟨4, ![8, 96, 256, 256]⟩
abbrev P257 : Shape := ⟨4, ![8, 96, 256, 257]⟩
abbrev P258 : Shape := ⟨4, ![8, 96, 256, 258]⟩

variable {α : Type}

/-- Reversing a one-column array along its column axis changes nothing: the only column is its own mirror image. -/
theorem reverse_col (y : P1.Idx → α) (n : Fin 8) (ch : Fin 96) (h : Fin 256) (z : Fin 1) :
    Host.reverse [3] y (ix4 n ch h z) = y (ix4 n ch h z) := by
  unfold Host.reverse
  congr 1
  funext a
  match a with
  | ⟨0, _⟩ => rfl
  | ⟨1, _⟩ => rfl
  | ⟨2, _⟩ => rfl
  | ⟨3, _⟩ => exact @Subsingleton.elim (Fin 1) _ _ _

/-- Column o of an array of m columns, as a one-column array, reads column o. -/
theorem col_apply {m : Nat} (o : Nat) (X : (⟨4, ![8, 96, 256, m]⟩ : Shape).Idx → α)
    (hs : (⟨4, ![8, 96, 256, m]⟩ : Shape).Slices ![0, 0, 0, o] P1)
    (n : Fin 8) (ch : Fin 96) (h : Fin 256) (z : Fin 1) (k : Fin m) (hk : k.val = o) :
    extractStridedSlice P1 ![0, 0, 0, o] X hs (ix4 n ch h z) = X (ix4 n ch h k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ =>
      have hz : z.val = 0 := by omega
      show k.val = o + z.val
      omega)

/-- The array with column 1 put in front: position 0 reads column 1, position k ≥ 1 reads column k − 1. -/
def front (x : P256.Idx → α) (hs : P256.Slices ![0, 0, 0, 1] P1) (hc : Shape.Concatenates [P1, P256] P257 3) : P257.Idx → α :=
  concatenate P257 3 [⟨P1, Host.reverse [3] (extractStridedSlice P1 ![0, 0, 0, 1] x hs)⟩, ⟨P256, x⟩] hc

theorem front_zero (x : P256.Idx → α) (hs : P256.Slices ![0, 0, 0, 1] P1) (hc : Shape.Concatenates [P1, P256] P257 3)
    (n : Fin 8) (ch : Fin 96) (h : Fin 256) (k : Fin 257) (hk : k.val = 0) :
    front x hs hc (ix4 n ch h k) = x (ix4 n ch h (⟨1, by omega⟩ : Fin 256)) := by
  unfold front
  rw [concatenate_pair_apply_left (t := P257) (s₁ := P1) (s₂ := P256) (3 : Fin 4) _ _ hc (ix4 n ch h k) rfl (ix4 n ch h (0 : Fin 1)) (fun b => by
    match b with
    | ⟨0, _⟩ => rfl
    | ⟨1, _⟩ => rfl
    | ⟨2, _⟩ => rfl
    | ⟨3, _⟩ => exact hk.symm)]
  rw [reverse_col]
  exact col_apply 1 x hs n ch h 0 _ rfl

theorem front_succ (x : P256.Idx → α) (hs : P256.Slices ![0, 0, 0, 1] P1) (hc : Shape.Concatenates [P1, P256] P257 3)
    (n : Fin 8) (ch : Fin 96) (h : Fin 256) (k : Fin 257) (c : Fin 256) (hk : c.val + 1 = k.val) :
    front x hs hc (ix4 n ch h k) = x (ix4 n ch h c) := by
  unfold front
  exact concatenate_pair_apply_right (t := P257) (s₁ := P1) (s₂ := P256) (3 : Fin 4) _ _ hc (ix4 n ch h k) rfl rfl (ix4 n ch h c) (fun b hb => by
    match b, hb with
    | ⟨0, _⟩, _ => rfl
    | ⟨1, _⟩, _ => rfl
    | ⟨2, _⟩, _ => rfl
    | ⟨3, _⟩, hb => exact absurd rfl hb) hk

/-- The reflection padding of the array: column 1 in front, column 254 (position 255 of the 257) behind. -/
def padded (x : P256.Idx → α) (hs1 : P256.Slices ![0, 0, 0, 1] P1) (hc1 : Shape.Concatenates [P1, P256] P257 3)
    (hs2 : P257.Slices ![0, 0, 0, 255] P1) (hc2 : Shape.Concatenates [P257, P1] P258 3) : P258.Idx → α :=
  concatenate P258 3 [⟨P257, front x hs1 hc1⟩,
    ⟨P1, Host.reverse [3] (extractStridedSlice P1 ![0, 0, 0, 255] (front x hs1 hc1) hs2)⟩] hc2

/-- Padded position j of a row reads column `padCol j`. -/
theorem padded_apply (x : P256.Idx → α) (hs1 : P256.Slices ![0, 0, 0, 1] P1) (hc1 : Shape.Concatenates [P1, P256] P257 3)
    (hs2 : P257.Slices ![0, 0, 0, 255] P1) (hc2 : Shape.Concatenates [P257, P1] P258 3)
    (n : Fin 8) (ch : Fin 96) (h : Fin 256) (j : Fin 258) :
    padded x hs1 hc1 hs2 hc2 (ix4 n ch h j) = x (ix4 n ch h (Spec.padCol j)) := by
  have hj := j.isLt
  unfold padded
  by_cases h257 : j.val = 257
  · -- the last position: the second piece, which is position 255 of the 257, which is column 254
    rw [concatenate_pair_apply_right (t := P258) (s₁ := P257) (s₂ := P1) (3 : Fin 4) _ _ hc2 (ix4 n ch h j) rfl rfl (ix4 n ch h (0 : Fin 1)) (fun b hb => by
      match b, hb with
      | ⟨0, _⟩, _ => rfl
      | ⟨1, _⟩, _ => rfl
      | ⟨2, _⟩, _ => rfl
      | ⟨3, _⟩, hb => exact absurd rfl hb) (by show (0 : Nat) + 257 = j.val; omega)]
    rw [reverse_col, col_apply 255 (front x hs1 hc1) hs2 n ch h 0 (⟨255, by omega⟩ : Fin 257) rfl]
    rw [front_succ x hs1 hc1 n ch h _ (⟨254, by omega⟩ : Fin 256) rfl]
    congr 2
    unfold Spec.padCol
    rw [dif_neg (by omega), dif_pos h257]
  · -- a position among the first 257: the first piece at that position
    rw [concatenate_pair_apply_left (t := P258) (s₁ := P257) (s₂ := P1) (3 : Fin 4) _ _ hc2 (ix4 n ch h j) rfl (ix4 n ch h (⟨j.val, by omega⟩ : Fin 257)) (fun b => by
      match b with
      | ⟨0, _⟩ => rfl
      | ⟨1, _⟩ => rfl
      | ⟨2, _⟩ => rfl
      | ⟨3, _⟩ => rfl)]
    by_cases h0 : j.val = 0
    · rw [front_zero x hs1 hc1 n ch h _ h0]
      congr 2
      unfold Spec.padCol
      rw [dif_pos h0]
    · rw [front_succ x hs1 hc1 n ch h _ (⟨j.val - 1, by omega⟩ : Fin 256) (by show j.val - 1 + 1 = j.val; omega)]
      congr 2
      unfold Spec.padCol
      rw [dif_neg h0, dif_neg h257]

end Cert.PadLaw

end
-- ==== Proof.KHostPad.lean ====
/- The reflection padding between the launches, read at an entry: column 1 reversed in front, the row, column 254 reversed
   behind — padded position j of a row reads column `padCol j`. -/
import proofs.«140862_j75453985457454_1_alg».proof.Proof.Gen.KernelIdeal.Frame
import proofs.«140862_j75453985457454_1_alg».proof.Proof.Spec
import proofs.«140862_j75453985457454_1_alg».proof.Proof.KDefs
import proofs.«140862_j75453985457454_1_alg».proof.Proof.PadLaw
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.KernelIdeal.KVal

open Idealize.ShloMosaic Idealize.ShloMosaic.TcCoe Idealize.ShloMosaic.ValueIdx Idealize.SL.Sem
open Cert.KernelIdeal Cert.KernelIdeal.Gen

/-- The padded array is the reflection padding of the argument: the operations before the padding leave the argument
    as it was, and the two reshapes after it leave the padded array as it was. -/
theorem hXp_eq (U : Valuation τ sig (Elt Ideal)) :
    hXp U = Cert.PadLaw.padded (uX U) slices_S8x96x256x256_S8x96x256x1_0_0_0_1
      concatenates_S8x96x256x1_S8x96x256x256_S8x96x256x257_d3 slices_S8x96x256x257_S8x96x256x1_0_0_0_255
      concatenates_S8x96x256x257_S8x96x256x1_S8x96x256x258_d3 := by
  unfold hXp uX Cert.PadLaw.padded Cert.PadLaw.front
  show StableHlo.after hostOps1_2 (StableHlo.after hostOps1_1 (StableHlo.after hostOps1 U)) (Proc.devRef .tc main_v20) = _
  open Idealize.ShloMosaic.StableHlo in after_results
  simp only [StableHlo.TRef.ofBuf, StableHlo.TRef.toBuf, cast_eq]

/-- The padded input the second launch reads, at an entry. -/
theorem host_pad (U : Valuation τ sig (Elt Ideal)) (n : Fin 8) (ch : Fin 96) (h : Fin 256) (j : Fin 258) :
    hXp U (ix4 n ch h j) = uX U (ix4 n ch h (Spec.padCol j)) := by
  rw [hXp_eq]
  exact Cert.PadLaw.padded_apply _ _ _ _ _ n ch h j

end Cert.KernelIdeal.KVal

end
-- ==== Proof.KHostFilt.lean ====
/- The host operations between the launches that make the filter: the mean over the rows of the first launch's row means,
   the 1×1 convolution with the weight's transpose, tanh, and the broadcast of each group's three taps over the group's 48
   channels; and the two reshapes of the residual weights. Each read at an entry. -/
import proofs.«140862_j75453985457454_1_alg».proof.Proof.Gen.KernelIdeal.Frame
import proofs.«140862_j75453985457454_1_alg».proof.Proof.Spec
import proofs.«140862_j75453985457454_1_alg».proof.Proof.KDefs
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.KernelIdeal.KVal

open Idealize.ShloMosaic Idealize.ShloMosaic.TcCoe Idealize.ShloMosaic.ValueIdx Idealize.SL.Sem
open Cert.KernelIdeal Cert.KernelIdeal.Gen

variable (U : Valuation τ sig (Elt Ideal))

/-- The obligation that no operation of a literal list writes a given buffer: one inequality of references per operation. -/
local macro "no_write_in " l:ident : tactic =>
  `(tactic| (refine List.forall_iff_forall_mem.mp ?_
             simp only [$l:ident, List.Forall, StableHlo.nullary_writes, StableHlo.unary_writes, StableHlo.binary_writes,
               StableHlo.reshape_writes, Finset.mem_singleton]
             repeat' apply And.intro
             all_goals exact StableHlo.devRef_ne_of_ne (by decide)))

/-- A buffer none of the three stretches writes holds after them what it held before. -/
private theorem H_of_not_written (b : Ref sig .tc)
    (h2 : ∀ op ∈ (hostOps1_2 : List (HloOp τ sig (Elt Ideal))), (Proc.devRef .tc b : DevRef τ sig) ∉ op.writes)
    (h1 : ∀ op ∈ (hostOps1_1 : List (HloOp τ sig (Elt Ideal))), (Proc.devRef .tc b : DevRef τ sig) ∉ op.writes)
    (h0 : ∀ op ∈ (hostOps1 : List (HloOp τ sig (Elt Ideal))), (Proc.devRef .tc b : DevRef τ sig) ∉ op.writes) :
    H U (Proc.devRef .tc b) = U (Proc.devRef .tc b) :=
  calc H U (Proc.devRef .tc b)
    _ = StableHlo.after hostOps1_1 (StableHlo.after hostOps1 U) (Proc.devRef .tc b) :=
        StableHlo.after_of_forall_not_mem (b := Proc.devRef .tc b) _ _ h2
    _ = StableHlo.after hostOps1 U (Proc.devRef .tc b) :=
        StableHlo.after_of_forall_not_mem (b := Proc.devRef .tc b) _ _ h1
    _ = U (Proc.devRef .tc b) :=
        StableHlo.after_of_forall_not_mem (b := Proc.devRef .tc b) _ _ h0

/-- The first two stretches leave a buffer they do not write as it was. -/
private theorem mid_of_not_written (b : Ref sig .tc)
    (h1 : ∀ op ∈ (hostOps1_1 : List (HloOp τ sig (Elt Ideal))), (Proc.devRef .tc b : DevRef τ sig) ∉ op.writes)
    (h0 : ∀ op ∈ (hostOps1 : List (HloOp τ sig (Elt Ideal))), (Proc.devRef .tc b : DevRef τ sig) ∉ op.writes) :
    StableHlo.after hostOps1_1 (StableHlo.after hostOps1 U) (Proc.devRef .tc b) = U (Proc.devRef .tc b) :=
  (StableHlo.after_of_forall_not_mem (b := Proc.devRef .tc b) _ _ h1).trans
    (StableHlo.after_of_forall_not_mem (b := Proc.devRef .tc b) _ _ h0)

/-- The last two stretches leave a buffer they do not write as the first stretch left it. -/
private theorem H_of_first (b : Ref sig .tc)
    (h2 : ∀ op ∈ (hostOps1_2 : List (HloOp τ sig (Elt Ideal))), (Proc.devRef .tc b : DevRef τ sig) ∉ op.writes)
    (h1 : ∀ op ∈ (hostOps1_1 : List (HloOp τ sig (Elt Ideal))), (Proc.devRef .tc b : DevRef τ sig) ∉ op.writes) :
    H U (Proc.devRef .tc b) = StableHlo.after hostOps1 U (Proc.devRef .tc b) :=
  (StableHlo.after_of_forall_not_mem (b := Proc.devRef .tc b) _ _ h2).trans
    (StableHlo.after_of_forall_not_mem (b := Proc.devRef .tc b) _ _ h1)

/-- The plane-mean array the host computes from the row means: their sum over the rows, divided by 256. -/
private def meanArr : FVec Ideal S8x96 .f32 :=
  Host.divf
    (Host.reduceAdd (shapeCast S8x96x256 (uGap U) shapeCasts_S8x96x256x1_S8x96x256) (constant (F := Ideal) S_ .f32 0x00000000#32)
      reducesTo_S8x96x256_S8x96_d2 h_S_)
    (broadcastInDim S8x96 ![] bcast_S_S8x96 (constant (F := Ideal) S_ .f32 0x43800000#32))

/-- The filter array: tanh of the product of the plane means with the weight's transpose. -/
private def filtArr : FVec Ideal S8x6 .f32 :=
  Host.tanh (Host.dotGeneral dot_S8x96_S96x6_S8x6_1_0_0_1_n_n none (meanArr U)
    (transpose S96x6 [1, 0] (uW U) transposes_S6x96_S96x6_1_0))

/-- The filter spread over the channels: sample, channel, tap. -/
private def tapArr : FVec Ideal S8x96x3 .f32 :=
  shapeCast S8x96x3
    (broadcastInDim S8x2x48x3 ![0, 1, 3] bcast_S8x2x3_S8x2x48x3_0_1_3 (shapeCast S8x2x3 (filtArr U) shapeCasts_S8x6_S8x2x3))
    shapeCasts_S8x2x48x3_S8x96x3

private theorem first_v13 :
    (StableHlo.after hostOps1 U (Proc.devRef .tc main_v13) : S8x96x1x1.Idx → EReal)
      = shapeCast S8x96x1x1 (shapeCast S8x96 (extractStridedSlice S8x96x1 ![0, 0, 0] (tapArr U) slices_S8x96x3_S8x96x1_0_0_0)
          shapeCasts_S8x96x1_S8x96) shapeCasts_S8x96_S8x96x1x1 := by
  dsimp only [hostOps1]
  after_results
  rfl

private theorem first_v16 :
    (StableHlo.after hostOps1 U (Proc.devRef .tc main_v16) : S8x96x1x1.Idx → EReal)
      = shapeCast S8x96x1x1 (shapeCast S8x96 (extractStridedSlice S8x96x1 ![0, 0, 1] (tapArr U) slices_S8x96x3_S8x96x1_0_0_1)
          shapeCasts_S8x96x1_S8x96) shapeCasts_S8x96_S8x96x1x1 := by
  dsimp only [hostOps1]
  after_results
  rfl

private theorem first_v19 :
    (StableHlo.after hostOps1 U (Proc.devRef .tc main_v19) : S8x96x1x1.Idx → EReal)
      = shapeCast S8x96x1x1 (shapeCast S8x96 (extractStridedSlice S8x96x1 ![0, 0, 2] (tapArr U) slices_S8x96x3_S8x96x1_0_0_2)
          shapeCasts_S8x96x1_S8x96) shapeCasts_S8x96_S8x96x1x1 := by
  dsimp only [hostOps1]
  after_results
  rfl

/-! ### The chain read at an entry, one operation at a time -/

/-- The plane-mean array at (n, c) is the mean over the rows of the row means of plane (n, c). -/
private theorem meanArr_apply (n : Fin 8) (c : Fin 96) : meanArr U (ix2 n c) = hostMean (uGap U) n c := by
  have hR : S8x96x256.Reduces [2] S8x96 := by decide
  unfold meanArr hostMean
  rw [hostDivf_apply, broadcastInDim_scalar_apply, constant_apply, hostReduceAdd_apply,
    Ideal.hostReduceAdd_single reducesTo_S8x96x256_S8x96_d2 hR, constant_apply, Ideal.ofBits_zero_f32, zero_add]
  congr 1
  refine Finset.sum_congr rfl fun h _ => ?_
  exact shapeCast_apply _ _ _ (ix4 n c h (0 : Fin 1)) (by
    rw [Shape.rowMajor_val_four, Shape.rowMajor_val_three]
    show ((n.val * 96 + c.val) * 256 + h.val) * 1 + 0 = (n.val * 96 + c.val) * 256 + h.val
    omega)

/-- The operand indices of the product at output (n, j) and contraction coordinate c: (n, c) on the left, (c, j) on the right. -/
private theorem lhs_axis0 (j : S8x6.Idx) (k : dot_S8x96_S96x6_S8x6_1_0_0_1_n_n.contr.Idx) :
    (dot_S8x96_S96x6_S8x6_1_0_0_1_n_n.lhsIdx j k 0).val = (j 0).val := rfl
private theorem lhs_axis1 (j : S8x6.Idx) (k : dot_S8x96_S96x6_S8x6_1_0_0_1_n_n.contr.Idx) :
    (dot_S8x96_S96x6_S8x6_1_0_0_1_n_n.lhsIdx j k 1).val = (k ⟨0, by decide⟩).val :=
  DotDims.lhsIdx_val_of_single _ rfl j k
private theorem rhs_axis0 (j : S8x6.Idx) (k : dot_S8x96_S96x6_S8x6_1_0_0_1_n_n.contr.Idx) :
    (dot_S8x96_S96x6_S8x6_1_0_0_1_n_n.rhsIdx j k 0).val = (k ⟨0, by decide⟩).val :=
  DotDims.rhsIdx_val_of_single _ rfl j k
private theorem rhs_axis1 (j : S8x6.Idx) (k : dot_S8x96_S96x6_S8x6_1_0_0_1_n_n.contr.Idx) :
    (dot_S8x96_S96x6_S8x6_1_0_0_1_n_n.rhsIdx j k 1).val = (j 1).val := rfl

/-- The product of an [8, 96] array with a [96, 6] array at (n, j): the sum over the 96 channels. -/
private theorem dot_apply (l : FVec Ideal S8x96 .f32) (r : FVec Ideal S96x6 .f32) (n : Fin 8) (j : Fin 6) :
    Host.dotGeneral dot_S8x96_S96x6_S8x6_1_0_0_1_n_n none l r (ix2 n j) = ∑ c : Fin 96, l (ix2 n c) * r (ix2 c j) := by
  show FloatOps.dotGeneral dot_S8x96_S96x6_S8x6_1_0_0_1_n_n none .single l r (ix2 n j) = _
  rw [Ideal.dotGeneral_apply, ← Equiv.sum_comp (contrEquiv1 dot_S8x96_S96x6_S8x6_1_0_0_1_n_n 96 rfl rfl).symm]
  refine Finset.sum_congr rfl fun c _ => ?_
  have hc := contrEquiv1_symm_val dot_S8x96_S96x6_S8x6_1_0_0_1_n_n 96 rfl rfl c
  have hl : dot_S8x96_S96x6_S8x6_1_0_0_1_n_n.lhsIdx (ix2 n j)
      ((contrEquiv1 dot_S8x96_S96x6_S8x6_1_0_0_1_n_n 96 rfl rfl).symm c) = ix2 n c := by
    funext a
    apply Fin.ext
    match a with
    | ⟨0, _⟩ => exact lhs_axis0 _ _
    | ⟨1, _⟩ => exact (lhs_axis1 _ _).trans hc
  have hr : dot_S8x96_S96x6_S8x6_1_0_0_1_n_n.rhsIdx (ix2 n j)
      ((contrEquiv1 dot_S8x96_S96x6_S8x6_1_0_0_1_n_n 96 rfl rfl).symm c) = ix2 c j := by
    funext a
    apply Fin.ext
    match a with
    | ⟨0, _⟩ => exact (rhs_axis0 _ _).trans hc
    | ⟨1, _⟩ => exact rhs_axis1 _ _
  rw [hl, hr]

/-- The weight's transpose at (c, j) is the weight at (j, c). -/
private theorem transW_apply (W : FVec Ideal S6x96 .f32) (c : Fin 96) (j : Fin 6) :
    transpose S96x6 [1, 0] W transposes_S6x96_S96x6_1_0 (ix2 c j) = W (ix2 j c) :=
  transpose_apply _ W _ _ (ix2 j c) fun b => match b with | ⟨0, _⟩ => rfl | ⟨1, _⟩ => rfl

/-- The filter array at (n, j): tanh of the sum over the channels of plane mean times weight. -/
private theorem filtArr_apply (n : Fin 8) (j : Fin 6) :
    filtArr U (ix2 n j) = Spec.filt (hostMean (uGap U)) (uW U) n j := by
  unfold filtArr Spec.filt
  show Ideal.tanh (Host.dotGeneral dot_S8x96_S96x6_S8x6_1_0_0_1_n_n none (meanArr U)
    (transpose S96x6 [1, 0] (uW U) transposes_S6x96_S96x6_1_0) (ix2 n j)) = _
  rw [dot_apply]
  congr 1
  refine Finset.sum_congr rfl fun c _ => ?_
  rw [meanArr_apply, transW_apply]

/-- The spread filter at (n, ch, k) is the filter at (n, 3·(ch / 48) + k): channel ch is row ch % 48 of group ch / 48. -/
private theorem tapArr_apply (n : Fin 8) (ch : Fin 96) (k : Fin 3) :
    tapArr U (ix3 n ch k) = filtArr U (ix2 n (Spec.fcol ch k)) := by
  have hch := ch.isLt
  have hg : ch.val / 48 < 2 := by omega
  have hq : ch.val % 48 < 48 := by omega
  unfold tapArr
  rw [shapeCast_apply _ _ _ (ix4 n (⟨ch.val / 48, hg⟩ : Fin 2) (⟨ch.val % 48, hq⟩ : Fin 48) k) (by
    rw [Shape.rowMajor_val_four, Shape.rowMajor_val_three]
    show ((n.val * 2 + ch.val / 48) * 48 + ch.val % 48) * 3 + k.val = (n.val * 96 + ch.val) * 3 + k.val
    omega)]
  rw [broadcastInDim_apply _ _ _ _ (ix3 n (⟨ch.val / 48, hg⟩ : Fin 2) k) (fun a => by
    match a with
    | ⟨0, _⟩ => rfl
    | ⟨1, _⟩ => rfl
    | ⟨2, _⟩ => rfl)]
  exact shapeCast_apply _ _ _ (ix2 n (Spec.fcol ch k)) (by
    rw [Shape.rowMajor_val_two, Shape.rowMajor_val_three]
    show n.val * 6 + (ch.val / 48 * 3 + k.val) = (n.val * 2 + ch.val / 48) * 3 + k.val
    omega)

/-- Tap k cut out of a [8, 96, 3] array and reshaped to [8, 96, 1, 1] reads, at (n, ch, 0, 0), the array at (n, ch, k). -/
private theorem cut_apply (T : FVec Ideal S8x96x3 .f32) (o : Nat) (hs : S8x96x3.Slices ![0, 0, o] S8x96x1)
    (n : Fin 8) (ch : Fin 96) (k : Fin 3) (hk : k.val = o) :
    shapeCast S8x96x1x1 (shapeCast S8x96 (extractStridedSlice S8x96x1 ![0, 0, o] T hs) shapeCasts_S8x96x1_S8x96)
      shapeCasts_S8x96_S8x96x1x1 (ix4 n ch (0 : Fin 1) (0 : Fin 1)) = T (ix3 n ch k) := by
  rw [shapeCast_apply _ _ _ (ix2 n ch) (by
    rw [Shape.rowMajor_val_two, Shape.rowMajor_val_four]
    show n.val * 96 + ch.val = ((n.val * 96 + ch.val) * 1 + 0) * 1 + 0
    omega)]
  rw [shapeCast_apply _ _ _ (ix3 n ch (0 : Fin 1)) (by
    rw [Shape.rowMajor_val_three, Shape.rowMajor_val_two]
    show (n.val * 96 + ch.val) * 1 + 0 = n.val * 96 + ch.val
    omega)]
  exact extractStridedSlice_apply _ _ _ _ (ix3 n ch k) (fun ax => by
    match ax with
    | ⟨0, _⟩ => exact (Nat.zero_add _).symm
    | ⟨1, _⟩ => exact (Nat.zero_add _).symm
    | ⟨2, _⟩ => exact hk.trans (Nat.add_zero _).symm)

/-- A residual weight reshaped [96] → [96, 1, 1] reads, at (ch, 0, 0), the weight at ch. -/
private theorem lam_apply (v : FVec Ideal S96 .f32) (ch : Fin 96) :
    shapeCast S96x1x1 v shapeCasts_S96_S96x1x1 (ix3 ch (0 : Fin 1) (0 : Fin 1)) = v (ix1 ch) :=
  shapeCast_apply _ _ _ (ix1 ch) (by
    rw [Shape.rowMajor_val_one, Shape.rowMajor_val_three]
    show ch.val = (ch.val * 1 + 0) * 1 + 0
    omega)

/-- Tap `k` as the second launch reads it (k = 0, 1, 2). -/
theorem host_f0 (n : Fin 8) (ch : Fin 96) :
    hF0 U (ix4 n ch (0 : Fin 1) (0 : Fin 1)) = Spec.filt (hostMean (uGap U)) (uW U) n (Spec.fcol ch 0) := by
  unfold hF0
  rw [H_of_first U main_v13 (by no_write_in hostOps1_2) (by no_write_in hostOps1_1), first_v13,
    cut_apply (tapArr U) 0 _ n ch 0 rfl, tapArr_apply, filtArr_apply]
theorem host_f1 (n : Fin 8) (ch : Fin 96) :
    hF1 U (ix4 n ch (0 : Fin 1) (0 : Fin 1)) = Spec.filt (hostMean (uGap U)) (uW U) n (Spec.fcol ch 1) := by
  unfold hF1
  rw [H_of_first U main_v16 (by no_write_in hostOps1_2) (by no_write_in hostOps1_1), first_v16,
    cut_apply (tapArr U) 1 _ n ch 1 rfl, tapArr_apply, filtArr_apply]
theorem host_f2 (n : Fin 8) (ch : Fin 96) :
    hF2 U (ix4 n ch (0 : Fin 1) (0 : Fin 1)) = Spec.filt (hostMean (uGap U)) (uW U) n (Spec.fcol ch 2) := by
  unfold hF2
  rw [H_of_first U main_v19 (by no_write_in hostOps1_2) (by no_write_in hostOps1_1), first_v19,
    cut_apply (tapArr U) 2 _ n ch 2 rfl, tapArr_apply, filtArr_apply]

/-- The two residual weights reshaped [96] → [96, 1, 1]. -/
theorem host_l (ch : Fin 96) : hL U (ix3 ch (0 : Fin 1) (0 : Fin 1)) = uL U (ix1 ch) := by
  have e : (hL U : S96x1x1.Idx → EReal)
      = shapeCast S96x1x1 (StableHlo.after hostOps1_1 (StableHlo.after hostOps1 U) (Proc.devRef .tc main_arg3) : S96.Idx → EReal)
          shapeCasts_S96_S96x1x1 := by
    unfold hL
    dsimp only [H, hostOps1_2]
    after_results
    rfl
  rw [e, mid_of_not_written U main_arg3 (by no_write_in hostOps1_1) (by no_write_in hostOps1)]
  exact lam_apply (uL U) ch
theorem host_h (ch : Fin 96) : hH U (ix3 ch (0 : Fin 1) (0 : Fin 1)) = uH U (ix1 ch) := by
  have e : (hH U : S96x1x1.Idx → EReal)
      = shapeCast S96x1x1 (StableHlo.after hostOps1_1 (StableHlo.after hostOps1 U) (Proc.devRef .tc main_arg4) : S96.Idx → EReal)
          shapeCasts_S96_S96x1x1 := by
    unfold hH
    dsimp only [H, hostOps1_2]
    after_results
    rfl
  rw [e, mid_of_not_written U main_arg4 (by no_write_in hostOps1_1) (by no_write_in hostOps1)]
  exact lam_apply (uH U) ch

/-- No host operation between the launches writes the first launch's result or the gate argument. -/
theorem host_keep_v0 : H U (Proc.devRef .tc main_v0) = U (Proc.devRef .tc main_v0) :=
  H_of_not_written U main_v0 (by no_write_in hostOps1_2) (by no_write_in hostOps1_1) (by no_write_in hostOps1)
theorem host_keep_arg2 : H U (Proc.devRef .tc main_arg2) = U (Proc.devRef .tc main_arg2) :=
  H_of_not_written U main_arg2 (by no_write_in hostOps1_2) (by no_write_in hostOps1_1) (by no_write_in hostOps1)

end Cert.KernelIdeal.KVal

end
-- ==== Proof.KValue.lean ====
/- The idealized kernel's result, whole. The last boundary's contents at the result buffer are what the second launch leaves: the
   mix of the arrays it finds. Those are what the host operations leave — the padded input, the three taps, the reshaped weights — over
   the first launch's result, the row mean; and the host's mean over the rows of those row means is the plane mean in the first
   spelling. So the result is `outK` of the argument arrays. -/
import proofs.«140862_j75453985457454_1_alg».proof.Proof.Gen.KernelIdeal.Frame
import proofs.«140862_j75453985457454_1_alg».proof.Proof.Spec
import proofs.«140862_j75453985457454_1_alg».proof.Proof.KDefs
import proofs.«140862_j75453985457454_1_alg».proof.Proof.KReg0
import proofs.«140862_j75453985457454_1_alg».proof.Proof.KReg1
import proofs.«140862_j75453985457454_1_alg».proof.Proof.KHostPad
import proofs.«140862_j75453985457454_1_alg».proof.Proof.KHostFilt
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The argument arrays at launch, at their literal types. -/
def mX (c : Dev nD) : FVec Ideal S8x96x256x256 .f32 := m ((c : Thread nD τ).loc main_arg0)
def mW (c : Dev nD) : FVec Ideal S6x96 .f32 := m ((c : Thread nD τ).loc main_arg1)
def mIns (c : Dev nD) : FVec Ideal S96x1x1 .f32 := m ((c : Thread nD τ).loc main_arg2)
def mL (c : Dev nD) : FVec Ideal S96 .f32 := m ((c : Thread nD τ).loc main_arg3)
def mH (c : Dev nD) : FVec Ideal S96 .f32 := m ((c : Thread nD τ).loc main_arg4)

/-! The first launch leaves the arguments as launched (it reads the input through a window and touches no other) and its result
    at the write-backs' fold. -/
theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)

theorem uX_W1 (c : Dev nD) : uX (W1 m ρ c) = mX m c := W1_arg0 m ρ c
theorem uW_W1 (c : Dev nD) : uW (W1 m ρ c) = mW m c := W1_arg1 m ρ c
theorem uL_W1 (c : Dev nD) : uL (W1 m ρ c) = mL m c := W1_arg3 m ρ c
theorem uH_W1 (c : Dev nD) : uH (W1 m ρ c) = mH m c := W1_arg4 m ρ c
theorem uGap_W1 (c : Dev nD) : uGap (W1 m ρ c) = reg0Out (V0 m ρ) c := W1_arr m ρ c 1
theorem vX_V0 (c : Dev nD) : vX (V0 m ρ) c = mX m c := rfl

/-- The host's plane mean of the first launch's row means is the plane mean in the first spelling. -/
theorem hostMean_reg0 (c : Dev nD) : hostMean (reg0Out (V0 m ρ) c) = Spec.meanK (mX m c) := by
  funext n ch
  unfold hostMean Spec.meanK
  simp only [reg0_gap, vX_V0]

/-! What the second launch finds is what the host operations leave. -/
theorem vXp_V4 (c : Dev nD) : vXp (V4 m ρ) c = hXp (W1 m ρ c) := rfl
theorem vF0_V4 (c : Dev nD) : vF0 (V4 m ρ) c = hF0 (W1 m ρ c) := rfl
theorem vF1_V4 (c : Dev nD) : vF1 (V4 m ρ) c = hF1 (W1 m ρ c) := rfl
theorem vF2_V4 (c : Dev nD) : vF2 (V4 m ρ) c = hF2 (W1 m ρ c) := rfl
theorem vL_V4 (c : Dev nD) : vL (V4 m ρ) c = hL (W1 m ρ c) := rfl
theorem vH_V4 (c : Dev nD) : vH (V4 m ρ) c = hH (W1 m ρ c) := rfl
theorem vIns_V4 (c : Dev nD) : vIns (V4 m ρ) c = mIns m c :=
  (host_keep_arg2 (W1 m ρ c)).trans (W1_arg2 m ρ c)
theorem vGap_V4 (c : Dev nD) : vGap (V4 m ρ) c = reg0Out (V0 m ρ) c :=
  (host_keep_v0 (W1 m ρ c)).trans (W1_arr m ρ c 1)

/-- The result buffer at the last boundary's contents is `outK` of the argument arrays. -/
theorem result_eq (c : Dev nD) :
    W5 m ρ c (Proc.devRef .tc main_v23) = Spec.outK (mX m c) (mW m c) (mIns m c) (mL m c) (mH m c) := by
  refine (W5_arr m ρ c 8).trans ?_
  show reg1Out (V4 m ρ) c = _
  funext i
  obtain ⟨n, ch, h, w, rfl⟩ : ∃ (n : Fin 8) (ch : Fin 96) (h : Fin 256) (w : Fin 256), i = ix4 n ch h w :=
    ⟨i 0, i 1, i 2, i 3, eq_ix4 i⟩
  rw [reg1_out, vXp_V4, vF0_V4, vF1_V4, vF2_V4, vL_V4, vH_V4, vIns_V4, vGap_V4,
    host_pad, host_pad, host_pad, host_f0, host_f1, host_f2, host_l, host_h,
    uX_W1, uW_W1, uL_W1, uH_W1, uGap_W1, hostMean_reg0, reg0_gap, vX_V0, Spec.outK_apply]
  unfold Spec.mix Spec.tap
  rw [Spec.padCol_tapPos_one]

end Cert.KernelIdeal.KVal

end
-- ==== Proof.RefOps.lean ====
/- Laid out by `bun scratch/mk_refops.js .` run in the unit directory (the script is filed with the unit, under scratch/) from proof/ReferenceIdeal.lean: the reference's @main as the list
   of its 67 host operations in program order, the padding function's eight operations (with its two one-column reversals) written at the
   call site over the call's buffer record. That the list IS the program is proved where it is used (the run's `main_eq`). -/
import proofs.«140862_j75453985457454_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 67 host operations, in order. -/
abbrev ops : List (HloOp τ sig (Elt F)) :=
  [ nullary main_cst (constant S_ .f32 0x00000000#32),
    binary main_arg0 main_cst main_v0 ((fun x v => Host.reduceAdd x v reducesTo_S8x96x256x256_S8x96_d2_3 h_S_) : (⟨S8x96x256x256, .f32⟩ : BufTy).Contents (Elt F) → (⟨S_, .f32⟩ : BufTy).Contents (Elt F) → (⟨S8x96, .f32⟩ : BufTy).Contents (Elt F)),
    nullary main_cst_0 (constant S_ .f32 0x47800000#32),
    unary main_cst_0 main_v1 (broadcastInDim S8x96 ![] bcast_S_S8x96 : (⟨S_, .f32⟩ : BufTy).Contents (Elt F) → (⟨S8x96, .f32⟩ : BufTy).Contents (Elt F)),
    binary main_v0 main_v1 main_v2 (Host.divf : (⟨S8x96, .f32⟩ : BufTy).Contents (Elt F) → (⟨S8x96, .f32⟩ : BufTy).Contents (Elt F) → (⟨S8x96, .f32⟩ : BufTy).Contents (Elt F)),
    unary main_arg1 main_v3 ((transpose S96x6 [1, 0] · transposes_S6x96_S96x6_1_0) : (⟨S6x96, .f32⟩ : BufTy).Contents (Elt F) → (⟨S96x6, .f32⟩ : BufTy).Contents (Elt F)),
    binary main_v2 main_v3 main_v4 ((fun l r => Host.dotGeneral dot_S8x96_S96x6_S8x6_1_0_0_1_n_n none l r) : (⟨S8x96, .f32⟩ : BufTy).Contents (Elt F) → (⟨S96x6, .f32⟩ : BufTy).Contents (Elt F) → (⟨S8x6, .f32⟩ : BufTy).Contents (Elt F)),
    unary main_v4 main_v5 (Host.tanh : (⟨S8x6, .f32⟩ : BufTy).Contents (Elt F) → (⟨S8x6, .f32⟩ : BufTy).Contents (Elt F)),
    reshape main_v5 main_v6 rfl shapeCasts_S8x6_S8x2x3,
    nullary main_c (constantI S_ 32 0#32),
    TRef.unary (.of main_arg0 : TRef sig ⟨S8x96x256x256, .f32⟩) main_call0.v0 (extractStridedSlice S8x96x256x1 ![0, 0, 0, 0] · slices_S8x96x256x256_S8x96x256x1_0_0_0_0),
    TRef.unary (.of main_arg0 : TRef sig ⟨S8x96x256x256, .f32⟩) main_call0.v1 (extractStridedSlice S8x96x256x1 ![0, 0, 0, 1] · slices_S8x96x256x256_S8x96x256x1_0_0_0_1),
    TRef.unary main_call0.v1 main_call0.call0.v0 (Host.reverse [3]),
    TRef.binary main_call0.call0.v0 (.of main_arg0 : TRef sig ⟨S8x96x256x256, .f32⟩) main_call0.v3 (fun a b => concatenate S8x96x256x257 3 [⟨S8x96x256x1, a⟩, ⟨S8x96x256x256, b⟩] concatenates_S8x96x256x1_S8x96x256x256_S8x96x256x257_d3),
    TRef.unary main_call0.v3 main_call0.v4 (extractStridedSlice S8x96x256x1 ![0, 0, 0, 256] · slices_S8x96x256x257_S8x96x256x1_0_0_0_256),
    TRef.unary main_call0.v3 main_call0.v5 (extractStridedSlice S8x96x256x1 ![0, 0, 0, 255] · slices_S8x96x256x257_S8x96x256x1_0_0_0_255),
    TRef.unary main_call0.v5 main_call0.call1.v0 (Host.reverse [3]),
    TRef.binary main_call0.v3 main_call0.call1.v0 main_call0.v7 (fun a b => concatenate S8x96x256x258 3 [⟨S8x96x256x257, a⟩, ⟨S8x96x256x1, b⟩] concatenates_S8x96x256x257_S8x96x256x1_S8x96x256x258_d3),
    reshape main_v7 main_v8 rfl shapeCasts_S8x96x256x258_S8x2x48x256x258,
    unary main_v8 main_v9 ((extractStridedSlice S8x2x48x256x256 ![0, 0, 0, 0, 0] · slices_S8x2x48x256x258_S8x2x48x256x256_0_0_0_0_0) : (⟨S8x2x48x256x258, .f32⟩ : BufTy).Contents (Elt F) → (⟨S8x2x48x256x256, .f32⟩ : BufTy).Contents (Elt F)),
    unary main_v6 main_v10 ((extractStridedSlice S8x2x1 ![0, 0, 0] · slices_S8x2x3_S8x2x1_0_0_0) : (⟨S8x2x3, .f32⟩ : BufTy).Contents (Elt F) → (⟨S8x2x1, .f32⟩ : BufTy).Contents (Elt F)),
    reshape main_v10 main_v11 rfl shapeCasts_S8x2x1_S8x2,
    unary main_v11 main_v12 (broadcastInDim S8x2x1x1x1 ![0, 1] bcast_S8x2_S8x2x1x1x1_0_1 : (⟨S8x2, .f32⟩ : BufTy).Contents (Elt F) → (⟨S8x2x1x1x1, .f32⟩ : BufTy).Contents (Elt F)),
    unary main_v12 main_v13 (broadcastInDim S8x2x48x256x256 ![0, 1, 2, 3, 4] bcast_S8x2x1x1x1_S8x2x48x256x256_0_1_2_3_4 : (⟨S8x2x1x1x1, .f32⟩ : BufTy).Contents (Elt F) → (⟨S8x2x48x256x256, .f32⟩ : BufTy).Contents (Elt F)),
    binary main_v9 main_v13 main_v14 (mulf : (⟨S8x2x48x256x256, .f32⟩ : BufTy).Contents (Elt F) → (⟨S8x2x48x256x256, .f32⟩ : BufTy).Contents (Elt F) → (⟨S8x2x48x256x256, .f32⟩ : BufTy).Contents (Elt F)),
    unary main_v8 main_v15 ((extractStridedSlice S8x2x48x256x256 ![0, 0, 0, 0, 1] · slices_S8x2x48x256x258_S8x2x48x256x256_0_0_0_0_1) : (⟨S8x2x48x256x258, .f32⟩ : BufTy).Contents (Elt F) → (⟨S8x2x48x256x256, .f32⟩ : BufTy).Contents (Elt F)),
    unary main_v6 main_v16 ((extractStridedSlice S8x2x1 ![0, 0, 1] · slices_S8x2x3_S8x2x1_0_0_1) : (⟨S8x2x3, .f32⟩ : BufTy).Contents (Elt F) → (⟨S8x2x1, .f32⟩ : BufTy).Contents (Elt F)),
    reshape main_v16 main_v17 rfl shapeCasts_S8x2x1_S8x2,
    unary main_v17 main_v18 (broadcastInDim S8x2x1x1x1 ![0, 1] bcast_S8x2_S8x2x1x1x1_0_1 : (⟨S8x2, .f32⟩ : BufTy).Contents (Elt F) → (⟨S8x2x1x1x1, .f32⟩ : BufTy).Contents (Elt F)),
    unary main_v18 main_v19 (broadcastInDim S8x2x48x256x256 ![0, 1, 2, 3, 4] bcast_S8x2x1x1x1_S8x2x48x256x256_0_1_2_3_4 : (⟨S8x2x1x1x1, .f32⟩ : BufTy).Contents (Elt F) → (⟨S8x2x48x256x256, .f32⟩ : BufTy).Contents (Elt F)),
    binary main_v15 main_v19 main_v20 (mulf : (⟨S8x2x48x256x256, .f32⟩ : BufTy).Contents (Elt F) → (⟨S8x2x48x256x256, .f32⟩ : BufTy).Contents (Elt F) → (⟨S8x2x48x256x256, .f32⟩ : BufTy).Contents (Elt F)),
    binary main_v14 main_v20 main_v21 (addf : (⟨S8x2x48x256x256, .f32⟩ : BufTy).Contents (Elt F) → (⟨S8x2x48x256x256, .f32⟩ : BufTy).Contents (Elt F) → (⟨S8x2x48x256x256, .f32⟩ : BufTy).Contents (Elt F)),
    unary main_v8 main_v22 ((extractStridedSlice S8x2x48x256x256 ![0, 0, 0, 0, 2] · slices_S8x2x48x256x258_S8x2x48x256x256_0_0_0_0_2) : (⟨S8x2x48x256x258, .f32⟩ : BufTy).Contents (Elt F) → (⟨S8x2x48x256x256, .f32⟩ : BufTy).Contents (Elt F)),
    unary main_v6 main_v23 ((extractStridedSlice S8x2x1 ![0, 0, 2] · slices_S8x2x3_S8x2x1_0_0_2) : (⟨S8x2x3, .f32⟩ : BufTy).Contents (Elt F) → (⟨S8x2x1, .f32⟩ : BufTy).Contents (Elt F)),
    reshape main_v23 main_v24 rfl shapeCasts_S8x2x1_S8x2,
    unary main_v24 main_v25 (broadcastInDim S8x2x1x1x1 ![0, 1] bcast_S8x2_S8x2x1x1x1_0_1 : (⟨S8x2, .f32⟩ : BufTy).Contents (Elt F) → (⟨S8x2x1x1x1, .f32⟩ : BufTy).Contents (Elt F)),
    unary main_v25 main_v26 (broadcastInDim S8x2x48x256x256 ![0, 1, 2, 3, 4] bcast_S8x2x1x1x1_S8x2x48x256x256_0_1_2_3_4 : (⟨S8x2x1x1x1, .f32⟩ : BufTy).Contents (Elt F) → (⟨S8x2x48x256x256, .f32⟩ : BufTy).Contents (Elt F)),
    binary main_v22 main_v26 main_v27 (mulf : (⟨S8x2x48x256x256, .f32⟩ : BufTy).Contents (Elt F) → (⟨S8x2x48x256x256, .f32⟩ : BufTy).Contents (Elt F) → (⟨S8x2x48x256x256, .f32⟩ : BufTy).Contents (Elt F)),
    binary main_v21 main_v27 main_v28 (addf : (⟨S8x2x48x256x256, .f32⟩ : BufTy).Contents (Elt F) → (⟨S8x2x48x256x256, .f32⟩ : BufTy).Contents (Elt F) → (⟨S8x2x48x256x256, .f32⟩ : BufTy).Contents (Elt F)),
    reshape main_v28 main_v29 rfl shapeCasts_S8x2x48x256x256_S8x96x256x256,
    nullary main_cst_1 (constant S_ .f32 0x00000000#32),
    binary main_arg0 main_cst_1 main_v30 ((fun x v => Host.reduceAdd x v reducesTo_S8x96x256x256_S8x96x256_d3 h_S_) : (⟨S8x96x256x256, .f32⟩ : BufTy).Contents (Elt F) → (⟨S_, .f32⟩ : BufTy).Contents (Elt F) → (⟨S8x96x256, .f32⟩ : BufTy).Contents (Elt F)),
    unary main_v30 main_v31 (broadcastInDim S8x96x256x1 ![0, 1, 2] bcast_S8x96x256_S8x96x256x1_0_1_2 : (⟨S8x96x256, .f32⟩ : BufTy).Contents (Elt F) → (⟨S8x96x256x1, .f32⟩ : BufTy).Contents (Elt F)),
    nullary main_cst_2 (constant S_ .f32 0x43800000#32),
    unary main_cst_2 main_v32 (broadcastInDim S8x96x256x1 ![] bcast_S_S8x96x256x1 : (⟨S_, .f32⟩ : BufTy).Contents (Elt F) → (⟨S8x96x256x1, .f32⟩ : BufTy).Contents (Elt F)),
    binary main_v31 main_v32 main_v33 (Host.divf : (⟨S8x96x256x1, .f32⟩ : BufTy).Contents (Elt F) → (⟨S8x96x256x1, .f32⟩ : BufTy).Contents (Elt F) → (⟨S8x96x256x1, .f32⟩ : BufTy).Contents (Elt F)),
    nullary main_cst_3 (constant S_ .f32 0x3F800000#32),
    unary main_cst_3 main_v34 (broadcastInDim S96x1x1 ![] bcast_S_S96x1x1 : (⟨S_, .f32⟩ : BufTy).Contents (Elt F) → (⟨S96x1x1, .f32⟩ : BufTy).Contents (Elt F)),
    binary main_arg2 main_v34 main_v35 (addf : (⟨S96x1x1, .f32⟩ : BufTy).Contents (Elt F) → (⟨S96x1x1, .f32⟩ : BufTy).Contents (Elt F) → (⟨S96x1x1, .f32⟩ : BufTy).Contents (Elt F)),
    unary main_v35 main_v36 (broadcastInDim S1x96x1x1 ![1, 2, 3] bcast_S96x1x1_S1x96x1x1_1_2_3 : (⟨S96x1x1, .f32⟩ : BufTy).Contents (Elt F) → (⟨S1x96x1x1, .f32⟩ : BufTy).Contents (Elt F)),
    unary main_v36 main_v37 (broadcastInDim S8x96x256x256 ![0, 1, 2, 3] bcast_S1x96x1x1_S8x96x256x256_0_1_2_3 : (⟨S1x96x1x1, .f32⟩ : BufTy).Contents (Elt F) → (⟨S8x96x256x256, .f32⟩ : BufTy).Contents (Elt F)),
    binary main_v29 main_v37 main_v38 (mulf : (⟨S8x96x256x256, .f32⟩ : BufTy).Contents (Elt F) → (⟨S8x96x256x256, .f32⟩ : BufTy).Contents (Elt F) → (⟨S8x96x256x256, .f32⟩ : BufTy).Contents (Elt F)),
    unary main_arg2 main_v39 (broadcastInDim S1x96x1x1 ![1, 2, 3] bcast_S96x1x1_S1x96x1x1_1_2_3 : (⟨S96x1x1, .f32⟩ : BufTy).Contents (Elt F) → (⟨S1x96x1x1, .f32⟩ : BufTy).Contents (Elt F)),
    unary main_v39 main_v40 (broadcastInDim S8x96x256x1 ![0, 1, 2, 3] bcast_S1x96x1x1_S8x96x256x1_0_1_2_3 : (⟨S1x96x1x1, .f32⟩ : BufTy).Contents (Elt F) → (⟨S8x96x256x1, .f32⟩ : BufTy).Contents (Elt F)),
    binary main_v40 main_v33 main_v41 (mulf : (⟨S8x96x256x1, .f32⟩ : BufTy).Contents (Elt F) → (⟨S8x96x256x1, .f32⟩ : BufTy).Contents (Elt F) → (⟨S8x96x256x1, .f32⟩ : BufTy).Contents (Elt F)),
    unary main_v41 main_v42 (broadcastInDim S8x96x256x256 ![0, 1, 2, 3] bcast_S8x96x256x1_S8x96x256x256_0_1_2_3 : (⟨S8x96x256x1, .f32⟩ : BufTy).Contents (Elt F) → (⟨S8x96x256x256, .f32⟩ : BufTy).Contents (Elt F)),
    binary main_v38 main_v42 main_v43 (subf : (⟨S8x96x256x256, .f32⟩ : BufTy).Contents (Elt F) → (⟨S8x96x256x256, .f32⟩ : BufTy).Contents (Elt F) → (⟨S8x96x256x256, .f32⟩ : BufTy).Contents (Elt F)),
    unary main_arg3 main_v44 (broadcastInDim S1x96x1x1 ![1] bcast_S96_S1x96x1x1_1 : (⟨S96, .f32⟩ : BufTy).Contents (Elt F) → (⟨S1x96x1x1, .f32⟩ : BufTy).Contents (Elt F)),
    unary main_v44 main_v45 (broadcastInDim S8x96x256x256 ![0, 1, 2, 3] bcast_S1x96x1x1_S8x96x256x256_0_1_2_3 : (⟨S1x96x1x1, .f32⟩ : BufTy).Contents (Elt F) → (⟨S8x96x256x256, .f32⟩ : BufTy).Contents (Elt F)),
    binary main_v43 main_v45 main_v46 (mulf : (⟨S8x96x256x256, .f32⟩ : BufTy).Contents (Elt F) → (⟨S8x96x256x256, .f32⟩ : BufTy).Contents (Elt F) → (⟨S8x96x256x256, .f32⟩ : BufTy).Contents (Elt F)),
    unary main_arg4 main_v47 (broadcastInDim S1x96x1x1 ![1] bcast_S96_S1x96x1x1_1 : (⟨S96, .f32⟩ : BufTy).Contents (Elt F) → (⟨S1x96x1x1, .f32⟩ : BufTy).Contents (Elt F)),
    nullary main_cst_4 (constant S_ .f32 0x3F800000#32),
    unary main_cst_4 main_v48 (broadcastInDim S1x96x1x1 ![] bcast_S_S1x96x1x1 : (⟨S_, .f32⟩ : BufTy).Contents (Elt F) → (⟨S1x96x1x1, .f32⟩ : BufTy).Contents (Elt F)),
    binary main_v47 main_v48 main_v49 (addf : (⟨S1x96x1x1, .f32⟩ : BufTy).Contents (Elt F) → (⟨S1x96x1x1, .f32⟩ : BufTy).Contents (Elt F) → (⟨S1x96x1x1, .f32⟩ : BufTy).Contents (Elt F)),
    unary main_v49 main_v50 (broadcastInDim S8x96x256x256 ![0, 1, 2, 3] bcast_S1x96x1x1_S8x96x256x256_0_1_2_3 : (⟨S1x96x1x1, .f32⟩ : BufTy).Contents (Elt F) → (⟨S8x96x256x256, .f32⟩ : BufTy).Contents (Elt F)),
    binary main_arg0 main_v50 main_v51 (mulf : (⟨S8x96x256x256, .f32⟩ : BufTy).Contents (Elt F) → (⟨S8x96x256x256, .f32⟩ : BufTy).Contents (Elt F) → (⟨S8x96x256x256, .f32⟩ : BufTy).Contents (Elt F)),
    binary main_v46 main_v51 main_v52 (addf : (⟨S8x96x256x256, .f32⟩ : BufTy).Contents (Elt F) → (⟨S8x96x256x256, .f32⟩ : BufTy).Contents (Elt F) → (⟨S8x96x256x256, .f32⟩ : BufTy).Contents (Elt F)) ]

end Cert.ReferenceIdeal.RefRun

end
-- ==== Proof.RefRun.lean ====
/- The reference's run: @main is the straight line of its 67 host operations (the padding function's body unfolded at its
   call), so every weakly fair execution terminates with each buffer at the operations' fold over the launch contents. -/
import proofs.«140862_j75453985457454_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- @main is that straight line: its two windows in order, the padding function and its two one-column reversals read at
    their calls, are the sixty-seven operations one after the other. -/
theorem main_eq (c : Dev nD) : main (F := F) c = seq ops := by
  simp only [main, main_part0, main_part1, fn_pad.body, fn_flip.body, seq, bind_assoc, pure_bind]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    binary_bufs_sub .., unary_bufs_sub .., reshape_bufs_sub .., nullary_bufs_sub .., unary_bufs_sub .., unary_bufs_sub ..,
    unary_bufs_sub .., binary_bufs_sub .., unary_bufs_sub .., unary_bufs_sub .., unary_bufs_sub .., binary_bufs_sub ..,
    reshape_bufs_sub .., unary_bufs_sub .., unary_bufs_sub .., reshape_bufs_sub .., unary_bufs_sub .., unary_bufs_sub ..,
    binary_bufs_sub .., unary_bufs_sub .., unary_bufs_sub .., reshape_bufs_sub .., unary_bufs_sub .., unary_bufs_sub ..,
    binary_bufs_sub .., binary_bufs_sub .., unary_bufs_sub .., unary_bufs_sub .., reshape_bufs_sub .., unary_bufs_sub ..,
    unary_bufs_sub .., binary_bufs_sub .., binary_bufs_sub .., reshape_bufs_sub .., nullary_bufs_sub .., binary_bufs_sub ..,
    unary_bufs_sub .., nullary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    unary_bufs_sub .., nullary_bufs_sub .., unary_bufs_sub .., binary_bufs_sub .., unary_bufs_sub .., binary_bufs_sub ..,
    binary_bufs_sub ..⟩

/-- From any memory with zero counters every weakly fair execution of @main terminates, and every final state has each
    TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes an argument: each writes one buffer, and that buffer is none of the five. -/
theorem arg0_eq (U : Valuation τ sig (Elt F)) : after ops U (main_arg0 : DevRef τ sig) = U (main_arg0 : DevRef τ sig) := by
  refine after_of_forall_not_mem (b := Proc.devRef .tc main_arg0) _ _ (List.forall_iff_forall_mem.mp ?_)
  simp only [List.Forall, nullary_writes, unary_writes, binary_writes, reshape_writes, Finset.mem_singleton]
  repeat' apply And.intro
  all_goals exact devRef_ne_of_ne (by decide)
theorem arg1_eq (U : Valuation τ sig (Elt F)) : after ops U (main_arg1 : DevRef τ sig) = U (main_arg1 : DevRef τ sig) := by
  refine after_of_forall_not_mem (b := Proc.devRef .tc main_arg1) _ _ (List.forall_iff_forall_mem.mp ?_)
  simp only [List.Forall, nullary_writes, unary_writes, binary_writes, reshape_writes, Finset.mem_singleton]
  repeat' apply And.intro
  all_goals exact devRef_ne_of_ne (by decide)
theorem arg2_eq (U : Valuation τ sig (Elt F)) : after ops U (main_arg2 : DevRef τ sig) = U (main_arg2 : DevRef τ sig) := by
  refine after_of_forall_not_mem (b := Proc.devRef .tc main_arg2) _ _ (List.forall_iff_forall_mem.mp ?_)
  simp only [List.Forall, nullary_writes, unary_writes, binary_writes, reshape_writes, Finset.mem_singleton]
  repeat' apply And.intro
  all_goals exact devRef_ne_of_ne (by decide)
theorem arg3_eq (U : Valuation τ sig (Elt F)) : after ops U (main_arg3 : DevRef τ sig) = U (main_arg3 : DevRef τ sig) := by
  refine after_of_forall_not_mem (b := Proc.devRef .tc main_arg3) _ _ (List.forall_iff_forall_mem.mp ?_)
  simp only [List.Forall, nullary_writes, unary_writes, binary_writes, reshape_writes, Finset.mem_singleton]
  repeat' apply And.intro
  all_goals exact devRef_ne_of_ne (by decide)
theorem arg4_eq (U : Valuation τ sig (Elt F)) : after ops U (main_arg4 : DevRef τ sig) = U (main_arg4 : DevRef τ sig) := by
  refine after_of_forall_not_mem (b := Proc.devRef .tc main_arg4) _ _ (List.forall_iff_forall_mem.mp ?_)
  simp only [List.Forall, nullary_writes, unary_writes, binary_writes, reshape_writes, Finset.mem_singleton]
  repeat' apply And.intro
  all_goals exact devRef_ne_of_ne (by decide)

end Cert.ReferenceIdeal.RefRun

end
-- ==== Proof.RefDefs.lean ====
/- Names, at their literal vector types, for the arguments and for the stages of the reference that the proof reads at an entry. -/
import proofs.«140862_j75453985457454_1_alg».proof.Proof.RefOps
import proofs.«140862_j75453985457454_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.ReferenceIdeal.RefRead

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.RefRun

variable (U : Valuation τ sig (Elt Ideal))

/-- The arguments as the run finds them. -/
def aX : FVec Ideal S8x96x256x256 .f32 := U (main_arg0 : DevRef τ sig)
def aW : FVec Ideal S6x96 .f32 := U (main_arg1 : DevRef τ sig)
def aIns : FVec Ideal S96x1x1 .f32 := U (main_arg2 : DevRef τ sig)
def aL : FVec Ideal S96 .f32 := U (main_arg3 : DevRef τ sig)
def aH : FVec Ideal S96 .f32 := U (main_arg4 : DevRef τ sig)
/-- The stages: the filter (sample, group, tap), the reflect-padded input, the strip convolution, the row mean, the result. -/
def rFilt : FVec Ideal S8x2x3 .f32 := after ops U (main_v6 : DevRef τ sig)
def rPad : FVec Ideal S8x96x256x258 .f32 := after ops U (main_v7 : DevRef τ sig)
def rConv : FVec Ideal S8x96x256x256 .f32 := after ops U (main_v29 : DevRef τ sig)
def rGap : FVec Ideal S8x96x256x1 .f32 := after ops U (main_v33 : DevRef τ sig)
def rOut : FVec Ideal S8x96x256x256 .f32 := after ops U (main_v52 : DevRef τ sig)

end Cert.ReferenceIdeal.RefRead

end
-- ==== Proof.RefPad.lean ====
/- The reference's reflection padding read at an entry: padded position j of a row reads column `padCol j`. -/
import proofs.«140862_j75453985457454_1_alg».proof.Proof.RefOps
import proofs.«140862_j75453985457454_1_alg».proof.Proof.Spec
import proofs.«140862_j75453985457454_1_alg».proof.Proof.RefDefs
import proofs.«140862_j75453985457454_1_alg».proof.Proof.PadLaw
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.ReferenceIdeal.RefRead

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.RefRun

/-- The padded array is the reflection padding of the argument: nothing before the padding changes the argument,
    and nothing after it changes the padded array. -/
theorem rPad_eq (U : Valuation τ sig (Elt Ideal)) :
    rPad U = Cert.PadLaw.padded (aX U) slices_S8x96x256x256_S8x96x256x1_0_0_0_1
      concatenates_S8x96x256x1_S8x96x256x256_S8x96x256x257_d3 slices_S8x96x256x257_S8x96x256x1_0_0_0_255
      concatenates_S8x96x256x257_S8x96x256x1_S8x96x256x258_d3 := by
  unfold rPad aX Cert.PadLaw.padded Cert.PadLaw.front
  show after ops U (Proc.devRef .tc main_v7) = _
  after_results
  simp only [TRef.ofBuf, TRef.toBuf, cast_eq]

theorem ref_pad (U : Valuation τ sig (Elt Ideal)) (n : Fin 8) (ch : Fin 96) (h : Fin 256) (j : Fin 258) :
    rPad U (ix4 n ch h j) = aX U (ix4 n ch h (Spec.padCol j)) := by
  rw [rPad_eq]
  exact Cert.PadLaw.padded_apply _ _ _ _ _ n ch h j

end Cert.ReferenceIdeal.RefRead

end
-- ==== Proof.RefFilt.lean ====
/- The reference's filter and row mean read at an entry: the plane's sum over rows and columns divided by 65536, the 1×1
   convolution with the weight's transpose, tanh, reshaped to (sample, group, tap); and the row's sum over its columns divided by
   256. -/
import proofs.«140862_j75453985457454_1_alg».proof.Proof.RefOps
import proofs.«140862_j75453985457454_1_alg».proof.Proof.Spec
import proofs.«140862_j75453985457454_1_alg».proof.Proof.RefDefs
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws
import Idealize.ShloMosaic.Lib.StackMember

noncomputable section

namespace Cert.ReferenceIdeal.RefRead

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.RefRun

/-- The sum over the columns of a row, as the host's one-axis reduce reads it at (n, c, h). -/
private theorem rowReduce_apply (h' : S8x96x256x256.ReducesTo [3] S8x96x256) (x : S8x96x256x256.Idx → EReal) (init : EReal)
    (n : Fin 8) (c : Fin 96) (h : Fin 256) :
    Ideal.hostReduceAdd h' x init (ix3 n c h) = init + ∑ w : Fin 256, x (ix4 n c h w) := by
  rw [Ideal.hostReduceAdd_single h' (by decide) x init (ix3 n c h)]
  refine congrArg (init + ·) (Finset.sum_congr rfl fun w _ => congrArg x ?_)
  funext a
  match a with
  | ⟨0, _⟩ => rfl
  | ⟨1, _⟩ => rfl
  | ⟨2, _⟩ => rfl
  | ⟨3, _⟩ => rfl

/-- The sum over the rows and columns of a plane, as the host's two-axis reduce reads it at (n, c): the indices that
    drop to (n, c) are exactly the (n, c, h, w). -/
private theorem planeReduce_apply (h' : S8x96x256x256.ReducesTo [2, 3] S8x96) (x : S8x96x256x256.Idx → EReal) (init : EReal)
    (n : Fin 8) (c : Fin 96) :
    Ideal.hostReduceAdd h' x init (ix2 n c) = init + ∑ h : Fin 256, ∑ w : Fin 256, x (ix4 n c h w) := by
  unfold Ideal.hostReduceAdd
  refine congrArg (init + ·) ?_
  have d0 : ∀ i : S8x96x256x256.Idx, ((h'.drop i (0 : Fin 2) : Fin 8) : ℕ) = (i (0 : Fin 4)).val :=
    fun i => h'.drop_apply_val_of_eq i (0 : Fin 2) (0 : Fin 4)
  have d1 : ∀ i : S8x96x256x256.Idx, ((h'.drop i (1 : Fin 2) : Fin 96) : ℕ) = (i (1 : Fin 4)).val :=
    fun i => h'.drop_apply_val_of_eq i (1 : Fin 2) (1 : Fin 4)
  have back : ∀ i ∈ Finset.univ.filter (fun i : S8x96x256x256.Idx => h'.drop i = ix2 n c),
      ix4 n c (i 2 : Fin 256) (i 3 : Fin 256) = i := by
    intro i hi
    have e := (Finset.mem_filter.mp hi).2
    have e0 : (i (0 : Fin 4)).val = n.val := (d0 i).symm.trans (congrArg (fun q : S8x96.Idx => (q (0 : Fin 2)).val) e)
    have e1 : (i (1 : Fin 4)).val = c.val := (d1 i).symm.trans (congrArg (fun q : S8x96.Idx => (q (1 : Fin 2)).val) e)
    funext a
    match a with
    | ⟨0, _⟩ => exact Fin.ext e0.symm
    | ⟨1, _⟩ => exact Fin.ext e1.symm
    | ⟨2, _⟩ => rfl
    | ⟨3, _⟩ => rfl
  refine Eq.trans ?_ (Fintype.sum_prod_type' (fun (h : Fin 256) (w : Fin 256) => x (ix4 n c h w)))
  refine Finset.sum_nbij' (fun i => ((i 2 : Fin 256), (i 3 : Fin 256))) (fun p => ix4 n c p.1 p.2)
    (fun _ _ => Finset.mem_univ _) ?_ back (fun _ _ => rfl) (fun i hi => congrArg x (back i hi).symm)
  intro p _
  refine Finset.mem_filter.mpr ⟨Finset.mem_univ _, ?_⟩
  funext b
  match b with
  | ⟨0, _⟩ => exact Fin.ext (d0 _)
  | ⟨1, _⟩ => exact Fin.ext (d1 _)

/-- The keep-dims broadcast [8,96,256] → [8,96,256,1] read at (n, c, h, 0). -/
private theorem keepdims_apply (hb : S8x96x256.BroadcastsInDim S8x96x256x1 (![0, 1, 2] : Fin 3 → Fin S8x96x256x1.rank))
    (y : S8x96x256.Idx → EReal) (n : Fin 8) (c : Fin 96) (h : Fin 256) :
    broadcastInDim S8x96x256x1 ![0, 1, 2] hb y (ix4 n c h (0 : Fin 1)) = y (ix3 n c h) :=
  broadcastInDim_apply _ hb y _ _ (by
    intro a
    match a with
    | ⟨0, _⟩ => exact (if_neg (show ¬((8 : ℕ) = 1) by decide)).symm
    | ⟨1, _⟩ => exact (if_neg (show ¬((96 : ℕ) = 1) by decide)).symm
    | ⟨2, _⟩ => exact (if_neg (show ¬((256 : ℕ) = 1) by decide)).symm)

/-- The reshape [8,6] → [8,2,3] read at (n, g, k): row n, column 3·g + k. -/
private theorem taps_apply (hc : S8x6.ShapeCasts S8x2x3) (y : S8x6.Idx → EReal) (n : Fin 8) (g : Fin 2) (k : Fin 3) :
    shapeCast S8x2x3 y hc (ix3 n g k) = y (ix2 n (⟨g.val * 3 + k.val, by omega⟩ : Fin 6)) :=
  shapeCast_apply y hc _ _ (by
    rw [Shape.rowMajor_val_two, Shape.rowMajor_val_three]
    show n.val * 6 + (g.val * 3 + k.val) = (n.val * 2 + g.val) * 3 + k.val
    omega)

/-- The host's tanh at an index. -/
private theorem hostTanh_apply {s : Shape} (y : FVec Ideal s .f32) (i : s.Idx) : Host.tanh y i = Ideal.tanh (y i) := rfl

/-- The weight's transpose [6,96] → [96,6] read at (c, j). -/
private theorem wT_apply (ht : S6x96.Transposes [1, 0] S96x6) (W : S6x96.Idx → EReal) (c : Fin 96) (j : Fin 6) :
    transpose S96x6 [1, 0] W ht (ix2 c j) = W (ix2 j c) :=
  transpose_apply _ W ht _ _ (by
    intro b
    match b with
    | ⟨0, _⟩ => rfl
    | ⟨1, _⟩ => rfl)

/-- The 1×1 convolution: the product [8,96] · [96,6] read at (n, j) is the sum over the channels. -/
private theorem conv_apply (l : FVec Ideal S8x96 .f32) (r : FVec Ideal S96x6 .f32) (n : Fin 8) (j : Fin 6) :
    Host.dotGeneral dot_S8x96_S96x6_S8x6_1_0_0_1_n_n none l r (ix2 n j) = ∑ c : Fin 96, l (ix2 n c) * r (ix2 c j) := by
  have e : dot_S8x96_S96x6_S8x6_1_0_0_1_n_n = DotDims.plain 8 96 6 := rfl
  rw [e]
  exact StackMember.dotGeneral_plain_apply none l r n j

/-- Tap `k` of group `g` for sample `n`. -/
theorem ref_filt (U : Valuation τ sig (Elt Ideal)) (n : Fin 8) (g : Fin 2) (k : Fin 3) :
    rFilt U (ix3 n g k) = Spec.filt (Spec.meanR (aX U)) (aW U) n ⟨g.val * 3 + k.val, by omega⟩ := by
  unfold rFilt
  after_results_simp
  show shapeCast S8x2x3 _ shapeCasts_S8x6_S8x2x3 (ix3 n g k) = _
  rw [taps_apply, hostTanh_apply, conv_apply]
  unfold Spec.filt
  refine congrArg Ideal.tanh (Finset.sum_congr rfl fun c _ => ?_)
  rw [wT_apply, hostDivf_apply, broadcastInDim_scalar_apply, constant_apply, hostReduceAdd_apply, planeReduce_apply,
    constant_apply, Ideal.ofBits_zero_f32, zero_add]
  rfl

/-- The row mean. -/
theorem ref_gap (U : Valuation τ sig (Elt Ideal)) (n : Fin 8) (ch : Fin 96) (h : Fin 256) :
    rGap U (ix4 n ch h (0 : Fin 1)) = Spec.gapR (aX U) n ch h := by
  unfold rGap
  after_results_simp
  rw [hostDivf_apply, broadcastInDim_scalar_apply, constant_apply, keepdims_apply, hostReduceAdd_apply, rowReduce_apply,
    constant_apply, Ideal.ofBits_zero_f32, zero_add]
  rfl

end Cert.ReferenceIdeal.RefRead

end
-- ==== Proof.RefConv.lean ====
/- The reference's strip convolution and mix read at an entry: the padded array viewed as (sample, group, channel in group,
   row, column), three shifted windows of it each times its tap, added left to right, viewed back as (sample, channel, row,
   column); then the gate, the row-mean term and the two residual weights. -/
import proofs.«140862_j75453985457454_1_alg».proof.Proof.RefOps
import proofs.«140862_j75453985457454_1_alg».proof.Proof.Spec
import proofs.«140862_j75453985457454_1_alg».proof.Proof.RefDefs
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.ReferenceIdeal.RefRead

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.RefRun

/-! ## The run cut after the padding -/

/-- The run is the first eighteen operations (the filter and the padding), then the rest. -/
private theorem after_split (U : Valuation τ sig (Elt Ideal)) :
    after ops U = after (ops.drop 18) (after (ops.take 18) U) := by
  have e := after_append (List.take 18 ops) (List.drop 18 ops) U
  rwa [List.take_append_drop] at e

/-- What the later operations read of the contents `V0` the first eighteen leave: the padded array and the filter. -/
private def vPad (V0 : Valuation τ sig (Elt Ideal)) : FVec Ideal S8x96x256x258 .f32 := V0 (main_v7 : DevRef τ sig)
private def vFilt (V0 : Valuation τ sig (Elt Ideal)) : FVec Ideal S8x2x3 .f32 := V0 (main_v6 : DevRef τ sig)
/-- The strip convolution the later operations compute from `V0`. -/
private def tConv (V0 : Valuation τ sig (Elt Ideal)) : FVec Ideal S8x96x256x256 .f32 :=
  after (ops.drop 18) V0 (main_v29 : DevRef τ sig)

/-! ## The strip convolution as an operation on a padded array and a filter -/

/-- The padded array viewed as (sample, group, channel in group, row, column), cut to the 256 columns from `k`. -/
private def win (P : FVec Ideal S8x96x256x258 .f32) (k : Nat)
    (hk : S8x2x48x256x258.Slices ![0, 0, 0, 0, k] S8x2x48x256x256) : FVec Ideal S8x2x48x256x256 .f32 :=
  extractStridedSlice S8x2x48x256x256 ![0, 0, 0, 0, k]
    (shapeCast S8x2x48x256x258 P shapeCasts_S8x96x256x258_S8x2x48x256x258) hk

/-- Tap `k` of the filter (sample, group, tap), spread over the group's channels, the rows and the columns. -/
private def tapB (Fl : FVec Ideal S8x2x3 .f32) (k : Nat) (hk : S8x2x3.Slices ![0, 0, k] S8x2x1) :
    FVec Ideal S8x2x48x256x256 .f32 :=
  broadcastInDim S8x2x48x256x256 (![0, 1, 2, 3, 4] : Fin 5 → Fin S8x2x48x256x256.rank)
    bcast_S8x2x1x1x1_S8x2x48x256x256_0_1_2_3_4
    (broadcastInDim S8x2x1x1x1 (![0, 1] : Fin 2 → Fin S8x2x1x1x1.rank) bcast_S8x2_S8x2x1x1x1_0_1
      (shapeCast S8x2 (extractStridedSlice S8x2x1 ![0, 0, k] Fl hk) shapeCasts_S8x2x1_S8x2))

/-- Three shifted windows, each times its tap, added left to right, viewed back as (sample, channel, row, column). -/
private def convOf (P : FVec Ideal S8x96x256x258 .f32) (Fl : FVec Ideal S8x2x3 .f32) : FVec Ideal S8x96x256x256 .f32 :=
  shapeCast S8x96x256x256
    (addf
      (addf
        (mulf (win P 0 slices_S8x2x48x256x258_S8x2x48x256x256_0_0_0_0_0) (tapB Fl 0 slices_S8x2x3_S8x2x1_0_0_0))
        (mulf (win P 1 slices_S8x2x48x256x258_S8x2x48x256x256_0_0_0_0_1) (tapB Fl 1 slices_S8x2x3_S8x2x1_0_0_1)))
      (mulf (win P 2 slices_S8x2x48x256x258_S8x2x48x256x256_0_0_0_0_2) (tapB Fl 2 slices_S8x2x3_S8x2x1_0_0_2)))
    shapeCasts_S8x2x48x256x256_S8x96x256x256

/-- Window `k` at (sample n, group g, channel cc of the group, row h, column w) is the padded array at channel
    g·48 + cc and padded position k + w. -/
private theorem win_apply (P : FVec Ideal S8x96x256x258 .f32) (k : Nat)
    (hk : S8x2x48x256x258.Slices ![0, 0, 0, 0, k] S8x2x48x256x256)
    (n : Fin 8) (g : Fin 2) (cc : Fin 48) (h w : Fin 256) (ch : Fin 96) (j : Fin 258)
    (hch : ch.val = g.val * 48 + cc.val) (hj : j.val = k + w.val) :
    win P k hk (ix5 n g cc h w) = P (ix4 n ch h j) := by
  unfold win
  refine (slice5_axis4_apply k _ hk n g cc h w j hj).trans ?_
  refine shapeCast_apply _ _ _ _ ?_
  rw [Shape.rowMajor_val_four, Shape.rowMajor_val_five]
  show ((n.val * 96 + ch.val) * 256 + h.val) * 258 + j.val
      = (((n.val * 2 + g.val) * 48 + cc.val) * 256 + h.val) * 258 + j.val
  rw [hch]
  have e : (n.val * 2 + g.val) * 48 + cc.val = n.val * 96 + (g.val * 48 + cc.val) := by omega
  rw [e]

/-- The spread tap `k` at (n, g, cc, h, w) is the filter at (n, g, k). -/
private theorem tapB_apply (Fl : FVec Ideal S8x2x3 .f32) (k : Nat) (hk : S8x2x3.Slices ![0, 0, k] S8x2x1)
    (n : Fin 8) (g : Fin 2) (cc : Fin 48) (h w : Fin 256) (t : Fin 3) (ht : t.val = k) :
    tapB Fl k hk (ix5 n g cc h w) = Fl (ix3 n g t) := by
  unfold tapB
  refine (broadcastInDim_apply _ _ _ (ix5 n g cc h w) (ix5 n g (0 : Fin 1) (0 : Fin 1) (0 : Fin 1)) ?_).trans ?_
  · intro a
    match a with
    | ⟨0, _⟩ => rfl
    | ⟨1, _⟩ => rfl
    | ⟨2, _⟩ => rfl
    | ⟨3, _⟩ => rfl
    | ⟨4, _⟩ => rfl
  refine (broadcastInDim_apply _ _ _ (ix5 n g (0 : Fin 1) (0 : Fin 1) (0 : Fin 1)) (ix2 n g) ?_).trans ?_
  · intro a
    match a with
    | ⟨0, _⟩ => rfl
    | ⟨1, _⟩ => rfl
  refine (shapeCast_apply _ _ (ix2 n g) (ix3 n g (0 : Fin 1)) ?_).trans ?_
  · rw [Shape.rowMajor_val_three, Shape.rowMajor_val_two]
    show (n.val * 2 + g.val) * 1 + 0 = n.val * 2 + g.val
    omega
  refine extractStridedSlice_apply _ _ hk _ _ ?_
  intro a
  match a with
  | ⟨0, _⟩ => exact (Nat.zero_add _).symm
  | ⟨1, _⟩ => exact (Nat.zero_add _).symm
  | ⟨2, _⟩ =>
    show t.val = k + 0
    omega

/-- The operations after the padding compute the strip convolution of what the padding and the filter left. -/
private theorem tConv_eq (V0 : Valuation τ sig (Elt Ideal)) : tConv V0 = convOf (vPad V0) (vFilt V0) := by
  unfold tConv convOf win tapB vPad vFilt
  simp only [ops, List.drop_succ_cons, List.drop_zero]
  after_results_simp
  rfl

/-- The operations after the padding leave the padded array … -/
private theorem tail_pad (V0 : Valuation τ sig (Elt Ideal)) :
    after (ops.drop 18) V0 (main_v7 : DevRef τ sig) = V0 (main_v7 : DevRef τ sig) := by
  simp only [ops, List.drop_succ_cons, List.drop_zero]
  after_results_simp

/-- … and the filter as they found them. -/
private theorem tail_filt (V0 : Valuation τ sig (Elt Ideal)) :
    after (ops.drop 18) V0 (main_v6 : DevRef τ sig) = V0 (main_v6 : DevRef τ sig) := by
  simp only [ops, List.drop_succ_cons, List.drop_zero]
  after_results_simp

/-- The reference's convolution stage is the strip convolution of its padded array and its filter. -/
private theorem rConv_eq (U : Valuation τ sig (Elt Ideal)) : rConv U = convOf (rPad U) (rFilt U) := by
  have h29 : rConv U = tConv (after (ops.take 18) U) := congrFun (after_split U) (main_v29 : DevRef τ sig)
  have h7 : rPad U = vPad (after (ops.take 18) U) :=
    (congrFun (after_split U) (main_v7 : DevRef τ sig)).trans (tail_pad _)
  have h6 : rFilt U = vFilt (after (ops.take 18) U) :=
    (congrFun (after_split U) (main_v6 : DevRef τ sig)).trans (tail_filt _)
  rw [h29, h7, h6, tConv_eq]

/-- The strip convolution at an entry, over the padded array and the filter as computed. -/
theorem ref_conv (U : Valuation τ sig (Elt Ideal)) (n : Fin 8) (ch : Fin 96) (h : Fin 256) (w : Fin 256) :
    rConv U (ix4 n ch h w)
      = (rPad U (ix4 n ch h (Spec.tapPos w 0)) * rFilt U (ix3 n (⟨ch.val / 48, by omega⟩ : Fin 2) (0 : Fin 3))
          + rPad U (ix4 n ch h (Spec.tapPos w 1)) * rFilt U (ix3 n (⟨ch.val / 48, by omega⟩ : Fin 2) (1 : Fin 3)))
        + rPad U (ix4 n ch h (Spec.tapPos w 2)) * rFilt U (ix3 n (⟨ch.val / 48, by omega⟩ : Fin 2) (2 : Fin 3)) := by
  have hg : ch.val / 48 < 2 := by omega
  have hc : ch.val % 48 < 48 := Nat.mod_lt _ (by omega)
  have hch : ch.val = (⟨ch.val / 48, hg⟩ : Fin 2).val * 48 + (⟨ch.val % 48, hc⟩ : Fin 48).val := by
    show ch.val = ch.val / 48 * 48 + ch.val % 48
    omega
  rw [rConv_eq]
  unfold convOf
  refine (shapeCast_apply _ _ (ix4 n ch h w) (ix5 n (⟨ch.val / 48, hg⟩ : Fin 2) (⟨ch.val % 48, hc⟩ : Fin 48) h w) ?_).trans ?_
  · rw [Shape.rowMajor_val_five, Shape.rowMajor_val_four]
    show (((n.val * 2 + ch.val / 48) * 48 + ch.val % 48) * 256 + h.val) * 256 + w.val
        = ((n.val * 96 + ch.val) * 256 + h.val) * 256 + w.val
    have e : (n.val * 2 + ch.val / 48) * 48 + ch.val % 48 = n.val * 96 + ch.val := by omega
    rw [e]
  rw [addf_apply, addf_apply, mulf_apply, mulf_apply, mulf_apply,
    win_apply (rPad U) 0 _ n _ _ h w ch (Spec.tapPos w 0) hch (Nat.add_comm _ _),
    win_apply (rPad U) 1 _ n _ _ h w ch (Spec.tapPos w 1) hch (Nat.add_comm _ _),
    win_apply (rPad U) 2 _ n _ _ h w ch (Spec.tapPos w 2) hch (Nat.add_comm _ _),
    tapB_apply (rFilt U) 0 _ n _ _ h w (0 : Fin 3) rfl,
    tapB_apply (rFilt U) 1 _ n _ _ h w (1 : Fin 3) rfl,
    tapB_apply (rFilt U) 2 _ n _ _ h w (2 : Fin 3) rfl]

/-! ## The run cut after the row mean -/

/-- The run is the first forty-six operations (up to the row mean), then the gate and the residual mix. -/
private theorem after_split_mix (U : Valuation τ sig (Elt Ideal)) :
    after ops U = after (ops.drop 46) (after (ops.take 46) U) := by
  have e := after_append (List.take 46 ops) (List.drop 46 ops) U
  rwa [List.take_append_drop] at e

/-- What the last operations read of the contents `V1` the first forty-six leave. -/
private def vConv (V1 : Valuation τ sig (Elt Ideal)) : FVec Ideal S8x96x256x256 .f32 := V1 (main_v29 : DevRef τ sig)
private def vGap (V1 : Valuation τ sig (Elt Ideal)) : FVec Ideal S8x96x256x1 .f32 := V1 (main_v33 : DevRef τ sig)
private def vX (V1 : Valuation τ sig (Elt Ideal)) : FVec Ideal S8x96x256x256 .f32 := V1 (main_arg0 : DevRef τ sig)
private def vIns (V1 : Valuation τ sig (Elt Ideal)) : FVec Ideal S96x1x1 .f32 := V1 (main_arg2 : DevRef τ sig)
private def vL (V1 : Valuation τ sig (Elt Ideal)) : FVec Ideal S96 .f32 := V1 (main_arg3 : DevRef τ sig)
private def vH (V1 : Valuation τ sig (Elt Ideal)) : FVec Ideal S96 .f32 := V1 (main_arg4 : DevRef τ sig)
/-- The result the last operations compute from `V1`. -/
private def tOut (V1 : Valuation τ sig (Elt Ideal)) : FVec Ideal S8x96x256x256 .f32 :=
  after (ops.drop 46) V1 (main_v52 : DevRef τ sig)

/-! ## The gate and the residual mix as an operation on arrays -/

/-- (C · (I + 1) − I · G) · L + X · (H + 1), the per-channel arrays I, L, H spread over samples, rows and columns and
    the row mean G over the columns. -/
private def mixOf (C : FVec Ideal S8x96x256x256 .f32) (G : FVec Ideal S8x96x256x1 .f32) (X : FVec Ideal S8x96x256x256 .f32)
    (I : FVec Ideal S96x1x1 .f32) (L H : FVec Ideal S96 .f32) : FVec Ideal S8x96x256x256 .f32 :=
  addf
    (mulf
      (subf
        (mulf C
          (broadcastInDim S8x96x256x256 (![0, 1, 2, 3] : Fin 4 → Fin S8x96x256x256.rank) bcast_S1x96x1x1_S8x96x256x256_0_1_2_3
            (broadcastInDim S1x96x1x1 (![1, 2, 3] : Fin 3 → Fin S1x96x1x1.rank) bcast_S96x1x1_S1x96x1x1_1_2_3
              (addf I
                (broadcastInDim S96x1x1 (![] : Fin 0 → Fin S96x1x1.rank) bcast_S_S96x1x1
                  (constant (F := Ideal) S_ .f32 0x3F800000#32))))))
        (broadcastInDim S8x96x256x256 (![0, 1, 2, 3] : Fin 4 → Fin S8x96x256x256.rank) bcast_S8x96x256x1_S8x96x256x256_0_1_2_3
          (mulf
            (broadcastInDim S8x96x256x1 (![0, 1, 2, 3] : Fin 4 → Fin S8x96x256x1.rank) bcast_S1x96x1x1_S8x96x256x1_0_1_2_3
              (broadcastInDim S1x96x1x1 (![1, 2, 3] : Fin 3 → Fin S1x96x1x1.rank) bcast_S96x1x1_S1x96x1x1_1_2_3 I))
            G)))
      (broadcastInDim S8x96x256x256 (![0, 1, 2, 3] : Fin 4 → Fin S8x96x256x256.rank) bcast_S1x96x1x1_S8x96x256x256_0_1_2_3
        (broadcastInDim S1x96x1x1 (![1] : Fin 1 → Fin S1x96x1x1.rank) bcast_S96_S1x96x1x1_1 L)))
    (mulf X
      (broadcastInDim S8x96x256x256 (![0, 1, 2, 3] : Fin 4 → Fin S8x96x256x256.rank) bcast_S1x96x1x1_S8x96x256x256_0_1_2_3
        (addf (broadcastInDim S1x96x1x1 (![1] : Fin 1 → Fin S1x96x1x1.rank) bcast_S96_S1x96x1x1_1 H)
          (broadcastInDim S1x96x1x1 (![] : Fin 0 → Fin S1x96x1x1.rank) bcast_S_S1x96x1x1
            (constant (F := Ideal) S_ .f32 0x3F800000#32)))))

/-- A per-channel array [1, 96, 1, 1] spread over samples, rows and columns reads its channel. -/
private theorem spread_full_apply {α : Type} (x : S1x96x1x1.Idx → α) (n : Fin 8) (ch : Fin 96) (h w : Fin 256) :
    broadcastInDim S8x96x256x256 (![0, 1, 2, 3] : Fin 4 → Fin S8x96x256x256.rank) bcast_S1x96x1x1_S8x96x256x256_0_1_2_3 x
        (ix4 n ch h w)
      = x (ix4 (0 : Fin 1) ch (0 : Fin 1) (0 : Fin 1)) := by
  refine broadcastInDim_apply _ _ _ _ _ ?_
  intro a
  match a with
  | ⟨0, _⟩ => rfl
  | ⟨1, _⟩ => rfl
  | ⟨2, _⟩ => rfl
  | ⟨3, _⟩ => rfl

/-- The same array spread over samples and rows of a one-column array. -/
private theorem spread_col_apply {α : Type} (x : S1x96x1x1.Idx → α) (n : Fin 8) (ch : Fin 96) (h : Fin 256) :
    broadcastInDim S8x96x256x1 (![0, 1, 2, 3] : Fin 4 → Fin S8x96x256x1.rank) bcast_S1x96x1x1_S8x96x256x1_0_1_2_3 x
        (ix4 n ch h (0 : Fin 1))
      = x (ix4 (0 : Fin 1) ch (0 : Fin 1) (0 : Fin 1)) := by
  refine broadcastInDim_apply _ _ _ _ _ ?_
  intro a
  match a with
  | ⟨0, _⟩ => rfl
  | ⟨1, _⟩ => rfl
  | ⟨2, _⟩ => rfl
  | ⟨3, _⟩ => rfl

/-- A one-column array spread over the columns reads its one column. -/
private theorem spread_cols_apply {α : Type} (x : S8x96x256x1.Idx → α) (n : Fin 8) (ch : Fin 96) (h w : Fin 256) :
    broadcastInDim S8x96x256x256 (![0, 1, 2, 3] : Fin 4 → Fin S8x96x256x256.rank) bcast_S8x96x256x1_S8x96x256x256_0_1_2_3 x
        (ix4 n ch h w)
      = x (ix4 n ch h (0 : Fin 1)) := by
  refine broadcastInDim_apply _ _ _ _ _ ?_
  intro a
  match a with
  | ⟨0, _⟩ => rfl
  | ⟨1, _⟩ => rfl
  | ⟨2, _⟩ => rfl
  | ⟨3, _⟩ => rfl

/-- A [96, 1, 1] array given a leading unit axis reads the same channel. -/
private theorem lead3_apply {α : Type} (x : S96x1x1.Idx → α) (ch : Fin 96) :
    broadcastInDim S1x96x1x1 (![1, 2, 3] : Fin 3 → Fin S1x96x1x1.rank) bcast_S96x1x1_S1x96x1x1_1_2_3 x
        (ix4 (0 : Fin 1) ch (0 : Fin 1) (0 : Fin 1))
      = x (ix3 ch (0 : Fin 1) (0 : Fin 1)) := by
  refine broadcastInDim_apply _ _ _ _ _ ?_
  intro a
  match a with
  | ⟨0, _⟩ => rfl
  | ⟨1, _⟩ => rfl
  | ⟨2, _⟩ => rfl

/-- A [96] array placed on the channel axis of [1, 96, 1, 1] reads the same channel. -/
private theorem lead1_apply {α : Type} (x : S96.Idx → α) (ch : Fin 96) :
    broadcastInDim S1x96x1x1 (![1] : Fin 1 → Fin S1x96x1x1.rank) bcast_S96_S1x96x1x1_1 x
        (ix4 (0 : Fin 1) ch (0 : Fin 1) (0 : Fin 1))
      = x (ix1 ch) := by
  refine broadcastInDim_apply _ _ _ _ _ ?_
  intro a
  match a with
  | ⟨0, _⟩ => rfl

/-- The mix at an entry. -/
private theorem mixOf_apply (C : FVec Ideal S8x96x256x256 .f32) (G : FVec Ideal S8x96x256x1 .f32)
    (X : FVec Ideal S8x96x256x256 .f32) (I : FVec Ideal S96x1x1 .f32) (L H : FVec Ideal S96 .f32)
    (n : Fin 8) (ch : Fin 96) (h w : Fin 256) :
    mixOf C G X I L H (ix4 n ch h w)
      = (C (ix4 n ch h w) * (I (ix3 ch (0 : Fin 1) (0 : Fin 1)) + Spec.one)
            - I (ix3 ch (0 : Fin 1) (0 : Fin 1)) * G (ix4 n ch h (0 : Fin 1)))
          * L (ix1 ch)
        + X (ix4 n ch h w) * (H (ix1 ch) + Spec.one) := by
  unfold mixOf
  rw [addf_apply, mulf_apply, subf_apply, mulf_apply, mulf_apply,
    spread_full_apply, spread_full_apply, spread_full_apply, spread_cols_apply, mulf_apply, spread_col_apply,
    lead3_apply, lead3_apply, lead1_apply, addf_apply, addf_apply, lead1_apply,
    broadcastInDim_scalar_apply, broadcastInDim_scalar_apply, constant_apply]

/-- The last operations compute the mix of what the first forty-six left. -/
private theorem tOut_eq (V1 : Valuation τ sig (Elt Ideal)) :
    tOut V1 = mixOf (vConv V1) (vGap V1) (vX V1) (vIns V1) (vL V1) (vH V1) := by
  unfold tOut mixOf vConv vGap vX vIns vL vH
  simp only [ops, List.drop_succ_cons, List.drop_zero]
  after_results_simp <;> rfl

/-- The last operations leave the convolution … -/
private theorem tail_conv (V1 : Valuation τ sig (Elt Ideal)) :
    after (ops.drop 46) V1 (main_v29 : DevRef τ sig) = V1 (main_v29 : DevRef τ sig) := by
  simp only [ops, List.drop_succ_cons, List.drop_zero]
  after_results_simp

/-- … and the row mean as they found them. -/
private theorem tail_gap (V1 : Valuation τ sig (Elt Ideal)) :
    after (ops.drop 46) V1 (main_v33 : DevRef τ sig) = V1 (main_v33 : DevRef τ sig) := by
  simp only [ops, List.drop_succ_cons, List.drop_zero]
  after_results_simp

/-- The first forty-six operations write none of the arguments. -/
private theorem head_arg0 (U : Valuation τ sig (Elt Ideal)) :
    after (ops.take 46) U (main_arg0 : DevRef τ sig) = U (main_arg0 : DevRef τ sig) := by
  simp only [ops, List.take_succ_cons, List.take_zero]
  after_results_simp
private theorem head_arg2 (U : Valuation τ sig (Elt Ideal)) :
    after (ops.take 46) U (main_arg2 : DevRef τ sig) = U (main_arg2 : DevRef τ sig) := by
  simp only [ops, List.take_succ_cons, List.take_zero]
  after_results_simp
private theorem head_arg3 (U : Valuation τ sig (Elt Ideal)) :
    after (ops.take 46) U (main_arg3 : DevRef τ sig) = U (main_arg3 : DevRef τ sig) := by
  simp only [ops, List.take_succ_cons, List.take_zero]
  after_results_simp
private theorem head_arg4 (U : Valuation τ sig (Elt Ideal)) :
    after (ops.take 46) U (main_arg4 : DevRef τ sig) = U (main_arg4 : DevRef τ sig) := by
  simp only [ops, List.take_succ_cons, List.take_zero]
  after_results_simp

/-- The reference's result is the mix of its convolution, its row mean and the arguments. -/
private theorem rOut_eq (U : Valuation τ sig (Elt Ideal)) :
    rOut U = mixOf (rConv U) (rGap U) (aX U) (aIns U) (aL U) (aH U) := by
  have h52 : rOut U = tOut (after (ops.take 46) U) := congrFun (after_split_mix U) (main_v52 : DevRef τ sig)
  have h29 : rConv U = vConv (after (ops.take 46) U) :=
    (congrFun (after_split_mix U) (main_v29 : DevRef τ sig)).trans (tail_conv _)
  have h33 : rGap U = vGap (after (ops.take 46) U) :=
    (congrFun (after_split_mix U) (main_v33 : DevRef τ sig)).trans (tail_gap _)
  have hX : aX U = vX (after (ops.take 46) U) := (head_arg0 U).symm
  have hI : aIns U = vIns (after (ops.take 46) U) := (head_arg2 U).symm
  have hL : aL U = vL (after (ops.take 46) U) := (head_arg3 U).symm
  have hH : aH U = vH (after (ops.take 46) U) := (head_arg4 U).symm
  rw [h52, h29, h33, hX, hI, hL, hH, tOut_eq]

/-- The result at an entry, over the convolution and the row mean as computed. -/
theorem ref_mix (U : Valuation τ sig (Elt Ideal)) (n : Fin 8) (ch : Fin 96) (h : Fin 256) (w : Fin 256) :
    rOut U (ix4 n ch h w)
      = (rConv U (ix4 n ch h w) * (aIns U (ix3 ch (0 : Fin 1) (0 : Fin 1)) + Spec.one)
            - aIns U (ix3 ch (0 : Fin 1) (0 : Fin 1)) * rGap U (ix4 n ch h (0 : Fin 1)))
          * aL U (ix1 ch)
        + aX U (ix4 n ch h w) * (aH U (ix1 ch) + Spec.one) := by
  rw [rOut_eq, mixOf_apply]

end Cert.ReferenceIdeal.RefRead

end
-- ==== Proof.RefOut.lean ====
/- The reference's result, whole: entry by entry it is the second spelling `outR` of the arguments — the mix read over the
   convolution, the convolution over the padded input and the filter, each of those and the row mean read at an entry. -/
import proofs.«140862_j75453985457454_1_alg».proof.Proof.RefOps
import proofs.«140862_j75453985457454_1_alg».proof.Proof.Spec
import proofs.«140862_j75453985457454_1_alg».proof.Proof.RefDefs
import proofs.«140862_j75453985457454_1_alg».proof.Proof.RefPad
import proofs.«140862_j75453985457454_1_alg».proof.Proof.RefFilt
import proofs.«140862_j75453985457454_1_alg».proof.Proof.RefConv
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

namespace Cert.ReferenceIdeal.RefRead

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.RefRun

/-- After the reference's operations the result buffer holds `outR` of the arguments. -/
theorem out_eq (U : Valuation τ sig (Elt Ideal)) : rOut U = Spec.outR (aX U) (aW U) (aIns U) (aL U) (aH U) := by
  funext i
  obtain ⟨n, ch, h, w, rfl⟩ : ∃ (n : Fin 8) (ch : Fin 96) (h : Fin 256) (w : Fin 256), i = ix4 n ch h w :=
    ⟨i 0, i 1, i 2, i 3, eq_ix4 i⟩
  rw [ref_mix, ref_conv, ref_pad, ref_pad, ref_pad, ref_filt, ref_filt, ref_filt, ref_gap, Spec.outR_apply]
  rfl

end Cert.ReferenceIdeal.RefRead

end
-- ==== Proof.Law.lean ====
/- The one law between the two spellings of the means. A row mean is the same number either way on every extended real:
   dividing by 256 is multiplying by the exact binary fraction 1/256. The plane mean needs the entries to be real numbers: the
   factor 1/256 moves out of the sum over the rows, and 1/256 · 1/256 = 1/65536. -/
import proofs.«140862_j75453985457454_1_alg».proof.Proof.Spec
import Idealize.ShloMosaic.PureOps.Ideal.Laws

noncomputable section

namespace Cert.Spec

open Idealize.ShloMosaic Idealize.ShloMosaic.ValueIdx

/-- The word 256.0 denotes the real 256. -/
theorem w256_eq : w256 = ((256 : ℝ) : EReal) := by
  simp [Ideal.ofBits, Ideal.ieee, -EReal.coe_mul]; norm_num

/-- The word 65536.0 denotes the real 65536. -/
theorem w65536_eq : w65536 = ((65536 : ℝ) : EReal) := by
  simp [Ideal.ofBits, Ideal.ieee, -EReal.coe_mul]; norm_num

/-- The word 2⁻⁸ denotes the real 1/256. -/
theorem inv256_eq : inv256 = ((1 / 256 : ℝ) : EReal) := by
  simp [Ideal.ofBits, Ideal.ieee, -EReal.coe_mul]; norm_num

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem gapK_eq_gapR (x : FVec Ideal SX .f32) (n : Fin 8) (c : Fin 96) (h : Fin 256) : gapK x n c h = gapR x n c h := by
  unfold gapK gapR
  rw [w256_eq, inv256_eq, Ideal.div_coe (by norm_num)]

theorem meanK_eq_meanR (x : FVec Ideal SX .f32) (hx : ∀ i, ∃ r : ℝ, x i = (r : EReal)) (n : Fin 8) (c : Fin 96) :
    meanK x n c = meanR x n c := by
  choose r hr using hx
  -- each row sum is the coercion of a real row sum
  have hrow : ∀ h : Fin 256, rowSum x n c h = ((∑ w : Fin 256, r (ix4 n c h w) : ℝ) : EReal) := by
    intro h
    unfold rowSum
    rw [coe_sum]
    exact Finset.sum_congr rfl (fun w _ => hr _)
  unfold meanK meanR gapK
  rw [w256_eq, w65536_eq, inv256_eq, Ideal.div_coe (by norm_num), Ideal.div_coe (by norm_num)]
  simp only [hrow]
  -- both sides are now coercions of real expressions
  simp only [← EReal.coe_mul, ← coe_sum]
  congr 1
  rw [← Finset.sum_mul, mul_assoc]
  norm_num

/-- On real entries the two spellings are one function. -/
theorem outK_eq_outR (x : FVec Ideal SX .f32) (W : FVec Ideal SWc .f32) (ins : FVec Ideal SIn .f32) (ll lh : FVec Ideal SLam .f32)
    (hx : ∀ i, ∃ r : ℝ, x i = (r : EReal)) : outK x W ins ll lh = outR x W ins ll lh := by
  have hg : gapK x = gapR x := by
    funext n c h
    exact gapK_eq_gapR x n c h
  have hm : meanK x = meanR x := by
    funext n c
    exact meanK_eq_meanR x hx n c
  unfold outK outR
  rw [hg, hm]

end Cert.Spec

end
-- ==== Proof.Finite.lean ====
/- The precondition, read: every entry of the first argument is a real number. -/
import proofs.«140862_j75453985457454_1_alg».proof.Defs
import proofs.«140862_j75453985457454_1_alg».proof.Proof.Gen.Pre_finite_inputs
import proofs.«140862_j75453985457454_1_alg».proof.Proof.Gen.KernelIdeal
import proofs.«140862_j75453985457454_1_alg».proof.Proof.Spec
import Idealize.ShloMosaic.Lib.ReduceAll
import Idealize.ShloMosaic.Lib.ValueIdx
import Idealize.ShloMosaic.Lib.IdealHost

noncomputable section

namespace Cert.Finite

open Idealize.ShloMosaic Idealize.ShloMosaic.TcCoe Idealize.ShloMosaic.ValueIdx Idealize.SL.Sem

/-- The rank-zero shape has a single index. -/
private instance : Subsingleton Cert.Pre_finite_inputs.S_.Idx := ⟨fun a b => funext fun d => d.elim0⟩

/-- The pattern `0x7F800000` denotes `+∞`. -/
private theorem inf_pattern : Ideal.ofBits .f32 0x7F800000#32 = (⊤ : EReal) := by
  simp [Ideal.ofBits, Ideal.ieee]

/-- An extended real whose absolute value `max a (-a)` compares strictly below `+∞` is a real number:
    at `⊥` and at `⊤` the absolute value is `⊤`, which is not below itself. -/
private theorem real_of_abs_lt_inf (a : EReal)
    (h : Ideal.cmp CmpFPredicate.olt (max a (-a)) (Ideal.ofBits .f32 0x7F800000#32) = 1#1) : ∃ r : ℝ, a = (r : EReal) := by
  rw [inf_pattern] at h
  induction a using EReal.rec with
  | bot => simp [Ideal.cmp] at h
  | coe r => exact ⟨r, rfl⟩
  | top => simp [Ideal.cmp] at h

/-- Under the precondition every entry of the input is a real number. -/
theorem x_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (i : Cert.Spec.SX.Idx) :
    ∃ r : ℝ, (m ((c.tc : Thread Cert.KernelIdeal.nD Cert.KernelIdeal.τ).loc Cert.KernelIdeal.main_arg0) : FVec Ideal Cert.Spec.SX .f32) i = (r : EReal) := by
  have h0 := congrFun (hpre c) ValueIdx.ix0
  dsimp only [Cert.Pre_finite_inputs.fn, Cert.Pre_finite_inputs.fn_part1] at h0
  -- the conjunction nests to the left: the input's conjunct is the innermost first component
  have h1 : IntOp.andi _ _ = 1#1 := h0
  have h2 : IntOp.andi _ _ = 1#1 := (IntOp.andi_eq_one.1 h1).1
  have h3 : IntOp.andi _ _ = 1#1 := (IntOp.andi_eq_one.1 h2).1
  have h4 : IntOp.andi _ _ = 1#1 := (IntOp.andi_eq_one.1 h3).1
  have h5 := (IntOp.andi_eq_one.1 h4).1
  -- the reduction by `and` over all four axes is 1, so the comparison holds at the entry `i`
  have h6 := Host.reduce_andi_all _ _ _ _ _ h5 i
  rw [cmpf_apply, broadcastInDim_scalar_apply, constant_apply] at h6
  -- the comparison at `i` reads `max (x i) (-(x i)) < +∞`
  exact real_of_abs_lt_inf _ h6

end Cert.Finite

end
-- ==== Proof.lean ====
/- The certificate: the kernel (two launches with host operations between them) against its jnp reference, over the reals.

   The operator: a dynamic strip convolution along the width with a gated low/high residual mix (Proof/Spec.lean writes it out).
   Both idealized programs end with one function of the argument arrays, `Spec.mix`, over a row mean and a plane mean; they spell
   the two means differently. The kernel multiplies a row's sum by the exact binary fraction 1/256 and then averages those row
   means over the rows; the reference divides the row's sum by 256 and the plane's sum by 65536. The first pair agrees on every
   extended real; the second needs the entries to be real numbers (a factor leaves a sum), which is what the precondition gives.

   The frames of the two kernel programs are the generated ones. The reference is a straight line of host operations: its run is
   the fold of its operations over the launch contents (Proof/RefRun.lean), read at an entry stage by stage (Proof/RefPad.lean,
   RefFilt.lean, RefConv.lean, RefOut.lean). The kernel's run names its result at what the second launch's write-backs leave
   (Proof/KRun.lean); the two launches and the host operations between them are read at an entry (Proof/KReg0.lean, KReg1.lean,
   KHostPad.lean, KHostFilt.lean) and put together in Proof/KValue.lean. The idealization rewrote nothing, so `preserves` is trivial. -/
import proofs.«140862_j75453985457454_1_alg».proof.Defs
import proofs.«140862_j75453985457454_1_alg».proof.Proof.Gen.Kernel
import proofs.«140862_j75453985457454_1_alg».proof.Proof.Gen.Kernel.Frame
import proofs.«140862_j75453985457454_1_alg».proof.Proof.Gen.KernelIdeal
import proofs.«140862_j75453985457454_1_alg».proof.Proof.Gen.KernelIdeal.Frame
import proofs.«140862_j75453985457454_1_alg».proof.Proof.Gen.ReferenceIdeal
import proofs.«140862_j75453985457454_1_alg».proof.Proof.Gen.Pre_finite_inputs
import proofs.«140862_j75453985457454_1_alg».proof.Proof.KRun
import proofs.«140862_j75453985457454_1_alg».proof.Proof.KValue
import proofs.«140862_j75453985457454_1_alg».proof.Proof.RefRun
import proofs.«140862_j75453985457454_1_alg».proof.Proof.RefOut
import proofs.«140862_j75453985457454_1_alg».proof.Proof.Law
import proofs.«140862_j75453985457454_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _)⟩)
    (Cert.ReferenceIdeal.RefRun.run_main (F := Ideal) m ρ)

theorem preserves : Cert.preserves_Kernel_KernelIdeal := trivial

/-- Both runs end with the same array: the kernel's with the first spelling of the argument arrays, the reference's with the
    second of arrays that agree with them, and on real entries the two spellings are one function. -/
theorem algebraic : Cert.algebraic_KernelIdeal_ReferenceIdeal := by
  intro m ρ m' ρ' hpre hagree
  refine ⟨fun c => Cert.Spec.outK (Cert.KernelIdeal.KVal.mX m c) (Cert.KernelIdeal.KVal.mW m c) (Cert.KernelIdeal.KVal.mIns m c)
    (Cert.KernelIdeal.KVal.mL m c) (Cert.KernelIdeal.KVal.mH m c), ?_, ?_⟩
  · exact (θ_run Cert.KernelIdeal.defs _ _).mono
      (fun _ h c => ⟨((h c).1).trans (Cert.KernelIdeal.KVal.result_eq m ρ c), (h c).2⟩)
      (Cert.KernelIdeal.KVal.run_result (F := Ideal) m ρ)
  · refine (θ_run Cert.ReferenceIdeal.defs _ _).mono
      (fun _ h c => ⟨(h c Cert.ReferenceIdeal.main_v52).trans ?_,
        (h c Cert.ReferenceIdeal.main_arg0).trans (Cert.ReferenceIdeal.RefRun.arg0_eq _),
        (h c Cert.ReferenceIdeal.main_arg1).trans (Cert.ReferenceIdeal.RefRun.arg1_eq _),
        (h c Cert.ReferenceIdeal.main_arg2).trans (Cert.ReferenceIdeal.RefRun.arg2_eq _),
        (h c Cert.ReferenceIdeal.main_arg3).trans (Cert.ReferenceIdeal.RefRun.arg3_eq _),
        (h c Cert.ReferenceIdeal.main_arg4).trans (Cert.ReferenceIdeal.RefRun.arg4_eq _)⟩)
      (Cert.ReferenceIdeal.RefRun.run_main (F := Ideal) m' ρ')
    refine (Cert.ReferenceIdeal.RefRead.out_eq (StableHlo.launchContents m' c)).trans ?_
    have e0 : Cert.ReferenceIdeal.RefRead.aX (StableHlo.launchContents m' c) = Cert.KernelIdeal.KVal.mX m c := (hagree c).1
    have e1 : Cert.ReferenceIdeal.RefRead.aW (StableHlo.launchContents m' c) = Cert.KernelIdeal.KVal.mW m c := (hagree c).2.1
    have e2 : Cert.ReferenceIdeal.RefRead.aIns (StableHlo.launchContents m' c) = Cert.KernelIdeal.KVal.mIns m c := (hagree c).2.2.1
    have e3 : Cert.ReferenceIdeal.RefRead.aL (StableHlo.launchContents m' c) = Cert.KernelIdeal.KVal.mL m c := (hagree c).2.2.2.1
    have e4 : Cert.ReferenceIdeal.RefRead.aH (StableHlo.launchContents m' c) = Cert.KernelIdeal.KVal.mH m c := (hagree c).2.2.2.2
    rw [e0, e1, e2, e3, e4]
    exact (Cert.Spec.outK_eq_outR _ _ _ _ _ (Cert.Finite.x_real m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
